-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xFF333333#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S50257x1024 : Shape := ⟨2, ![50257, 1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg0 : IVec S1 32) (main_arg8 : FVec F S50257 .f32) (main_v33 : IVec S_ 1) : IVec S_ 1 :=
  let main_v34 : FVec F S50257 .f32 := Host.absf main_arg8
  let main_cst_12 : FVec F S_ .f32 := constant S_ .f32 0x7F800000#32
  let main_v35 : FVec F S50257 .f32 := broadcastInDim S50257 ![] bcast_S_S50257 main_cst_12
  let main_v36 : IVec S50257 1 := cmpf .olt main_v34 main_v35
  let main_c_13 : IVec S_ 1 := constantI S_ 1 1#1
  let main_v37 : IVec S_ 1 := (fun x v => Host.reduce IntOp.andi x v reducesTo_S50257_S_d0 h_S_) main_v36 main_c_13
  let main_v38 : IVec S_ 1 := andi main_v33 main_v37
  let main_c_14 : IVec S_ 32 := constantI S_ 32 0#32
  let main_v39 : IVec S1 32 := broadcastInDim S1 ![] bcast_S_S1 main_c_14
  let main_v40 : IVec S1 1 := cmpi .sge main_arg0 main_v39
  let main_c_15 : IVec S_ 1 := constantI S_ 1 1#1
  let main_v41 : IVec S_ 1 := (fun x v => Host.reduce IntOp.andi x v reducesTo_S1_S_d0 h_S_) main_v40 main_c_15
  let main_v42 : IVec S_ 1 := andi main_v38 main_v41
  main_v42

def fn_part1 {F : FTy → Type} [FloatOps F] (main_arg0 : IVec S1 32) (main_arg5 : FVec F S3072 .f32) (main_arg6 : FVec F S3072 .f32) (main_arg7 : FVec F S50257x1024 .f32) (main_arg8 : FVec F S50257 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg6
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S50257x1024 .f32 := Host.absf main_arg7
  let main_cst_10 : FVec F S_ .f32 := constant S_ .f32 0x7F800000#32
  let main_v30 : FVec F S50257x1024 .f32 := broadcastInDim S50257x1024 ![] bcast_S_S50257x1024 main_cst_10
  let main_v31 : IVec S50257x1024 1 := cmpf .olt main_v29 main_v30
  let main_c_11 : IVec S_ 1 := constantI S_ 1 1#1
  let main_v32 : IVec S_ 1 := (fun x v => Host.reduce IntOp.andi x v reducesTo_S50257x1024_S_d0_1 h_S_) main_v31 main_c_11
  let main_v33 : IVec S_ 1 := andi main_v28 main_v32
  fn_part2 (F := F) main_arg0 main_arg8 main_v33

def fn {F : FTy → Type} [FloatOps F] (main_arg0 : IVec S1 32) (main_arg1 : FVec F S1x1x1024 .f32) (main_arg2 : FVec F S50257x1024 .f32) (main_arg3 : FVec F S3072x1024 .f32) (main_arg4 : FVec F S3072x1024 .f32) (main_arg5 : FVec F S3072 .f32) (main_arg6 : FVec F S3072 .f32) (main_arg7 : FVec F S50257x1024 .f32) (main_arg8 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S50257x1024 .f32 := Host.absf main_arg2
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_v9 : FVec F S3072x1024 .f32 := Host.absf main_arg3
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072x1024 .f32 := Host.absf main_arg4
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg0 main_arg5 main_arg6 main_arg7 main_arg8 main_v13 main_v16
-- ==== Kernel.lean ====
abbrev S1 : Shape := ⟨1, ![1]⟩
abbrev S1x1x1024 : Shape := ⟨3, ![1, 1, 1024]⟩
abbrev S50257x1024 : Shape := ⟨2, ![50257, 1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S50257x8x128 : Shape := ⟨3, ![50257, 8, 128]⟩
abbrev S1x1024 : Shape := ⟨2, ![1, 1024]⟩
abbrev S1x8x128 : Shape := ⟨3, ![1, 8, 128]⟩
abbrev S1024x1024 : Shape := ⟨2, ![1024, 1024]⟩
abbrev S1024 : Shape := ⟨1, ![1024]⟩
abbrev S1x51200 : Shape := ⟨2, ![1, 51200]⟩
abbrev S25x8x128 : Shape := ⟨3, ![25, 8, 128]⟩
abbrev S2048x1024 : Shape := ⟨2, ![2048, 1024]⟩
abbrev S2048 : Shape := ⟨1, ![2048]⟩
abbrev S1x2048 : Shape := ⟨2, ![1, 2048]⟩
abbrev S1024x2048 : Shape := ⟨2, ![1024, 2048]⟩
abbrev S1x1 : Shape := ⟨2, ![1, 1]⟩
abbrev S1x1x1 : Shape := ⟨3, ![1, 1, 1]⟩
abbrev S25x1x1 : Shape := ⟨3, ![25, 1, 1]⟩
abbrev S25 : Shape := ⟨1, ![25]⟩
abbrev S1x50257 : Shape := ⟨2, ![1, 50257]⟩

abbrev nBuf : Space → Nat
  | .hbm => 39
  | .vmem => 18
  | .smem => 1
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S50257x1024, .f32⟩
  | .hbm, ⟨3, _⟩ => ⟨S3072x1024, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S50257x1024, .f32⟩
  | .hbm, ⟨8, _⟩ => ⟨S50257, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S50257x8x128, .f32⟩
  | .hbm, ⟨17, _⟩ => ⟨S1x1024, .f32⟩
  | .hbm, ⟨18, _⟩ => ⟨S1x51200, .f32⟩
  | .hbm, ⟨19, _⟩ => ⟨S25x8x128, .f32⟩
  | .hbm, ⟨20, _⟩ => ⟨S25x8x128, .f32⟩
  | .hbm, ⟨21, _⟩ => ⟨S25x1x1, .f32⟩
  | .hbm, ⟨22, _⟩ => ⟨S25, .f32⟩
  | .hbm, ⟨23, _⟩ => ⟨S25x1x1, .f32⟩
  | .hbm, ⟨24, _⟩ => ⟨S25, .f32⟩
  | .hbm, ⟨25, _⟩ => ⟨S_, .f32⟩
  | .hbm, ⟨26, _⟩ => ⟨S_, .f32⟩
  | .hbm, ⟨27, _⟩ => ⟨S25, .f32⟩
  | .hbm, ⟨28, _⟩ => ⟨S25, .f32⟩
  | .hbm, ⟨29, _⟩ => ⟨S25, .f32⟩
  | .hbm, ⟨30, _⟩ => ⟨S25, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1x50257, .f32⟩
  | .hbm, ⟨36, _⟩ => ⟨S1x50257, .f32⟩
  | .hbm, ⟨37, _⟩ => ⟨S1x50257, .f32⟩
  | .hbm, ⟨38, _⟩ => ⟨S1x1x1024, .f32⟩
  | .local _ .vmem, ⟨0, _⟩ => ⟨S1x8x128, .f32⟩
  | .local _ .vmem, ⟨1, _⟩ => ⟨S1x1x1024, .f32⟩
  | .local _ .vmem, ⟨2, _⟩ => ⟨S3072x1024, .f32⟩
  | .local _ .vmem, ⟨3, _⟩ => ⟨S3072x1024, .f32⟩
  | .local _ .vmem, ⟨4, _⟩ => ⟨S3072, .f32⟩
  | .local _ .vmem, ⟨5, _⟩ => ⟨S3072, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048, .f32⟩
  | .local _ .vmem, ⟨11, _⟩ => ⟨S2048, .f32⟩
  | .local _ .vmem, ⟨12, _⟩ => ⟨S1x2048, .f32⟩
  | .local _ .vmem, ⟨13, _⟩ => ⟨S1x2048, .f32⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1 : S_.BroadcastsInDim S1 (![] : Fin 0 → Fin S1.rank)
  shapeCasts_S50257x1024_S50257x8x128 : S50257x1024.ShapeCasts S50257x8x128
  inb_S1_S1_0 : ∀ a, (![0] : Fin 1 → Nat) a + S1.size a ≤ S1.size a
  numel1_S1 : S1.numel = 1
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  shapeCasts_S1x8x128_S1x1024 : S1x8x128.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  bitsLt_bf16_f32 : FTy.bits .bf16 < FTy.bits .f32
  inb_S3072x1024_S1024x1024_0_0 : ∀ a, (![0, 0] : Fin 2 → Nat) a + S1024x1024.size a ≤ S3072x1024.size a
  h_S1024x1024 : 0 < S1024x1024.numel
  inb_S3072_S1024_0 : ∀ a, (![0] : Fin 1 → Nat) a + S1024.size a ≤ S3072.size a
  h_S1024 : 0 < S1024.numel
  transposes_S1024x1024_p1_0_S1024x1024 : S1024x1024.Transposes [1, 0] S1024x1024
  shapeCasts_S1024_S1x1024 : S1024.ShapeCasts S1x1024
  inb_S3072x1024_S1024x1024_1024_0 : ∀ a, (![1024, 0] : Fin 2 → Nat) a + S1024x1024.size a ≤ S3072x1024.size a
  inb_S3072_S1024_1024 : ∀ a, (![1024] : Fin 1 → Nat) a + S1024.size a ≤ S3072.size a
  inb_S3072x1024_S1024x1024_2048_0 : ∀ a, (![2048, 0] : Fin 2 → Nat) a + S1024x1024.size a ≤ S3072x1024.size a
  inb_S3072_S1024_2048 : ∀ a, (![2048] : Fin 1 → Nat) a + S1024.size a ≤ S3072.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  transposes_S2048x1024_p1_0_S1024x2048 : S2048x1024.Transposes [1, 0] S1024x2048
  inb_S2048_S2048_0 : ∀ a, (![0] : Fin 1 → Nat) a + S2048.size a ≤ S2048.size a
  h_S2048 : 0 < S2048.numel
  shapeCasts_S2048_S1x2048 : S2048.ShapeCasts S1x2048
  iota_S1x2048_d1_w32 : S1x2048.Iotas .tc 32 [1]
  inb_S1x2048_S1x2048_0_0 : ∀ a, (![0, 0] : Fin 2 → Nat) a + S1x2048.size a ≤ S1x2048.size a
  h_S1x2048 : 0 < S1x2048.numel
  reduces_S1x2048_S1 : S1x2048.Reduces [1] S1
  shapeCasts_S1_S1x1 : S1.ShapeCasts S1x1
  broadcasts_S1x1_S1x2048 : S1x1.Broadcasts S1x2048
  shapeCasts_S1x1_S1x1x1 : S1x1.ShapeCasts S1x1x1
  broadcasts_S1x1x1_S1x8x128 : S1x1x1.Broadcasts S1x8x128
  slices_S25x8x128_S25x1x1_0_0_0 : S25x8x128.Slices ![0, 0, 0] S25x1x1
  shapeCasts_S25x1x1_S25 : S25x1x1.ShapeCasts S25
  reducesTo_S25_S_d0 : S25.ReducesTo [0] S_
  h_S_ : 0 < S_.numel
  bcast_S_S25 : S_.BroadcastsInDim S25 (![] : Fin 0 → Fin S25.rank)
  slices_S1x51200_S1x50257_0_0 : S1x51200.Slices ![0, 0] S1x50257
  bcast_S_S1x50257 : S_.BroadcastsInDim S1x50257 (![] : Fin 0 → Fin S1x50257.rank)
  bcast_S1x1024_S1x1x1024_1_2 : S1x1024.BroadcastsInDim S1x1x1024 (![1, 2] : Fin 2 → Fin S1x1x1024.rank)
  dot_S1x1024_S1024x1024_S1x1024_1_0_0_1_n_n_wf : DotDims.WF S1x1024 S1024x1024 S1x1024 [1] [0] [0] [1] [] []
  dot_S1x1024_S1024x2048_S1x2048_1_0_0_1_n_n_wf : DotDims.WF S1x1024 S1024x2048 S1x2048 [1] [0] [0] [1] [] []
  hrank0 : 0 < grid0.rank
  hstage0_0 : ∀ j, (stage0_0 j).IsWhole
  nbuf0_0 : grid0.bufCount reads0_0 false = 1
  hreads0_0 : ∀ {F : FTy → Type} [FloatOps F] (pf : pre0.Contents (Elt F)) (i i' : grid0.Coords), (∀ a, reads0_0 a = true → i a = i' a) → cc0_transform_0 inb_S1_S1_0 numel1_S1 pf i = cc0_transform_0 inb_S1_S1_0 numel1_S1 pf i'
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S1x1x1024.size a
  hwx0_1 : ∀ i : grid0.Coords, EltTy.bits .f32 = 32 ∨ (Rect.block (s := S1x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .f32 = 32 ∨ (Rect.block (s := S3072x1024) S3072x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x1024.size a ≤ S3072x1024.size a
  hwx0_3 : ∀ i : grid0.Coords, EltTy.bits .f32 = 32 ∨ (Rect.block (s := S3072x1024) S3072x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3072.size a ≤ S3072.size a
  hwx0_5 : ∀ i : grid0.Coords, EltTy.bits .f32 = 32 ∨ (Rect.block (s := S3072) S3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x1024.size a < S50257x1024.size a
  hwx1_1 : ∀ i : grid1.Coords, EltTy.bits .f32 = 32 ∨ (Rect.unit (s := S50257x1024) (fun a => cc1_transform_1 i a * S2048x1024.size a) (fun a => (Pipeline.Clip.of (cc1_transform_1 i a) (S2048x1024.size a) (S50257x1024.size a)).extent (S2048x1024.size a)) fun a => Pipeline.Clip.inb (Pipeline.Clip.ok_of (hstart1_1 i a))).WholeWords (EltTy.packing .f32)
  hwxs1_1 : ∀ i : grid1.Coords, EltTy.bits .f32 = 32 ∨ (Rect.unit (s := S2048x1024) (fun _ => 0) (fun a => (Pipeline.Clip.of (cc1_transform_1 i a) (S2048x1024.size a) (S50257x1024.size a)).extent (S2048x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S2048.size a < S50257.size a
  hwx1_2 : ∀ i : grid1.Coords, EltTy.bits .f32 = 32 ∨ (Rect.unit (s := S50257) (fun a => cc1_transform_2 i a * S2048.size a) (fun a => (Pipeline.Clip.of (cc1_transform_2 i a) (S2048.size a) (S50257.size a)).extent (S2048.size a)) fun a => Pipeline.Clip.inb (Pipeline.Clip.ok_of (hstart1_2 i a))).WholeWords (EltTy.packing .f32)
  hwxs1_2 : ∀ i : grid1.Coords, EltTy.bits .f32 = 32 ∨ (Rect.unit (s := S2048) (fun _ => 0) (fun a => (Pipeline.Clip.of (cc1_transform_2 i a) (S2048.size a) (S50257.size a)).extent (S2048.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x51200.size a
  hwx1_3 : ∀ i : grid1.Coords, EltTy.bits .f32 = 32 ∨ (Rect.block (s := S1x51200) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x128.size a ≤ S25x8x128.size a
  hwx1_4 : ∀ i : grid1.Coords, EltTy.bits .f32 = 32 ∨ (Rect.block (s := S25x8x128) S1x8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x128.size a ≤ S25x8x128.size a
  hwx1_5 : ∀ i : grid1.Coords, EltTy.bits .f32 = 32 ∨ (Rect.block (s := S25x8x128) S1x8x128.size (cc1_transform_5 i) (hinb1_5 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf

abbrev spec0_0 : Pipeline.WinSpec sig grid0.rank :=
  Pipeline.WinSpec.ofSpec (Memref.whole main_v1) S1x8x128.size reads0_0 false false 1 stage0_0 sem0_0 nbuf0_0 hstage0_0

abbrev spec0_1 : Pipeline.WinSpec sig grid0.rank :=
  Pipeline.WinSpec.ofSpec (Memref.whole main_arg1) S1x1x1024.size reads0_1 false true 1 stage0_1 sem0_1 nbuf0_1 hstage0_1

abbrev spec0_2 : Pipeline.WinSpec sig grid0.rank :=
  Pipeline.WinSpec.ofSpec (Memref.whole main_arg3) S3072x1024.size reads0_2 false true 1 stage0_2 sem0_2 nbuf0_2 hstage0_2

abbrev spec0_3 : Pipeline.WinSpec sig grid0.rank :=
  Pipeline.WinSpec.ofSpec (Memref.whole main_arg4) S3072x1024.size reads0_3 false true 1 stage0_3 sem0_3 nbuf0_3 hstage0_3

abbrev spec0_4 : Pipeline.WinSpec sig grid0.rank :=
  Pipeline.WinSpec.ofSpec (Memref.whole main_arg5) S3072.size reads0_4 false true 1 stage0_4 sem0_4 nbuf0_4 hstage0_4

abbrev spec0_5 : Pipeline.WinSpec sig grid0.rank :=
  Pipeline.WinSpec.ofSpec (Memref.whole main_arg6) S3072.size reads0_5 false true 1 stage0_5 sem0_5 nbuf0_5 hstage0_5

abbrev spec0_6 : Pipeline.WinSpec sig grid0.rank :=
  Pipeline.WinSpec.ofSpec (Memref.whole main_v2) S1x1024.size reads0_6 true true 1 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 inb_S1_S1_0 numel1_S1 pf | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (pf : pre0.Contents (Elt F)) : Prop :=
  (∀ i : grid0.Coords, ∃ h : (∀ a, (cc0_transform_0 inb_S1_S1_0 numel1_S1 pf i a + 1) * S1x8x128.size a ≤ S50257x8x128.size a), EltTy.bits .f32 = 32 ∨ (Rect.block (s := S50257x8x128) S1x8x128.size (cc0_transform_0 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | 5 => hwx0_5 | 6 => hwx0_6 | ⟨_ + 7, h⟩ => absurd h (Nat.not_lt.2 (Nat.le_add_left _ _))
abbrev win1_0 : Pipeline.Window sig grid1 :=
  Pipeline.Window.ofSpec (Memref.whole main_v2) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg7) S2048x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg8) S2048.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v3_0) S1x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x8x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_2) S1x8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  harr0 : ∀ w, (spec0 w).arr.IsWhole

variable [Facts]
-- ==== ReferenceIdeal.lean ====
abbrev S1 : Shape := ⟨1, ![1]⟩
abbrev S1x1x1024 : Shape := ⟨3, ![1, 1, 1024]⟩
abbrev S50257x1024 : Shape := ⟨2, ![50257, 1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 83
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S50257x1024, .f32⟩
  | .hbm, ⟨3, _⟩ => ⟨S3072x1024, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S50257x1024, .f32⟩
  | .hbm, ⟨8, _⟩ => ⟨S50257, .f32⟩
  | .hbm, ⟨9, _⟩ => ⟨S_, .i32⟩
  | .hbm, ⟨10, _⟩ => ⟨S1, .i32⟩
  | .hbm, ⟨11, _⟩ => ⟨S1, .i1⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1x1, .i32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024x3072, .f32⟩
  | .hbm, ⟨23, _⟩ => ⟨S1x3072, .f32⟩
  | .hbm, ⟨24, _⟩ => ⟨S1x3072, .f32⟩
  | .hbm, ⟨25, _⟩ => ⟨S1x3072, .f32⟩
  | .hbm, ⟨26, _⟩ => ⟨S1024x3072, .f32⟩
  | .hbm, ⟨27, _⟩ => ⟨S1x3072, .f32⟩
  | .hbm, ⟨28, _⟩ => ⟨S1x3072, .f32⟩
  | .hbm, ⟨29, _⟩ => ⟨S1x3072, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1024x50257, .f32⟩
  | .hbm, ⟨64, _⟩ => ⟨S1x50257, .f32⟩
  | .hbm, ⟨65, _⟩ => ⟨S1x50257, .f32⟩
  | .hbm, ⟨66, _⟩ => ⟨S1x50257, .f32⟩
  | .hbm, ⟨67, _⟩ => ⟨S_, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S1x1, .f32⟩
  | .hbm, ⟨73, _⟩ => ⟨S1x50257, .f32⟩
  | .hbm, ⟨74, _⟩ => ⟨S1x50257, .f32⟩
  | .hbm, ⟨75, _⟩ => ⟨S1x50257, .f32⟩
  | .hbm, ⟨76, _⟩ => ⟨S_, .f32⟩
  | .hbm, ⟨77, _⟩ => ⟨S1, .f32⟩
  | .hbm, ⟨78, _⟩ => ⟨S1x1, .f32⟩
  | .hbm, ⟨79, _⟩ => ⟨S1x1, .f32⟩
  | .hbm, ⟨80, _⟩ => ⟨S1x50257, .f32⟩
  | .hbm, ⟨81, _⟩ => ⟨S1x50257, .f32⟩
  | .hbm, ⟨82, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_call1_cst_0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_cst_1 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_v49 : Ref sig .tc := ⟨.hbm, 81, rfl⟩
abbrev main_v50 : Ref sig .tc := ⟨.hbm, 82, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1024 : S_.BroadcastsInDim S1x1024 (![] : Fin 0 → Fin S1x1024.rank)
  shapeCasts_S1x1x1024_S1x1024 : S1x1x1024.ShapeCasts S1x1024
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.LibRegionsRel.lean ====
/-
  Three general facts about a program of several kernel regions whose proof data constrain, rather than name,
  what a region leaves in its arrays.

  * `arraysAt_open`: the windowed arrays "each at some contents it may hold after the write-backs below n" are the
    arrays at one NAMED family of contents, each member of which may be held then.
  * `unscopedBufs_of_arrays_rel`: a region's arrays at contents `F` beside the core's other unscoped buffers at a
    valuation `V` are the core's unscoped buffers at any valuation that has the arrays at `F` and agrees with `V`
    off them.
  * `hostSegOfPred`: a line of host operations as a segment of @main entered from a valuation of which only a
    predicate is known; it runs to the operations applied to that valuation, the predicate still known of it.
-/
import Idealize.ShloMosaic.Lib.Pipeline.RegionsLoop
import Idealize.ShloMosaic.Lib.Pipeline.Frame

noncomputable section

namespace Idealize.ShloMosaic.Pipeline.Rel

open Idealize.SL Idealize.ShloMosaic Idealize.ShloMosaic.Pipeline
open Idealize.SL.BI (sProp bigSep bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : SL.Sem.Labels}

/-- The arrays at some contents they may hold are the arrays at a named family of such contents. -/
theorem arraysAt_open [∀ e, Nonempty (Val e)] {cfg : Cfg sig Λ₀} {c : Dev nD} (rd : RDat τ Val Ix Name U Lvl cfg c) (n : Nat) :
    (rd.arraysAt n : sProp 𝕄)
      ⊢ iprop(∃ Fs : (w : Fin cfg.W) → Buf Val ((cfg.win w).arr.view.loc (c.tc : Thread nD τ)), ⌜∀ w, rd.ArrAt w n (Fs w)⌝ ∗ rd.arrays Fs) := by
  classical
  unfold RDat.arraysAt RDat.arrays
  iintro Ha
  ihave Ha' := (BI.bigSep_exists_pi Finset.univ (fun w F => iprop(⌜rd.ArrAt w n F⌝
      ∗ (cfg.win w).arr.view.loc (c.tc : Thread nD τ) ↦[(cfg.win w).arr.view.set]{rd.share w} F))) $$ Ha
  icases Ha' with ⟨%Fs, Ha⟩
  ihave Ha2 := (BI.bigSep_pure_sep Finset.univ (fun w => rd.ArrAt w n (Fs w))
      (fun w => (cfg.win w).arr.view.loc (c.tc : Thread nD τ) ↦[(cfg.win w).arr.view.set]{rd.share w} Fs w)) $$ Ha
  icases Ha2 with ⟨%hFs, Ha⟩
  iexists Fs
  isplitr
  · ipureintro; exact fun w => hFs w (Finset.mem_univ w)
  iexact Ha

section HostSegOfPred

variable {P : Type} [Fintype P] [Preorder Lvl]
variable (pcs : P → PCfg sig Λ₀ Val) (defs₀ : Defs nD τ sig Val Λ₀) (𝒱₀ : Variants)
  (L : GSem nD τ sig → Finset Ix) (lv : GSem nD τ sig → Ix → Lvl)

-- a StableHLO rule, stated for any thread, unifies at the TensorCore thread only when unification may unfold plain
-- definitions in a metavariable's type
set_option backward.isDefEq.respectTransparency.types false in
/-- A line of host operations over buffers the thread state holds whole at SOME valuation satisfying `Pr c`, the rest
    of the state `R c` riding along: it runs to the buffers at the operations applied to that valuation. -/
def hostSegOfPred (S : Finset (DevRef τ sig)) (ops : List (HloOp τ sig Val))
    (hS : ∀ op ∈ ops, op.bufs ⊆ S) (hf : ∀ op ∈ ops, op.fresh = ∅)
    (Pr : Dev nD → Valuation τ sig Val → Prop) (R : Dev nD → sProp 𝕄) : HostSeg (Name := Name) (U := U) pcs defs₀ 𝒱₀ L lv where
  prog := StableHlo.seq ops
  pre c := iprop(∃ V : Valuation τ sig Val, ⌜Pr c V⌝ ∗ StableHlo.held (c.tc : Thread nD τ) S V ∗ R c)
  post c := iprop(∃ V : Valuation τ sig Val, ⌜Pr c V⌝ ∗ StableHlo.held (c.tc : Thread nD τ) S (StableHlo.after ops V) ∗ R c)
  run c {β} k K := by
    iintro ⟨Hk, Hbd, ⟨%V, %hV, Hh, HR⟩, -⟩
    have hseq := StableHlo.wp_seq (defs := Pipeline.defs pcs defs₀) (Variants.lift 𝒱₀) none Set.univ c S k (K := K) ops hS hf V
    iapply hseq $$ [Hbd Hh]
    · isplitl [Hbd] <;> iassumption
    iintro ⟨Hbd, Hh⟩
    iapply Hk
    isplitl [Hbd]; · iexact Hbd
    iexists V
    isplitr; · ipureintro; exact hV
    isplitl [Hh] <;> iassumption

end HostSegOfPred

end Idealize.ShloMosaic.Pipeline.Rel

end
-- ==== Proof.Reg0.lean ====
/-
  Region 0 of the program: the GRU cell's kernel on its grid of one point, at any contents `V` of the
  TensorCore's buffers when the region is entered and any admissible contents `a` of the token table.

  The body reads six input blocks (the embedding row's block, the hidden state, the two weight matrices and
  the two bias vectors), each through literal rectangles (three slices of 1024 rows of each weight block and
  of each bias block: reset, update, candidate), and stores the new hidden state once, over the whole output
  block. So what it leaves in the output's buffer is a closed function of the six input blocks (`out0_6`),
  and what it finds in each input's buffer is that window's block of its array.
-/
import proofs.«402431_j70918499992252_3_alg».proof.Proof.Gen.KernelIdeal.Launch
import proofs.«402431_j70918499992252_3_alg».proof.Proof.Gen.KernelIdeal.Skeleton
import proofs.«402431_j70918499992252_3_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's rectangles -/

/-- The whole embedding block, the whole hidden-state block, the whole output block. -/
abbrev rE : Rect S1x8x128 := Rect.unit (s := S1x8x128) ![0, 0, 0] S1x8x128.size inb_S1x8x128_S1x8x128_0_0_0
abbrev rH : Rect S1x1x1024 := Rect.unit (s := S1x1x1024) ![0, 0, 0] S1x1x1024.size inb_S1x1x1024_S1x1x1024_0_0_0
abbrev rO : Rect S1x1024 := Rect.unit (s := S1x1024) ![0, 0] S1x1024.size inb_S1x1024_S1x1024_0_0
/-- Rows 0, 1024, 2048 onward (1024 of them) of a weight block: the reset, update and candidate gates' rows. -/
abbrev rW0 : Rect S3072x1024 := Rect.unit (s := S3072x1024) ![0, 0] S1024x1024.size inb_S3072x1024_S1024x1024_0_0
abbrev rW1 : Rect S3072x1024 := Rect.unit (s := S3072x1024) ![1024, 0] S1024x1024.size inb_S3072x1024_S1024x1024_1024_0
abbrev rW2 : Rect S3072x1024 := Rect.unit (s := S3072x1024) ![2048, 0] S1024x1024.size inb_S3072x1024_S1024x1024_2048_0
/-- The same three slices of a bias block. -/
abbrev rB0 : Rect S3072 := Rect.unit (s := S3072) ![0] S1024.size inb_S3072_S1024_0
abbrev rB1 : Rect S3072 := Rect.unit (s := S3072) ![1024] S1024.size inb_S3072_S1024_1024
abbrev rB2 : Rect S3072 := Rect.unit (s := S3072) ![2048] S1024.size inb_S3072_S1024_2048

/-! ## What the body leaves in the output's buffer -/

/-- The output's staging buffer after the body, from the six input blocks: its one store, over the whole block, of
    the new hidden state computed from the blocks' slices. -/
def out0_6 (x0 : Vec F S1x8x128 .f32) (x1 : Vec F S1x1x1024 .f32) (x2 x3 : Vec F S3072x1024 .f32) (x4 x5 : Vec F S3072 .f32) :
    Vec F S1x1024 .f32 :=
  View.canon [⟨rO, k0_pay1 (k0_pay2 (View.ld x1 rH)) (k0_pay3 (View.ld x0 rE)) (k0_pay4 (View.ld x1 rH))
    (k0_pay5 (View.ld x0 rE) (View.ld x2 rW0) (View.ld x4 rB0)) (k0_pay6 (View.ld x1 rH) (View.ld x3 rW0) (View.ld x5 rB0))
    (k0_pay7 (View.ld x0 rE) (View.ld x2 rW1) (View.ld x4 rB1)) (k0_pay8 (View.ld x1 rH) (View.ld x3 rW1)) (k0_pay9 (View.ld x5 rB1))
    (View.ld x2 rW2) (View.ld x3 rW2) (View.ld x4 rB2) (View.ld x5 rB2)⟩]

/-- The one store covers the block. -/
theorem cover0_6 (p0 : Vec F S1x1024 .f32) (y : S1x1024.Idx) :
    ∃ pc ∈ ([⟨rO, p0⟩] : List (View.Piece (Elt F) S1x1024 .f32)), y ∈ pc.1.set :=
  View.cover_of_tiled [⟨rO, p0⟩] S1x1024.size (by rfl) y

section Region
-- the TensorCore's buffer contents when the region is entered, and the admissible contents of the token table
variable (V : (c : Dev nD) → (b : Ref sig .tc) → Buf (Elt F) ((c : Thread nD τ).loc b)) (a : (pcfg0 (F := F)).Adm)

/-! ## The windows' blocks -/

/-- Window `w`'s block at point `t`, read off its array as the region finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- An input window's current staging buffer holds its block at every point, fetched there or not, for any proof
    data whose array is `V`'s and whose body leaves the block in place: unfetched, the block index has not moved.
    The windows are uncut and never idle. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ (cfg0 a) c) (hA : dat.A 4 = V c (Pipeline.arrRef spec0 4))
    (hafter : ∀ t, dat.after 4 t = iblk0 V a c 4 t) (t : Fin (cfg0 a).N) (d) : dat.before 4 t d = iblk0 V a c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ (cfg0 a) c) (hA : dat.A 5 = V c (Pipeline.arrRef spec0 5))
    (hafter : ∀ t, dat.after 5 t = iblk0 V a c 5 t) (t : Fin (cfg0 a).N) (d) : dat.before 5 t d = iblk0 V a c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

/-- The kernel body on whole staging memrefs, the inputs' at read contents `x0 … x5` and the output's at anything,
    runs to the continuation holding the inputs' as they were and the output's at `out0_6` of the inputs'. The
    token table's memref is never read. -/
theorem sound_kernel0 (c : Dev nD) (E : Set ℕ) (i : grid0.Coords) (arg1 : Memref sig .tc .smem S1 .i32) (harg1 : arg1.IsWhole) (arg2 : Memref sig .tc .vmem S1x8x128 .f32) (harg2 : arg2.IsWhole) (arg3 : Memref sig .tc .vmem S1x1x1024 .f32) (harg3 : arg3.IsWhole) (arg4 : Memref sig .tc .vmem S3072x1024 .f32) (harg4 : arg4.IsWhole) (arg5 : Memref sig .tc .vmem S3072x1024 .f32) (harg5 : arg5.IsWhole) (arg6 : Memref sig .tc .vmem S3072 .f32) (harg6 : arg6.IsWhole) (arg7 : Memref sig .tc .vmem S3072 .f32) (harg7 : arg7.IsWhole) (arg8 : Memref sig .tc .vmem S1x1024 .f32) (harg8 : arg8.IsWhole)
    (x0 : Vec F S1x8x128 .f32) (x1 : Vec F S1x1x1024 .f32) (x2 x3 : Vec F S3072x1024 .f32) (x4 x5 : Vec F S3072 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the region's pipeline on core `c`: the arrays as the region finds them; after the body each
    input's buffer at its block and the output's at `out0_6` of the input blocks; the invariant the scoped rest, the
    generator register and the token table whole at its contents, all untouched; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => out0_6 (iblk0 V a c 0 t) (iblk0 V a c 1 t) (iblk0 V a c 2 t) (iblk0 V a c 3 t) (iblk0 V a c 4 t) (iblk0 V a c 5 t)
  Φ _ := iprop(Pipeline.ΦA spec0 c ∗ Pipeline.prefHeld (Ix := Unit) (Name := ℕ) (U := UR sig nD τ) (Lvl := ℕ) pre0 c (fun _ => fullShare) a.1)
  q _ := fullShare
  owed _ := 0

/-- The proof data's arrays are the region-entry contents. -/
theorem A_eq0 (c : Dev nD) (w : Fin (cfg0 a).W) : (dat0 V a c).A w = V c (Pipeline.arrRef spec0 w) := by
  dsimp only [dat0]

/-- What the body leaves, window by window. -/
theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = iblk0 V a c 1 t := by dsimp only [dat0]; try rfl
theorem after0_2 (c : Dev nD) (t : Fin (cfg0 a).N) : (dat0 V a c).after 2 t = iblk0 V a c 2 t := by dsimp only [dat0]; try rfl
theorem after0_3 (c : Dev nD) (t : Fin (cfg0 a).N) : (dat0 V a c).after 3 t = iblk0 V a c 3 t := by dsimp only [dat0]; try rfl
theorem after0_4 (c : Dev nD) (t : Fin (cfg0 a).N) : (dat0 V a c).after 4 t = iblk0 V a c 4 t := by dsimp only [dat0]; try rfl
theorem after0_5 (c : Dev nD) (t : Fin (cfg0 a).N) : (dat0 V a c).after 5 t = iblk0 V a c 5 t := by dsimp only [dat0]; try rfl
theorem after0_6 (c : Dev nD) (t : Fin (cfg0 a).N) : (dat0 V a c).after 6 t =
    out0_6 (iblk0 V a c 0 t) (iblk0 V a c 1 t) (iblk0 V a c 2 t) (iblk0 V a c 3 t) (iblk0 V a c 4 t) (iblk0 V a c 5 t) := by
  dsimp only [dat0]; try rfl

/-- Each input's current staging buffer holds its block at every point. -/
theorem before0_0 (c : Dev nD) (t : Fin (cfg0 a).N) (d) : (dat0 V a c).before 0 t d = iblk0 V a c 0 t :=
  before0_0_of V a (dat0 V a c) (A_eq0 V a c 0) (after0_0 V a c) t d
theorem before0_1 (c : Dev nD) (t : Fin (cfg0 a).N) (d) : (dat0 V a c).before 1 t d = iblk0 V a c 1 t :=
  before0_1_of V a (dat0 V a c) (A_eq0 V a c 1) (after0_1 V a c) t d
theorem before0_2 (c : Dev nD) (t : Fin (cfg0 a).N) (d) : (dat0 V a c).before 2 t d = iblk0 V a c 2 t :=
  before0_2_of V a (dat0 V a c) (A_eq0 V a c 2) (after0_2 V a c) t d
theorem before0_3 (c : Dev nD) (t : Fin (cfg0 a).N) (d) : (dat0 V a c).before 3 t d = iblk0 V a c 3 t :=
  before0_3_of V a (dat0 V a c) (A_eq0 V a c 3) (after0_3 V a c) t d
theorem before0_4 (c : Dev nD) (t : Fin (cfg0 a).N) (d) : (dat0 V a c).before 4 t d = iblk0 V a c 4 t :=
  before0_4_of V a (dat0 V a c) (A_eq0 V a c 4) (after0_4 V a c) t d
theorem before0_5 (c : Dev nD) (t : Fin (cfg0 a).N) (d) : (dat0 V a c).before 5 t d = iblk0 V a c 5 t :=
  before0_5_of V a (dat0 V a c) (A_eq0 V a c 5) (after0_5 V a c) t d

/-! ## The body obligation -/

/-- The current staging memref of each window at point `t`. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)

/-- The kernel body at point `t`, on what the pipeline calls it with. -/
abbrev bodyAt0 (t : Fin (cfg0 a).N) : Prog (TpuEff nD τ sig (Elt F) Λ₀ .tc) PUnit :=
  cc0__gru_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6))

/-- What the body is called with at point `t`, the windows one by one, -/
def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t))

/-- The body at any point: the inputs' memrefs hold their blocks, so the body's triple applies; the invariant and
    the core's dues pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3, before0_4, before0_5]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ _ _ (iblk0 V a c 0 t) (iblk0 V a c 1 t) (iblk0 V a c 2 t) (iblk0 V a c 3 t) (iblk0 V a c 4 t) (iblk0 V a c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V a c) (defs₀ (F := F)) Variants.none () Set.univ := fun t => by
  rw [bigSep_W0, bigSep_W0]
  exact sound_body0 V a c t

end Region

end Cert.KernelIdeal.Hand

end
-- ==== Proof.Reg1.lean ====
/-
  The second region of the program, a grid of 25 points, one per tile of 2048 lanes of the vocabulary: the
  new hidden state (whole, fetched once), a block of 2048 rows of the output weights and of the output bias
  (the last block overhangs the arrays: rows 1105..2047 of it lie past their end, and what the staging
  buffers hold there is nothing the arrays name), and three outputs per tile: the 2048 masked logits, the
  tile's maximum and the tile's sum of exponentials about it.

  Everything here is stated at a parameter V, the buffer contents when the region is entered, and for any
  float instance. Per point: each window's block read off V; the three input blocks filled out to the
  staging buffers' whole shapes (the zero word past the arrays' end); what the body leaves in each output's
  buffer as a function of what the three input buffers hold; the body's triple; the proof data; what each
  buffer holds when the body runs; and the body obligation in two forms: with the three outputs forgotten
  (for any instance), and with nothing forgotten, under the hypothesis that the outputs do not depend on
  the rows past the arrays' end.
-/
import proofs.«402431_j70918499992252_3_alg».proof.Proof.Gen.KernelIdeal.Launch
import proofs.«402431_j70918499992252_3_alg».proof.Proof.Gen.KernelIdeal.Skeleton
import proofs.«402431_j70918499992252_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`: its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden state's block: the whole array, at every point. -/
def hblk (c : Dev nD) (t : Fin cfg1.N) : Vec F S1x1024 .f32 := iblk1 V c 0 t
/-- The weight block filled out to the staging buffer's 2048 rows: the zero word past the array's end. -/
def wblk (c : Dev nD) (t : Fin cfg1.N) : Vec F S2048x1024 .f32 :=
  (cfg1.win 1).fill (cfg1.grid.coords t) (fun _ => Scalar.ofBits .f32 0#32) (iblk1 V c 1 t)
/-- The bias block likewise. -/
def bblk (c : Dev nD) (t : Fin cfg1.N) : Vec F S2048 .f32 :=
  (cfg1.win 2).fill (cfg1.grid.coords t) (fun _ => Scalar.ofBits .f32 0#32) (iblk1 V c 2 t)

/-! ## The body's accesses: every one a whole buffer -/

abbrev r1_0 : Rect S1x1024 := Rect.unit (s := S1x1024) ![0, 0] S1x1024.size inb_S1x1024_S1x1024_0_0
abbrev r1_1 : Rect S2048x1024 := Rect.unit (s := S2048x1024) ![0, 0] S2048x1024.size inb_S2048x1024_S2048x1024_0_0
abbrev r1_2 : Rect S2048 := Rect.unit (s := S2048) ![0] S2048.size inb_S2048_S2048_0
abbrev r1_3 : Rect S1x2048 := Rect.unit (s := S1x2048) ![0, 0] S1x2048.size inb_S1x2048_S1x2048_0_0
abbrev r1_4 : Rect S1x8x128 := Rect.unit (s := S1x8x128) ![0, 0, 0] S1x8x128.size inb_S1x8x128_S1x8x128_0_0_0

/-! ## What the body leaves in each output's buffer -/

/-- The masked logits of the tile, from what the three input buffers hold: one whole store. -/
def out1_3 (i : grid1.Coords) (x0 : Vec F S1x1024 .f32) (x1 : Vec F S2048x1024 .f32) (x2 : Vec F S2048 .f32) : Vec F S1x2048 .f32 :=
  View.canon [⟨r1_3, k1_pay1 i (View.ld x0 r1_0) (View.ld x1 r1_1) (View.ld x2 r1_2)⟩]
/-- The tile's maximum, spread over the (1,8,128) block. -/
def out1_4 (i : grid1.Coords) (x0 : Vec F S1x1024 .f32) (x1 : Vec F S2048x1024 .f32) (x2 : Vec F S2048 .f32) : Vec F S1x8x128 .f32 :=
  View.canon [⟨r1_4, k1_pay3 i (View.ld x0 r1_0) (View.ld x1 r1_1) (View.ld x2 r1_2)⟩]
/-- The tile's sum of exponentials about its maximum, spread likewise. -/
def out1_5 (i : grid1.Coords) (x0 : Vec F S1x1024 .f32) (x1 : Vec F S2048x1024 .f32) (x2 : Vec F S2048 .f32) : Vec F S1x8x128 .f32 :=
  View.canon [⟨r1_4, k1_pay4 i (View.ld x0 r1_0) (View.ld x1 r1_1) (View.ld x2 r1_2)⟩]

/-- A whole store covers its buffer. -/
theorem cover1_3 (p0 : Vec F S1x2048 .f32) (y : S1x2048.Idx) :
    ∃ pc ∈ ([⟨r1_3, p0⟩] : List (View.Piece (Elt F) S1x2048 .f32)), y ∈ pc.1.set :=
  View.cover_of_tiled [⟨r1_3, p0⟩] S1x2048.size (by rfl) y
theorem cover1_4 (p0 : Vec F S1x8x128 .f32) (y : S1x8x128.Idx) :
    ∃ pc ∈ ([⟨r1_4, p0⟩] : List (View.Piece (Elt F) S1x8x128 .f32)), y ∈ pc.1.set :=
  View.cover_of_tiled [⟨r1_4, p0⟩] S1x8x128.size (by rfl) y

/-! ## The body's triple -/

set_option maxHeartbeats 4000000 in
/-- The body on whole staging memrefs, the three inputs' at read contents `x0 x1 x2` and the outputs' at anything,
    runs to the continuation holding the inputs' as they were and each output's at `out1_w` of them. -/
theorem sound_kernel1 (c : Dev nD) (E : Set ℕ) (i : grid1.Coords)
    (arg0 : Memref sig .tc .vmem S1x1024 .f32) (harg0 : arg0.IsWhole) (arg1 : Memref sig .tc .vmem S2048x1024 .f32) (harg1 : arg1.IsWhole)
    (arg2 : Memref sig .tc .vmem S2048 .f32) (harg2 : arg2.IsWhole) (arg3 : Memref sig .tc .vmem S1x2048 .f32) (harg3 : arg3.IsWhole)
    (arg4 : Memref sig .tc .vmem S1x8x128 .f32) (harg4 : arg4.IsWhole) (arg5 : Memref sig .tc .vmem S1x8x128 .f32) (harg5 : arg5.IsWhole)
    (x0 : Vec F S1x1024 .f32) (x1 : Vec F S2048x1024 .f32) (x2 : Vec F S2048 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 i x0 x1 x2) ∗ owns (c : Thread nD τ) arg4 fullShare (out1_4 i x0 x1 x2)
            ∗ owns (c : Thread nD τ) arg5 fullShare (out1_5 i x0 x1 x2)) -∗ K ⟨⟩))
      ⊢ wp frame (wpE (defs₀ (F := F)) Variants.none c none) E
          (cc1__out_proj_kernel i arg0 harg0 arg1 harg1 arg2 harg2 arg3 harg3 arg4 harg4 arg5 harg5) K := by
  simp only [cc1__out_proj_kernel_eq_skeleton]; unfold cc1__out_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_4 _)

/-! ## The pipeline's proof data -/

/-- The proof data of the region's pipeline on core `c`: the arrays as the region finds them; after the body at
    point `t` each input's buffer at its filled-out block and each output's at `out1_w` of those; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => hblk V c t
    | ⟨1, _⟩ => wblk V c t
    | ⟨2, _⟩ => bblk V c t
    | ⟨3, _⟩ => out1_3 (cfg1.grid.coords t) (hblk V c t) (wblk V c t) (bblk V c t)
    | ⟨4, _⟩ => out1_4 (cfg1.grid.coords t) (hblk V c t) (wblk V c t) (bblk V c t)
    | ⟨5, _⟩ => out1_5 (cfg1.grid.coords t) (hblk V c t) (wblk V c t) (bblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = hblk V c t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) :
    (dat1 V c).after 3 t = out1_3 (cfg1.grid.coords t) (hblk V c t) (wblk V c t) (bblk V c t) := by dsimp only [dat1]
theorem after1_4 (c : Dev nD) (t : Fin cfg1.N) :
    (dat1 V c).after 4 t = out1_4 (cfg1.grid.coords t) (hblk V c t) (wblk V c t) (bblk V c t) := by dsimp only [dat1]
theorem after1_5 (c : Dev nD) (t : Fin cfg1.N) :
    (dat1 V c).after 5 t = out1_5 (cfg1.grid.coords t) (hblk V c t) (wblk V c t) (bblk V c t) := by dsimp only [dat1]

/-! ## What each buffer holds when the body runs -/

/-- The hidden state's buffer holds the whole array at every point, fetched there (the first) or not. -/
theorem before1_0 (c : Dev nD) (t : Fin cfg1.N) (d) : (dat1 V c).before 0 t d = hblk V c t := by
  exact ((dat1 V c).before_in_eq_fetched 0 rfl (fun _ => rfl) (fun _ _ _ => rfl)
    (fun t => by rw [after1_0]; unfold Dat.blockOf hblk iblk1; rw [A_eq1]; try rfl) t d).trans
    (by unfold Dat.fetched Dat.blockOf hblk iblk1; rw [A_eq1]; try rfl)
/-- The weight block's buffer, fetched at every point: the block on the rows inside the array, `d` past its end. -/
theorem before1_1 (c : Dev nD) (t : Fin cfg1.N) (d) :
    (dat1 V c).before 1 t d = (cfg1.win 1).fill (cfg1.grid.coords t) d (iblk1 V c 1 t) := by
  unfold Dat.before; rw [if_pos (fetch1_1 t)]; rfl
/-- The bias block's likewise. -/
theorem before1_2 (c : Dev nD) (t : Fin cfg1.N) (d) :
    (dat1 V c).before 2 t d = (cfg1.win 2).fill (cfg1.grid.coords t) d (iblk1 V c 2 t) := by
  unfold Dat.before; rw [if_pos (fetch1_2 t)]; rfl
/-- The outputs' buffers, written back at every point: contents nothing names. -/
theorem before1_3 (c : Dev nD) (t : Fin cfg1.N) (d) : (dat1 V c).before 3 t d = d := by
  have hf : (cfg1.win 3).fetch t = false := rfl
  unfold Dat.before
  rw [if_neg (by rw [hf]; exact Bool.false_ne_true)]
  by_cases ht : t.val = 0
  · rw [if_pos ht]
  · rw [if_neg ht]; exact if_pos (flush1_3 _)
theorem before1_4 (c : Dev nD) (t : Fin cfg1.N) (d) : (dat1 V c).before 4 t d = d := by
  have hf : (cfg1.win 4).fetch t = false := rfl
  unfold Dat.before
  rw [if_neg (by rw [hf]; exact Bool.false_ne_true)]
  by_cases ht : t.val = 0
  · rw [if_pos ht]
  · rw [if_neg ht]; exact if_pos (flush1_4 _)
theorem before1_5 (c : Dev nD) (t : Fin cfg1.N) (d) : (dat1 V c).before 5 t d = d := by
  have hf : (cfg1.win 5).fetch t = false := rfl
  unfold Dat.before
  rw [if_neg (by rw [hf]; exact Bool.false_ne_true)]
  by_cases ht : t.val = 0
  · rw [if_pos ht]
  · rw [if_neg ht]; exact if_pos (flush1_5 _)

/-! ## The body obligation -/

/-- Two contents of the weight block's buffer that agree on the rows inside the array at point `i`. -/
def AgreeInside (i : grid1.Coords) (x1 x1' : Vec F S2048x1024 .f32) : Prop :=
  (cfg1.win 1).cut i x1 = (cfg1.win 1).cut i x1'
/-- Two contents of the bias block's buffer that agree on the lanes inside the array at point `i`. -/
def AgreeInside' (i : grid1.Coords) (x2 x2' : Vec F S2048 .f32) : Prop :=
  (cfg1.win 2).cut i x2 = (cfg1.win 2).cut i x2'

/-- Contents that agree inside the array agree at every row of the block that names a word of the vocabulary. -/
theorem AgreeInside.apply {i : grid1.Coords} {x1 x1' : Vec F S2048x1024 .f32} (h : AgreeInside i x1 x1')
    (j : S2048x1024.Idx) (hj : 2048 * (i 0).val + (j 0).val < 50257) : x1 j = x1' j := by
  have hi : (i 0).val < 25 := (i 0).isLt
  have hix : cc1_transform_1 i 0 = (i 0).val := by
    show (BitVec.ofNat 32 (i 0).val).toNat = _
    rw [BitVec.toNat_ofNat]; exact Nat.mod_eq_of_lt (by omega)
  have hm : ∀ a, (j a).val < (cfg1.win 1).xsize i a := by
    intro a
    match a with
    | ⟨0, _⟩ =>
      show (j 0).val < (Pipeline.Clip.of (cc1_transform_1 i 0) 2048 50257).extent 2048
      rw [hix]; unfold Pipeline.Clip.of
      have := (j 0).isLt
      split
      · exact this
      · show (j 0).val < 50257 - (i 0).val * 2048; omega
    | ⟨1, _⟩ => exact (j 1).isLt
  have := congrFun h (fun a => ⟨(j a).val, hm a⟩)
  exact this

/-- The same for the bias block's lanes. -/
theorem AgreeInside'.apply {i : grid1.Coords} {x2 x2' : Vec F S2048 .f32} (h : AgreeInside' i x2 x2')
    (j : S2048.Idx) (hj : 2048 * (i 0).val + (j 0).val < 50257) : x2 j = x2' j := by
  have hi : (i 0).val < 25 := (i 0).isLt
  have hix : cc1_transform_2 i 0 = (i 0).val := by
    show (BitVec.ofNat 32 (i 0).val).toNat = _
    rw [BitVec.toNat_ofNat]; exact Nat.mod_eq_of_lt (by omega)
  have hm : ∀ a, (j a).val < (cfg1.win 2).xsize i a := by
    intro a
    match a with
    | ⟨0, _⟩ =>
      show (j 0).val < (Pipeline.Clip.of (cc1_transform_2 i 0) 2048 50257).extent 2048
      rw [hix]; unfold Pipeline.Clip.of
      have := (j 0).isLt
      split
      · exact this
      · show (j 0).val < 50257 - (i 0).val * 2048; omega
  have := congrFun h (fun a => ⟨(j a).val, hm a⟩)
  exact this

/-- The body at any point, the three outputs forgotten: the input buffers arrive holding their blocks (the weights'
    and the bias's filled out with anything past the arrays' end) and leave as they came; the outputs arrive and
    leave at contents nothing names. -/
theorem body_obligation1_fgt (c : Dev nD) :
    BodyObligationLoose (dat1 (F := F) V c) (defs₀ (F := F)) Variants.none () Set.univ (fun w => decide (3 ≤ w.val)) := by
  intro t
  rw [bigSep_W1, bigSep_W1]
  have e0 : decide (3 ≤ (0 : Fin 6).val) = false := rfl
  have e1 : decide (3 ≤ (1 : Fin 6).val) = false := rfl
  have e2 : decide (3 ≤ (2 : Fin 6).val) = false := rfl
  have e3 : decide (3 ≤ (3 : Fin 6).val) = true := rfl
  have e4 : decide (3 ≤ (4 : Fin 6).val) = true := rfl
  have e5 : decide (3 ≤ (5 : Fin 6).val) = true := rfl
  simp only [e0, e1, e2, e3, e4, e5]
  rw [show (dat1 V c).Φ t.succ = (dat1 V c).Φ t.castSucc from rfl,
    show (dat1 V c).owesAt () t.succ = (dat1 V c).owesAt () t.castSucc from rfl]
  change _ ⊢ wp frame (wpE (defs₀ (F := F)) Variants.none c none) Set.univ (bodyAt1 t) _
  unfold bodyAt1
  iintro ⟨HΦ, Ho, ⟨%d0, H0⟩, ⟨%d1, H1⟩, ⟨%d2, H2⟩, ⟨%X3, H3⟩, ⟨%X4, H4⟩, ⟨%X5, H5⟩⟩
  rw [before1_0 V c t d0, before1_1 V c t d1, before1_2 V c t d2]
  iapply (sound_kernel1 (F := F) c Set.univ (grid1.coords t) _ _ _ _ _ _ _ _ _ _ _ _ (hblk V c t)
    ((cfg1.win 1).fill (cfg1.grid.coords t) d1 (iblk1 V c 1 t)) ((cfg1.win 2).fill (cfg1.grid.coords t) d2 (iblk1 V c 2 t)) _)
  isplitl [H0]; · iexact H0
  isplitl [H1]; · iexact H1
  isplitl [H2]; · iexact H2
  isplitl [H3]; · iexists X3; iexact H3
  isplitl [H4]; · iexists X4; iexact H4
  isplitl [H5]; · iexists X5; iexact H5
  iintro ⟨H0, H1, H2, H3, H4, H5⟩
  isplitl [HΦ]; · iexact HΦ
  isplitl [Ho]; · iexact Ho
  isplitl [H0]; · rw [after1_0]; iexact H0
  isplitl [H1]
  · iexists d1; rw [after1_1]; unfold wblk; rw [(cfg1.win 1).cut_fill]; iexact H1
  isplitl [H2]
  · iexists d2; rw [after1_2]; unfold bblk; rw [(cfg1.win 2).cut_fill]; iexact H2
  isplitl [H3]; · iexists _; iexact H3
  isplitl [H4]; · iexists _; iexact H4
  iexists _; iexact H5

/-- The body at any point, nothing forgotten, when the outputs do not depend on what the weights' and the bias's
    buffers hold past the arrays' end. -/
theorem body_obligation1
    (hindep : ∀ (i : grid1.Coords) (x0 : Vec F S1x1024 .f32) (x1 x1' : Vec F S2048x1024 .f32) (x2 x2' : Vec F S2048 .f32),
      AgreeInside i x1 x1' → AgreeInside' i x2 x2' →
        out1_3 i x0 x1 x2 = out1_3 i x0 x1' x2' ∧ out1_4 i x0 x1 x2 = out1_4 i x0 x1' x2' ∧ out1_5 i x0 x1 x2 = out1_5 i x0 x1' x2')
    (c : Dev nD) : BodyObligationLoose (dat1 (F := F) V c) (defs₀ (F := F)) Variants.none () Set.univ := by
  intro t
  rw [bigSep_W1, bigSep_W1]
  simp only
  rw [show (dat1 V c).Φ t.succ = (dat1 V c).Φ t.castSucc from rfl,
    show (dat1 V c).owesAt () t.succ = (dat1 V c).owesAt () t.castSucc from rfl]
  change _ ⊢ wp frame (wpE (defs₀ (F := F)) Variants.none c none) Set.univ (bodyAt1 t) _
  unfold bodyAt1
  iintro ⟨HΦ, Ho, ⟨%d0, H0⟩, ⟨%d1, H1⟩, ⟨%d2, H2⟩, ⟨%X3, H3⟩, ⟨%X4, H4⟩, ⟨%X5, H5⟩⟩
  rw [before1_0 V c t d0, before1_1 V c t d1, before1_2 V c t d2, before1_3 V c t X3, before1_4 V c t X4, before1_5 V c t X5]
  iapply (sound_kernel1 (F := F) c Set.univ (grid1.coords t) _ _ _ _ _ _ _ _ _ _ _ _ (hblk V c t)
    ((cfg1.win 1).fill (cfg1.grid.coords t) d1 (iblk1 V c 1 t)) ((cfg1.win 2).fill (cfg1.grid.coords t) d2 (iblk1 V c 2 t)) _)
  isplitl [H0]; · iexact H0
  isplitl [H1]; · iexact H1
  isplitl [H2]; · iexact H2
  isplitl [H3]; · iexists X3; iexact H3
  isplitl [H4]; · iexists X4; iexact H4
  isplitl [H5]; · iexists X5; iexact H5
  iintro ⟨H0, H1, H2, H3, H4, H5⟩
  isplitl [HΦ]; · iexact HΦ
  isplitl [Ho]; · iexact Ho
  isplitl [H0]; · rw [after1_0]; iexact H0
  isplitl [H1]
  · iexists d1; rw [after1_1]; unfold wblk; rw [(cfg1.win 1).cut_fill]; iexact H1
  isplitl [H2]
  · iexists d2; rw [after1_2]; unfold bblk; rw [(cfg1.win 2).cut_fill]; iexact H2
  obtain ⟨h3, h4, h5⟩ := hindep (cfg1.grid.coords t) (hblk V c t) (wblk V c t)
    ((cfg1.win 1).fill (cfg1.grid.coords t) d1 (iblk1 V c 1 t)) (bblk V c t) ((cfg1.win 2).fill (cfg1.grid.coords t) d2 (iblk1 V c 2 t))
    (((cfg1.win 1).cut_fill _ _ _).trans ((cfg1.win 1).cut_fill _ _ _).symm)
    (((cfg1.win 2).cut_fill _ _ _).trans ((cfg1.win 2).cut_fill _ _ _).symm)
  rw [after1_3, after1_4, after1_5, h3, h4, h5]
  isplitl [H3]; · iexact H3
  isplitl [H4]; · iexact H4
  iexact H5

end Cert.KernelIdeal.Hand

end
-- ==== Proof.Tbl.lean ====
/-
  Region 0's prefetched table: the one word the first kernel's embedding window is placed by. The host computes it
  before the region from the token: the token clipped, as a signed word, into [0, 50256]. This module names that
  word, reads it off the host operations, bounds it, and derives the pipeline's side condition (the embedding
  window's block, one row of the [50257, 8, 128] table, lies inside the table) and the window's block index.
-/
import proofs.«402431_j70918499992252_3_alg».proof.Proof.Gen.KernelIdeal.Regions
import Idealize.ShloMosaic.Lib.StableHlo.Run
import Idealize.ShloMosaic.Lib.ValueIdx

noncomputable section

namespace Cert.KernelIdeal.Hand

open Cert.KernelIdeal Cert.KernelIdeal.Gen
open Idealize.ShloMosaic Idealize.ShloMosaic.TcCoe
open Idealize.SL.Sem

variable {F : FTy → Type} [FloatOps F] [Named F]
variable (m : (ℓ : Loc nD τ sig) → Buf (Elt F) ℓ)

/-! ## Signed words -/

/-- A 32-bit word read signed: itself below 2^31, itself less 2^32 from there. -/
theorem toInt_cases (t : BitVec 32) :
    (t.toNat < 2147483648 ∧ t.toInt = (t.toNat : Int)) ∨ (2147483648 ≤ t.toNat ∧ t.toInt = (t.toNat : Int) - 4294967296) := by
  rw [BitVec.toInt_eq_toNat_cond]
  split <;> omega

/-- The signed comparison of two words is the comparison of their signed values. -/
theorem slt_iff (x y : BitVec 32) : x.slt y = true ↔ x.toInt < y.toInt := by
  simp only [BitVec.slt, decide_eq_true_eq]

/-- The signed maximum of 0 and a word: 0 for a negative word, else the word. -/
theorem maxsi_zero (t : BitVec 32) : IntOp.maxsi (0#32) t = if t.toInt < 0 then 0#32 else t := by
  have e0 : (0#32).toInt = 0 := by decide
  unfold IntOp.maxsi
  by_cases h1 : t.toInt < 0
  · rw [if_pos h1, if_pos ((slt_iff _ _).2 (by rw [e0]; exact h1))]
  · rw [if_neg h1, if_neg (fun h => h1 (by have := (slt_iff _ _).1 h; rwa [e0] at this))]

/-- The signed minimum of 50256 and a word: 50256 for a word above it, else the word. -/
theorem minsi_top (u : BitVec 32) : IntOp.minsi (50256#32) u = if 50256 < u.toInt then 50256#32 else u := by
  have e1 : (50256#32).toInt = 50256 := by decide
  unfold IntOp.minsi
  by_cases h2 : 50256 < u.toInt
  · rw [if_pos h2, if_pos ((slt_iff _ _).2 (by rw [e1]; exact h2))]
  · rw [if_neg h2, if_neg (fun h => h2 (by have := (slt_iff _ _).1 h; rwa [e1] at this))]

/-- The signed clip of a word into [0, 50256], by the word's sign and size. -/
theorem clip_eq (t : BitVec 32) :
    IntOp.minsi (50256#32) (IntOp.maxsi (0#32) t)
      = if t.toInt < 0 then 0#32 else if 50256 < t.toInt then 50256#32 else t := by
  have e0 : (0#32).toInt = 0 := by decide
  rw [maxsi_zero, minsi_top]
  by_cases h1 : t.toInt < 0
  · simp only [if_pos h1, e0]; rfl
  · simp only [if_neg h1]

/-- The clip of any word is at most 50256, read unsigned. -/
theorem clip_range (t : BitVec 32) : (IntOp.minsi (50256#32) (IntOp.maxsi (0#32) t)).toNat ≤ 50256 := by
  rw [clip_eq]
  rcases toInt_cases t with ⟨h, e⟩ | ⟨h, e⟩ <;> split
  · decide
  · split
    · decide
    · omega
  · decide
  · omega

/-- The clip of a word that is nonnegative read signed: the smaller of the word and 50256, read unsigned. -/
theorem clip_of_nonneg (t : BitVec 32) (h : 0 ≤ t.toInt) :
    (IntOp.minsi (50256#32) (IntOp.maxsi (0#32) t)).toNat = min t.toNat 50256 := by
  rw [clip_eq, if_neg (by omega)]
  rcases toInt_cases t with ⟨h', e⟩ | ⟨h', e⟩
  · split
    · have : (50256#32).toNat = 50256 := by decide
      rw [this]; omega
    · omega
  · omega

/-! ## The table -/

/-- The token's word, as launched. -/
def tok : BitVec 32 := m (((0 : Dev nD) : Thread nD τ).loc main_arg0) (ValueIdx.ix1 (0 : Fin 1))

/-- The clipped token: the signed minimum of 50256 and the signed maximum of 0 and the token. -/
def tblWord : BitVec 32 := IntOp.minsi (50256#32) (IntOp.maxsi (0#32) (tok m))

/-- The table as region 0 finds it: what the host operations before the region leave in it (there is one core). -/
def tbl : pre0.Contents (Elt F) := fun k => V3 m (0 : Dev nD) (Proc.devRef .tc (pre0.ref k))

/-- On the one core the table holds those contents. -/
theorem tbl_held (c : Dev nD) (k : Fin pre0.K) : tbl m k = V3 m c (Proc.devRef .tc (pre0.ref k)) := by
  obtain rfl : c = 0 := Subsingleton.elim _ _
  rfl

/-- The table's word is the clipped token: the host writes the constants 0 and 50256, broadcasts each to one
    lane, takes the signed maximum of 0 and the token, then the signed minimum of 50256 and that, into the table;
    the reshape after it writes another buffer. -/
theorem tbl_word : tbl m 0 (ValueIdx.ix1 (0 : Fin 1)) = tblWord m := by
  unfold tbl
  show V3 m 0 (Proc.devRef .tc main_v0) (ValueIdx.ix1 (0 : Fin 1)) = _
  unfold V3 V2 V1 V0
  simp only [hostOps0, hostOps0_1, hostOps0_2]
  after_results
  rfl

/-- Whatever the token, the table's word is at most 50256. -/
theorem tblWord_range : (tblWord m).toNat ≤ 50256 := clip_range (tok m)

/-- For a token that is nonnegative read signed, the table's word is the smaller of the token and 50256. -/
theorem tblWord_of_nonneg (h : 0 ≤ (tok m).toInt) : (tblWord m).toNat = min (tok m).toNat 50256 :=
  clip_of_nonneg (tok m) h

/-! ## The embedding window's block index and the side condition -/

/-- The one-word table has one index. -/
theorem S1_idx (x : S1.Idx) : x = ValueIdx.ix1 (0 : Fin 1) := by
  rw [ValueIdx.eq_ix1 x]
  exact congrArg ValueIdx.ix1 (Fin.fin_one_eq_zero (x 0))

/-- Window 0's block index over ANY contents of the table: the table's word, then 0, 0. -/
theorem index0_0_of (pf : pre0.Contents (Elt F)) (i : grid0.Coords) :
    cc0_transform_0 Facts₀.inb_S1_S1_0 Facts₀.numel1_S1 pf i = ![(pf 0 (ValueIdx.ix1 (0 : Fin 1))).toNat, 0, 0] :=
  congrArg (fun x : S1.Idx => (![(pf 0 x).toNat, 0, 0] : Fin 3 → Nat)) (S1_idx _)

/-- The side condition over ANY contents whose word is at most 50256: row `w ≤ 50256` of the [50257, 8, 128]
    table, taken whole, lies inside the table, and the words are 32 bits wide. -/
theorem ok0_of (pf : pre0.Contents (Elt F)) (h : (pf 0 (ValueIdx.ix1 (0 : Fin 1))).toNat ≤ 50256) : ok0 pf := by
  intro i
  rw [index0_0_of pf i]
  generalize (pf 0 (ValueIdx.ix1 (0 : Fin 1))).toNat = w at h
  refine ⟨fun a => ?_, Or.inl rfl⟩
  fin_cases a <;> simp [S1x8x128, S50257x8x128] <;> omega

/-- The side condition at the table region 0 finds. -/
theorem ok_tbl : ok0 (tbl (F := F) m) :=
  ok0_of (tbl m) (by rw [tbl_word]; exact tblWord_range m)

/-- The table as admissible contents: what region 0's pipeline is pinned at. -/
def adm0 : (pcfg0 (F := F)).Adm := ⟨tbl m, ok_tbl m⟩

/-- Window 0's block index at the table region 0 finds: the clipped token, then 0, 0. -/
theorem index0_0 (i : grid0.Coords) :
    cc0_transform_0 Facts₀.inb_S1_S1_0 Facts₀.numel1_S1 (tbl (F := F) m) i = ![(tblWord m).toNat, 0, 0] := by
  rw [index0_0_of (tbl m) i, tbl_word]

end Cert.KernelIdeal.Hand

end
-- ==== Proof.RunDefs.lean ====
/-
  The run of @main, its definitions: the buffer contents at the segment boundaries, the proof data family, the thread states.
-/
import proofs.«402431_j70918499992252_3_alg».proof.Proof.Gen.KernelIdeal.Regions
import proofs.«402431_j70918499992252_3_alg».proof.Proof.Reg0
import proofs.«402431_j70918499992252_3_alg».proof.Proof.Reg1
import proofs.«402431_j70918499992252_3_alg».proof.Proof.Tbl
import proofs.«402431_j70918499992252_3_alg».proof.Proof.LibRegionsRel
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at the segment boundaries -/

/-- What region 0 is entered from, read at the TensorCore's references. -/
abbrev E0 : (c : Dev nD) → (b : Ref sig .tc) → Buf (Elt F) ((c : Thread nD τ).loc b) := fun c b => V3 m c b

/-- The admissible tables: region 0's one table as the clip leaves it; region 1 has none. -/
abbrev adm : (p : Fin 2) → (pcfgs (F := F) p).Adm
  | ⟨0, _⟩ => adm0 m
  | ⟨1, _⟩ => cfg1.toPCfg_adm

/-- Region 0's proof data at its entry contents and table. -/
abbrev d0 (c : Dev nD) : Dat τ (Elt F) Unit ℕ (UR sig nD τ) ℕ (cfg0 (adm0 m)) c := dat0 (E0 m) (adm0 m) c

/-- At region 0's exit: its arrays at what the write-backs leave, every other buffer as entered. -/
def W4 (c : Dev nD) : Valuation τ sig (Elt F) :=
  Pipeline.withArrays spec0 c (V3 m c) fun w => (d0 m c).arrAt w (cfg0 (adm0 m)).N

/-- What region 1 is entered from, read at the TensorCore's references. -/
abbrev E1 : (c : Dev nD) → (b : Ref sig .tc) → Buf (Elt F) ((c : Thread nD τ).loc b) := fun c b => W4 m c b

/-! ## The proof data family, and what rides beside the buffers -/

/-- Region 1's proof data, constraining rather than naming what the region leaves: the run is stated for any such
    data that has the region's arrays at their entry contents, the class's invariant, nothing owed, full shares and
    its body obligation (`Rd1OK`): the exact data read relationally, or the same with its outputs forgotten. -/
structure Rd1OK (rd1 : (c : Dev nD) → RDat τ (Elt F) Unit ℕ (UR sig nD τ) ℕ cfg1 c) : Prop where
  hA : ∀ c w, (rd1 c).A w = E1 m c (Pipeline.arrRef spec1 w)
  hΦ : ∀ c t, (rd1 c).Φ t = Pipeline.ΦA spec1 c
  howed : ∀ c t, (rd1 c).owed t = 0
  hshare : ∀ c w, (rd1 c).share w = fullShare
  hrec : ∀ c t, (rd1 c).recorded t = Set.univ
  hbody : ∀ c, (rd1 c).BodyObligation (defs₀ (F := F)) Variants.none () Set.univ

variable (rd1 : (c : Dev nD) → RDat τ (Elt F) Unit ℕ (UR sig nD τ) ℕ cfg1 c)

/-- Every pipeline's proof data: region 0's exact data read relationally, region 1's as given — a literal match, so
    that the pinned configuration at a numeral reduces to the printed one. -/
def rdats : (p : Fin 2) → (c : Dev nD) → RDat τ (Elt F) Unit ℕ (UR sig nD τ) ℕ (Pipeline.pin (pcfgs (F := F)) (adm m) p) c
  | ⟨0, _⟩ => fun c => (d0 m c).toR
  | ⟨1, _⟩ => fun c => rd1 c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- What is known of the buffers after region 1: its arrays at contents they may hold after every write-back, every
    other buffer as region 1 found it. -/
def After1 (c : Dev nD) (V5 : Valuation τ sig (Elt F)) : Prop :=
  (∀ w : Fin cfg1.W, (rd1 c).ArrAt w cfg1.N (V5 (Proc.devRef .tc (Pipeline.arrRef spec1 w))))
  ∧ ∀ b : Ref sig .tc, (∀ w, Pipeline.arrRef spec1 w ≠ b) → V5 (Proc.devRef .tc b) = W4 m c (Proc.devRef .tc b)

/-- The thread states: before region 0, between the regions, after region 1. -/
abbrev T3 (c : Dev nD) : sProp 𝕄 := iprop(StableHlo.held (c : Thread nD τ) (Pipeline.ucRefs τ sig) (V3 m c) ∗ R c)
abbrev T4 (c : Dev nD) : sProp 𝕄 := iprop(StableHlo.held (c : Thread nD τ) (Pipeline.ucRefs τ sig) (W4 m c) ∗ R c)
abbrev T5 (c : Dev nD) : sProp 𝕄 :=
  iprop(∃ V5 : Valuation τ sig (Elt F), ⌜After1 m rd1 c V5⌝ ∗ StableHlo.held (c : Thread nD τ) (Pipeline.ucRefs τ sig) V5 ∗ R c)

end Cert.KernelIdeal.Hand

end
-- ==== Proof.RunMain.lean ====
/-
  The run of @main over its six segments — three host stretches, region 0, region 1, the host tail —: from any memory
  with zero counters every weakly fair execution terminates, and the final memory holds every unscoped buffer at the
  host tail applied to SOME valuation of which `After1` is known: region 1's arrays at contents they may hold after
  its write-backs, every other buffer as region 1 found it.
-/
import proofs.«402431_j70918499992252_3_alg».proof.Proof.RunDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (rd1 : (c : Dev nD) → RDat τ (Elt F) Unit ℕ (UR sig nD τ) ℕ cfg1 c)

/-- The host tail as a segment entered from a valuation of which `After1` is known. -/
abbrev segTail : Pipeline.HostSeg (Name := ℕ) (U := UR sig nD τ) (pcfgs (F := F)) defs₀ 𝒱₀ L lv :=
  Pipeline.Rel.hostSegOfPred (pcfgs (F := F)) defs₀ 𝒱₀ L lv (Pipeline.ucRefs τ sig) hostOps2
    (fun op h => Pipeline.sub_ucRefs op ((List.forall_iff_forall_mem.mp hostOps2_sub) op h))
    (fun op h => (List.forall_iff_forall_mem.mp hostOps2_fresh) op h) (After1 m rd1) R

/-- @main's six segments. -/
abbrev segs (R0 : Pipeline.RDat.RegionSeg (pcfgs (F := F)) (adm m) (rdats m rd1) () defs₀ 𝒱₀ L lv 0)
    (R1 : Pipeline.RDat.RegionSeg (pcfgs (F := F)) (adm m) (rdats m rd1) () defs₀ 𝒱₀ L lv 1) :
    List (Pipeline.RDat.Seg (pcfgs (F := F)) (adm m) (rdats m rd1) () defs₀ 𝒱₀ L lv) :=
  [.host (seg0 m 𝒱₀ L lv (fun _ => R)), .host (seg1 m 𝒱₀ L lv (fun _ => R)), .host (seg2 m 𝒱₀ L lv (fun _ => R)),
    .region R0, .region R1, .host (segTail m rd1)]

/-- What the run leaves: on every core the unscoped buffers at the host tail applied to a valuation `After1` holds of. -/
def RunPost (r : PUnit × MemSt nD τ sig (Elt F)) : Prop :=
  ∀ c : Dev nD, ∃ V5 : Valuation τ sig (Elt F), After1 m rd1 c V5
    ∧ ∀ b ∈ Pipeline.ucRefs τ sig, r.2.mem (((c : Thread nD τ)).1, b) = StableHlo.after hostOps2 V5 b

-- the run theorem's implicit arguments are found by unifying its conclusion with this one, which takes unfolding plain
-- definitions in a metavariable's type
set_option backward.isDefEq.respectTransparency.types false in
/-- THE RUN. Given a segment record per region, entered from the thread state before it and left at the one after it,
    every weakly fair execution of @main from memory `m` with zero counters terminates in a state satisfying `RunPost`. -/
theorem run_main
    (R0 : Pipeline.RDat.RegionSeg (pcfgs (F := F)) (adm m) (rdats m rd1) () defs₀ 𝒱₀ L lv 0)
    (hpre0 : ∀ c : Dev nD, T3 m c ⊢ R0.pre c) (hpost0 : ∀ c : Dev nD, R0.post c ⊢ T4 m c)
    (R1 : Pipeline.RDat.RegionSeg (pcfgs (F := F)) (adm m) (rdats m rd1) () defs₀ 𝒱₀ L lv 1)
    (hpre1 : ∀ c : Dev nD, T4 m c ⊢ R1.pre c) (hpost1 : ∀ c : Dev nD, R1.post c ⊢ T5 m rd1 c) :
    θ_run defs (onTc (τ := τ) (main (F := F))) ⟨m, fun _ => 0, ρ⟩ (RunPost m rd1) := by
  refine Pipeline.RDat.θ_run_regions_kit_dev (pcfgs (F := F)) (adm m) (rdats m rd1) () (cellOf_inj (adm m)) emb₁ defs₀ 𝒱₀ L lv m ρ main
    (fun _ => segs m rd1 R0 R1)
    (fun c Q => by
      rewrite [main_chain c, Pipeline.RDat.Seg.run_eq_chain,
        show (segs m rd1 R0 R1).map Pipeline.RDat.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (Pipeline.pin (pcfgs (F := F)) (adm m)) (cellOf_inj (adm m)))
      (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m)))
              (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m)))
              (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(∃ V5 : Valuation τ sig (Elt F), ⌜After1 m rd1 c V5⌝
      ∗ StableHlo.held (c : Thread nD τ) (Pipeline.ucRefs τ sig) (StableHlo.after hostOps2 V5) ∗ ∃ r, prngReg c r))
    (hch := fun c => ⟨.rfl, .rfl, .rfl, hpre0 c, (hpost0 c).trans (hpre1 c), hpost1 c, ?_⟩)
    (hinit := ?_)
    (QY := fun c s => ∃ V5 : Valuation τ sig (Elt F), After1 m rd1 c V5
      ∧ ∀ b ∈ Pipeline.ucRefs τ sig, s.mem (((c : Thread nD τ)).1, b) = StableHlo.after hostOps2 V5 b)
    (hfin := fun c s' => ?_) (hQ := fun _ h => h)
  · -- the tail's exit: the owes split off
    change (iprop(∃ V : Valuation τ sig (Elt F), ⌜After1 m rd1 c V⌝
      ∗ StableHlo.held (c : Thread nD τ) (Pipeline.ucRefs τ sig) (StableHlo.after hostOps2 V) ∗ R c) : sProp 𝕄) ⊢ _
    iintro ⟨%V5, %hV5, Hh, ⟨Hp, HO⟩⟩
    isplitl [Hh Hp]
    · iexists V5; isplitr; · ipureintro; exact hV5
      isplitl [Hh]; · iexact Hh
      iexact Hp
    iexact HO
  · -- the launch: every unscoped buffer held at the launch contents, the generator register, nothing owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨⟨%V5, %hV5, Hh, -⟩, HSI⟩
    unfold StableHlo.held
    ihave Hr := (pointsTo_read_all (Pipeline.ucRefs τ sig) (fun b => (((c : Thread nD τ)).1, b)) (StableHlo.after hostOps2 V5) s') $$ [Hh HSI]
    · isplitl [Hh] <;> iassumption
    icases Hr with ⟨%h, HSI⟩
    imodintro
    isplitr
    · ipureintro; exact ⟨V5, hV5, h⟩
    · iexact HSI

end Cert.KernelIdeal.Hand

end
-- ==== Proof.RunReg0.lean ====
/-
  Region 0 as a segment of @main: the GRU cell's kernel entered from every unscoped buffer of the TensorCore at the
  contents the host prefix leaves, left at the same contents but for the kernel's output array, which holds what its
  one write-back leaves.

  The kernel's token table is one of those unscoped buffers. At the entry it is split off the others, whole, at the
  contents the admissible table names; it crosses the region inside the pipeline's invariant, untouched, and at the
  exit it is put back among the others.
-/
import proofs.«402431_j70918499992252_3_alg».proof.Proof.RunDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
variable (rd1 : (c : Dev nD) → RDat τ (Elt F) Unit ℕ (UR sig nD τ) ℕ cfg1 c)

/-! ## The exit contents: the arrays at what the pipeline leaves, every other buffer as entered -/

theorem W4_arr0 (c : Dev nD) (w : Fin (cfg0 (adm0 m)).W) :
    W4 m c (Proc.devRef .tc (Pipeline.arrRef spec0 w)) = (d0 m c).arrAt w (cfg0 (adm0 m)).N := by
  unfold W4; exact Pipeline.withArrays_arr spec0 (launch0 (F := F)).win.arr_inj c _ _ w

theorem W4_rest0 (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb

/-- The core's unscoped buffers that are no array of the region, at the entry contents: the token table, whole, at the
    admissible table's contents, and the others. -/
theorem rest_split0 (c : Dev nD) :
    (Pipeline.unscopedRest (Ix := Unit) (Name := ℕ) (U := UR sig nD τ) (Lvl := ℕ) spec0 c (E0 m c) : sProp 𝕄)
      = iprop(Pipeline.prefHeld (Ix := Unit) (Name := ℕ) (U := UR sig nD τ) (Lvl := ℕ) pre0 c (fun _ => fullShare) (adm0 m).1
          ∗ Pipeline.unscopedRestP (Ix := Unit) (Name := ℕ) (U := UR sig nD τ) (Lvl := ℕ) pre0 spec0 c (E0 m c)) :=
  (Pipeline.unscopedRest_split preFacts0 c (E0 m c)).trans
    (congrArg (fun T => iprop(Pipeline.prefHeld (Ix := Unit) (Name := ℕ) (U := UR sig nD τ) (Lvl := ℕ) pre0 c (fun _ => fullShare) T
        ∗ Pipeline.unscopedRestP (Ix := Unit) (Name := ℕ) (U := UR sig nD τ) (Lvl := ℕ) pre0 spec0 c (E0 m c)))
      (funext fun k => (tbl_held m c k).symm))

set_option backward.isDefEq.respectTransparency.types false in
/-- Region 0 over the thread states: entered from every unscoped buffer at the host prefix's contents, left at those
    contents with the output array at what the pipeline leaves. Its arrays and its token table are split out of the
    unscoped buffers at the entry and put back at the exit; the generator register and the table cross the region
    inside the invariant; nothing is owed; the kernel has no semaphore of its own. -/
def reg0 : Pipeline.RDat.RegionSeg (pcfgs (F := F)) (adm m) (rdats m rd1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (E0 m) (adm0 m) c).toR
  hwaits := Pipeline.RDat.hwaits_of_owed_zero _ _ _ _ L lv 0 fun _ _ => rfl
  pre := T3 m
  post := T4 m
  X c := iprop(∃ r, prngReg c r)
  Y c := iprop((∃ r, prngReg c r) ∗ Pipeline.prefHeld (Ix := Unit) (Name := ℕ) (U := UR sig nD τ) (Lvl := ℕ) pre0 c (fun _ => fullShare) (adm0 m).1)
  Z c := Pipeline.unscopedRestP (Ix := Unit) (Name := ℕ) (U := UR sig nD τ) (Lvl := ℕ) pre0 spec0 c (E0 m c)
  hentry c := by
    rw [Pipeline.ownSems0_none]
    have hsplit := Pipeline.RDat.arrays_of_unscopedBufs (p := 0) (pcfgs (F := F)) (adm m) (rdats m rd1) (launch0 (F := F)).win (launch0 (F := F)).arr_whole c
      ((rdats m rd1 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    ihave Hrest' := (Entails.of_eq (rest_split0 m c)) $$ Hrest
    icases Hrest' with ⟨Ht, Hrest⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rd1 0 c).Φ 0 = iprop(Pipeline.ΦA spec0 c
      ∗ Pipeline.prefHeld (Ix := Unit) (Name := ℕ) (U := UR sig nD τ) (Lvl := ℕ) pre0 c (fun _ => fullShare) (adm0 m).1) from rfl]
    unfold Pipeline.ΦA
    iintro ⟨Hp, Ht, Hr⟩
    isplitl [Hr Hp]
    · isplitl [Hr]; · iexact Hr
      iexact Hp
    iexact Ht
  hout c := by
    rw [Pipeline.ownSems0_none, show (rdats m rd1 0 c).Φ (Fin.last _) = iprop(Pipeline.ΦA spec0 c
      ∗ Pipeline.prefHeld (Ix := Unit) (Name := ℕ) (U := UR sig nD τ) (Lvl := ℕ) pre0 c (fun _ => fullShare) (adm0 m).1) from rfl]
    unfold Pipeline.ΦA
    iintro ⟨⟨Hr, Hp⟩, Ht⟩
    isplitl [Hp Ht]
    · isplitl [Hp]; · iexact Hp
      iexact Ht
    isplitr; · iempintro
    iexact Hr
  hexit c := by
    have hpost := (d0 m c).toR_arraysAt_post (cfg0 (adm0 m)).N
    have hjoin := Pipeline.unscopedBufs_of_arrays (P := Unit) (p := ()) (fun _ => pcfg0 (F := F)) (fun _ => adm0 m)
      (Ix := Unit) (Name := ℕ) (U := UR sig nD τ) (Lvl := ℕ) (launch0 (F := F)).win (launch0 (F := F)).arr_whole c
      (fun _ c => d0 m c) ((d0 m c).share_full fun _ => rfl)
      (E0 m c) (E1 m c) ((d0 m c).arrAt · (cfg0 (adm0 m)).N)
      (fun w => (W4_arr0 m c w).symm)
      (fun b hb => W4_rest0 m c b fun w e => hb (Finset.mem_image.mpr ⟨w, Finset.mem_univ _, e⟩))
    rw [Pipeline.unscopedBufs_held] at hjoin
    iintro ⟨Ha, HO, ⟨Hp, Ht⟩, Hrest⟩
    imodintro
    isplitl [Ha Ht Hrest]
    · iapply hjoin
      isplitl [Ha]
      · iapply hpost; iexact Ha
      iapply (Entails.of_eq (rest_split0 m c).symm)
      isplitl [Ht]; · iexact Ht
      iexact Hrest
    isplitl [Hp]; · iexact Hp
    unfold Pipeline.RDat.owesAt Pipeline.owesWithin
    icases HO with ⟨%W, -, HO⟩; iexists W; iexact HO

end Cert.KernelIdeal.Hand

end
-- ==== Proof.RunReg1.lean ====
/-
  The second region of the program as a segment of @main, for proof data that constrain, rather than name, what
  the region leaves in its arrays.

  The region is entered from the thread state "every unscoped buffer at the contents the first region left, the
  generator register at some state, nothing owed". Its arrays are split out of the unscoped buffers at entry; at
  exit they come back at SOME family of contents each of which the array may hold after every write-back, and
  are put back among the unscoped buffers at the entry valuation overwritten at the arrays by that family: the
  thread state the region leaves says that such a valuation exists.
-/
import proofs.«402431_j70918499992252_3_alg».proof.Proof.RunDefs
import proofs.«402431_j70918499992252_3_alg».proof.Proof.LibRegionsRel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
variable (rd1 : (c : Dev nD) → RDat τ (Elt F) Unit ℕ (UR sig nD τ) ℕ cfg1 c)

set_option backward.isDefEq.respectTransparency.types false in
/-- The region's arrays at contents `Fs` beside the core's other unscoped buffers at `V` are the core's unscoped
    buffers at any valuation that has the arrays at `Fs` and agrees with `V` off them. -/
theorem unscopedBufs_of_arrays1 (h1 : Rd1OK m rd1) (c : Dev nD)
    (V V' : (b : Ref sig .tc) → Buf (Elt F) ((c : Thread nD τ).loc b))
    (Fs : (w : Fin (Pipeline.pin (pcfgs (F := F)) (adm m) 1).W) →
      Buf (Elt F) (((Pipeline.pin (pcfgs (F := F)) (adm m) 1).spec w).arr.view.loc (c : Thread nD τ)))
    (hF : ∀ w, Fs w = V' (Pipeline.arrRef (Pipeline.pin (pcfgs (F := F)) (adm m) 1).spec w))
    (hrest : ∀ b, b ∉ Finset.univ.image (Pipeline.arrRef (Pipeline.pin (pcfgs (F := F)) (adm m) 1).spec) → V' b = V b) :
    iprop((rdats m rd1 1 c).arrays Fs ∗ Pipeline.unscopedRest (Pipeline.pin (pcfgs (F := F)) (adm m) 1).spec c V)
      ⊢ (unscopedBufs c V' : sProp 𝕄) := by
  rw [Pipeline.unscopedBufs_split (Pipeline.pin (pcfgs (F := F)) (adm m)) 1 (launch1 (F := F)).win.arr_unscoped (launch1 (F := F)).win.arr_inj c V',
    Pipeline.RDat.arrays_eq (pcfgs (F := F)) (adm m) (rdats m rd1) 1 c (launch1 (F := F)).arr_whole (fun w => h1.hshare c w)]
  refine sep_mono (Entails.of_eq (bigSep_congr fun w _ => by rw [hF])) (Entails.of_eq ?_)
  unfold Pipeline.unscopedRest
  exact bigSep_congr fun b hb => by rw [hrest b (Finset.mem_sdiff.mp hb).2]

set_option backward.isDefEq.respectTransparency.types false in
/-- The second region over the thread state. -/
def reg1 (h1 : Rd1OK m rd1) :
    Pipeline.RDat.RegionSeg (pcfgs (F := F)) (adm m) (rdats m rd1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := h1.hbody c
  hwaits := Pipeline.RDat.hwaits_of_owed_zero _ _ _ _ L lv 1 (fun c t => h1.howed c t)
  pre := T4 m
  post := T5 m rd1
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.RDat.arrays_of_unscopedBufs (p := 1) (pcfgs (F := F)) (adm m) (rdats m rd1) (launch1 (F := F)).win (launch1 (F := F)).arr_whole c
      (fun w => h1.hshare c w) (E1 m c) (fun w => h1.hA c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show (rdats m rd1 1 c).owed 0 = 0 from h1.howed c 0]
      icases HO with ⟨%W, HO⟩; iexists W; isplitr
      · ipureintro; exact fun x _ => Or.inl ((h1.hrec c 0).symm ▸ Set.mem_univ x)
      iexact HO
    isplitl [Hp]; · iexact Hp
    iexact Hrest
  hin c := by
    rw [show (rdats m rd1 1 c).Φ 0 = Pipeline.ΦA spec1 c from h1.hΦ c 0]; unfold Pipeline.ΦA
    iintro ⟨Hp, -, Hr⟩
    isplitl [Hr]; · iexact Hr
    iexact Hp
  hout c := by
    rw [Pipeline.ownSems0_none, show (rdats m rd1 1 c).Φ (Fin.last _) = Pipeline.ΦA spec1 c from h1.hΦ c _]; unfold Pipeline.ΦA
    iintro ⟨Hr, Hp⟩
    isplitl [Hp]; · iexact Hp
    isplitr; · iempintro
    iexact Hr
  hexit c := by
    unfold Pipeline.RDat.owesAt
    rw [show (rdats m rd1 1 c).owed (Fin.last _) = 0 from h1.howed c _]
    iintro ⟨Ha, HO, HY, Hrest⟩
    ihave Ha' := (Pipeline.Rel.arraysAt_open (rdats m rd1 1 c) (Pipeline.pin (pcfgs (F := F)) (adm m) 1).N) $$ Ha
    icases Ha' with ⟨%Fs, %hFs, Ha⟩
    have hjoin := unscopedBufs_of_arrays1 m rd1 h1 c (E1 m c) (fun b => Pipeline.withArrays spec1 c (W4 m c) Fs b) Fs
      (fun w => (Pipeline.withArrays_arr spec1 (launch1 (F := F)).win.arr_inj c _ _ w).symm)
      (fun b hb => Pipeline.withArrays_of_ne spec1 c _ _ b fun w e => hb (Finset.mem_image.mpr ⟨w, Finset.mem_univ _, e⟩))
    rw [Pipeline.unscopedBufs_held] at hjoin
    imodintro
    iexists (Pipeline.withArrays spec1 c (W4 m c) Fs)
    isplitr
    · ipureintro
      exact ⟨fun w => by rw [Pipeline.withArrays_arr spec1 (launch1 (F := F)).win.arr_inj c _ _ w]; exact hFs w,
        fun b hb => Pipeline.withArrays_of_ne spec1 c _ _ b hb⟩
    isplitl [Ha Hrest]
    · iapply hjoin; isplitl [Ha] <;> iassumption
    isplitl [HY]; · iexact HY
    unfold Pipeline.owesWithin
    icases HO with ⟨%W, -, HO⟩; iexists W; iexact HO

end Cert.KernelIdeal.Hand

end
-- ==== Proof.RunArgs.lean ====
/-
  From the run's post, the nine argument arrays end as launched; and a few readings of the buffer contents at the
  segment boundaries. No host operation writes an argument array, and a region either bypasses it or reads it through
  an input window, whose array is never written: so the contents at an argument's buffer walk back, boundary by
  boundary, to the launch memory.
-/
import proofs.«402431_j70918499992252_3_alg».proof.Proof.RunMain

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat RDat Cfg Window)

variable {F : FTy → Type} [FloatOps F] [Named F]

variable (m : (ℓ : Loc nD τ sig) → Buf (Elt F) ℓ)
variable (rd1 : (c : Dev nD) → RDat τ (Elt F) Unit ℕ (UR sig nD τ) ℕ cfg1 c)

/-! ## Region 0's exit contents -/

/-- A buffer that is no array of region 0 leaves the region as it entered. -/
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb

/-- An array of region 0 leaves the region at what the write-backs make of it. -/
theorem W4_arr (c : Dev nD) (w : Fin (cfg0 (adm0 m)).W) :
    W4 m c (Proc.devRef .tc (Pipeline.arrRef spec0 w)) = (d0 m c).arrAt w (cfg0 (adm0 m)).N := by
  unfold W4; exact Pipeline.withArrays_arr spec0 winFacts0.arr_inj c _ _ w

/-! ## No host stretch before region 0 writes an argument -/

theorem V3_main_arg0 (c : Dev nD) : V3 m c (Proc.devRef .tc main_arg0) = m ((c : Thread nD τ).loc main_arg0) :=
  (V3_of m c main_arg0 (by decide)).trans <| (V2_of m c main_arg0 (by decide)).trans <| (V1_of m c main_arg0 (by decide)).trans rfl
theorem V3_main_arg1 (c : Dev nD) : V3 m c (Proc.devRef .tc main_arg1) = m ((c : Thread nD τ).loc main_arg1) :=
  (V3_of m c main_arg1 (by decide)).trans <| (V2_of m c main_arg1 (by decide)).trans <| (V1_of m c main_arg1 (by decide)).trans rfl
theorem V3_main_arg2 (c : Dev nD) : V3 m c (Proc.devRef .tc main_arg2) = m ((c : Thread nD τ).loc main_arg2) :=
  (V3_of m c main_arg2 (by decide)).trans <| (V2_of m c main_arg2 (by decide)).trans <| (V1_of m c main_arg2 (by decide)).trans rfl
theorem V3_main_arg3 (c : Dev nD) : V3 m c (Proc.devRef .tc main_arg3) = m ((c : Thread nD τ).loc main_arg3) :=
  (V3_of m c main_arg3 (by decide)).trans <| (V2_of m c main_arg3 (by decide)).trans <| (V1_of m c main_arg3 (by decide)).trans rfl
theorem V3_main_arg4 (c : Dev nD) : V3 m c (Proc.devRef .tc main_arg4) = m ((c : Thread nD τ).loc main_arg4) :=
  (V3_of m c main_arg4 (by decide)).trans <| (V2_of m c main_arg4 (by decide)).trans <| (V1_of m c main_arg4 (by decide)).trans rfl
theorem V3_main_arg5 (c : Dev nD) : V3 m c (Proc.devRef .tc main_arg5) = m ((c : Thread nD τ).loc main_arg5) :=
  (V3_of m c main_arg5 (by decide)).trans <| (V2_of m c main_arg5 (by decide)).trans <| (V1_of m c main_arg5 (by decide)).trans rfl
theorem V3_main_arg6 (c : Dev nD) : V3 m c (Proc.devRef .tc main_arg6) = m ((c : Thread nD τ).loc main_arg6) :=
  (V3_of m c main_arg6 (by decide)).trans <| (V2_of m c main_arg6 (by decide)).trans <| (V1_of m c main_arg6 (by decide)).trans rfl
theorem V3_main_arg7 (c : Dev nD) : V3 m c (Proc.devRef .tc main_arg7) = m ((c : Thread nD τ).loc main_arg7) :=
  (V3_of m c main_arg7 (by decide)).trans <| (V2_of m c main_arg7 (by decide)).trans <| (V1_of m c main_arg7 (by decide)).trans rfl
theorem V3_main_arg8 (c : Dev nD) : V3 m c (Proc.devRef .tc main_arg8) = m ((c : Thread nD τ).loc main_arg8) :=
  (V3_of m c main_arg8 (by decide)).trans <| (V2_of m c main_arg8 (by decide)).trans <| (V1_of m c main_arg8 (by decide)).trans rfl

/-! ## Region 0 writes no argument: it bypasses it or reads it through an input window -/

/-- Region 0 bypasses `main_arg0`. -/
theorem W4_main_arg0 (c : Dev nD) : W4 m c (Proc.devRef .tc main_arg0) = m ((c : Thread nD τ).loc main_arg0) :=
  (W4_of_ne m c main_arg0 (by decide)).trans (V3_main_arg0 m c)
/-- `main_arg1` is the array of region 0's input window 1: never written. -/
theorem W4_main_arg1 (c : Dev nD) : W4 m c (Proc.devRef .tc main_arg1) = m ((c : Thread nD τ).loc main_arg1) :=
  (W4_arr m c 1).trans <| ((d0 m c).arrAt_in 1 rfl _).trans <| (A_eq0 (E0 m) (adm0 m) c 1).trans (V3_main_arg1 m c)
/-- Region 0 bypasses `main_arg2`. -/
theorem W4_main_arg2 (c : Dev nD) : W4 m c (Proc.devRef .tc main_arg2) = m ((c : Thread nD τ).loc main_arg2) :=
  (W4_of_ne m c main_arg2 (by decide)).trans (V3_main_arg2 m c)
/-- `main_arg3` is the array of region 0's input window 2: never written. -/
theorem W4_main_arg3 (c : Dev nD) : W4 m c (Proc.devRef .tc main_arg3) = m ((c : Thread nD τ).loc main_arg3) :=
  (W4_arr m c 2).trans <| ((d0 m c).arrAt_in 2 rfl _).trans <| (A_eq0 (E0 m) (adm0 m) c 2).trans (V3_main_arg3 m c)
/-- `main_arg4` is the array of region 0's input window 3: never written. -/
theorem W4_main_arg4 (c : Dev nD) : W4 m c (Proc.devRef .tc main_arg4) = m ((c : Thread nD τ).loc main_arg4) :=
  (W4_arr m c 3).trans <| ((d0 m c).arrAt_in 3 rfl _).trans <| (A_eq0 (E0 m) (adm0 m) c 3).trans (V3_main_arg4 m c)
/-- `main_arg5` is the array of region 0's input window 4: never written. -/
theorem W4_main_arg5 (c : Dev nD) : W4 m c (Proc.devRef .tc main_arg5) = m ((c : Thread nD τ).loc main_arg5) :=
  (W4_arr m c 4).trans <| ((d0 m c).arrAt_in 4 rfl _).trans <| (A_eq0 (E0 m) (adm0 m) c 4).trans (V3_main_arg5 m c)
/-- `main_arg6` is the array of region 0's input window 5: never written. -/
theorem W4_main_arg6 (c : Dev nD) : W4 m c (Proc.devRef .tc main_arg6) = m ((c : Thread nD τ).loc main_arg6) :=
  (W4_arr m c 5).trans <| ((d0 m c).arrAt_in 5 rfl _).trans <| (A_eq0 (E0 m) (adm0 m) c 5).trans (V3_main_arg6 m c)
/-- Region 0 bypasses `main_arg7`. -/
theorem W4_main_arg7 (c : Dev nD) : W4 m c (Proc.devRef .tc main_arg7) = m ((c : Thread nD τ).loc main_arg7) :=
  (W4_of_ne m c main_arg7 (by decide)).trans (V3_main_arg7 m c)
/-- Region 0 bypasses `main_arg8`. -/
theorem W4_main_arg8 (c : Dev nD) : W4 m c (Proc.devRef .tc main_arg8) = m ((c : Thread nD τ).loc main_arg8) :=
  (W4_of_ne m c main_arg8 (by decide)).trans (V3_main_arg8 m c)

/-- The reshaped embedding table is the array of region 0's input window 0: never written. -/
theorem W4_main_v1 (c : Dev nD) : W4 m c (Proc.devRef .tc main_v1) = V3 m c (Proc.devRef .tc main_v1) :=
  (W4_arr m c 0).trans <| ((d0 m c).arrAt_in 0 rfl _).trans (A_eq0 (E0 m) (adm0 m) c 0)

/-! ## Region 1 writes no argument -/

/-- Region 1 bypasses `main_arg0`. -/
theorem V5_main_arg0 (h1 : Rd1OK m rd1) (c : Dev nD) (V5 : Valuation τ sig (Elt F)) (h5 : After1 m rd1 c V5) :
    V5 (Proc.devRef .tc main_arg0) = m ((c : Thread nD τ).loc main_arg0) :=
  (h5.2 main_arg0 (by decide)).trans (W4_main_arg0 m c)
/-- Region 1 bypasses `main_arg1`. -/
theorem V5_main_arg1 (h1 : Rd1OK m rd1) (c : Dev nD) (V5 : Valuation τ sig (Elt F)) (h5 : After1 m rd1 c V5) :
    V5 (Proc.devRef .tc main_arg1) = m ((c : Thread nD τ).loc main_arg1) :=
  (h5.2 main_arg1 (by decide)).trans (W4_main_arg1 m c)
/-- Region 1 bypasses `main_arg2`. -/
theorem V5_main_arg2 (h1 : Rd1OK m rd1) (c : Dev nD) (V5 : Valuation τ sig (Elt F)) (h5 : After1 m rd1 c V5) :
    V5 (Proc.devRef .tc main_arg2) = m ((c : Thread nD τ).loc main_arg2) :=
  (h5.2 main_arg2 (by decide)).trans (W4_main_arg2 m c)
/-- Region 1 bypasses `main_arg3`. -/
theorem V5_main_arg3 (h1 : Rd1OK m rd1) (c : Dev nD) (V5 : Valuation τ sig (Elt F)) (h5 : After1 m rd1 c V5) :
    V5 (Proc.devRef .tc main_arg3) = m ((c : Thread nD τ).loc main_arg3) :=
  (h5.2 main_arg3 (by decide)).trans (W4_main_arg3 m c)
/-- Region 1 bypasses `main_arg4`. -/
theorem V5_main_arg4 (h1 : Rd1OK m rd1) (c : Dev nD) (V5 : Valuation τ sig (Elt F)) (h5 : After1 m rd1 c V5) :
    V5 (Proc.devRef .tc main_arg4) = m ((c : Thread nD τ).loc main_arg4) :=
  (h5.2 main_arg4 (by decide)).trans (W4_main_arg4 m c)
/-- Region 1 bypasses `main_arg5`. -/
theorem V5_main_arg5 (h1 : Rd1OK m rd1) (c : Dev nD) (V5 : Valuation τ sig (Elt F)) (h5 : After1 m rd1 c V5) :
    V5 (Proc.devRef .tc main_arg5) = m ((c : Thread nD τ).loc main_arg5) :=
  (h5.2 main_arg5 (by decide)).trans (W4_main_arg5 m c)
/-- Region 1 bypasses `main_arg6`. -/
theorem V5_main_arg6 (h1 : Rd1OK m rd1) (c : Dev nD) (V5 : Valuation τ sig (Elt F)) (h5 : After1 m rd1 c V5) :
    V5 (Proc.devRef .tc main_arg6) = m ((c : Thread nD τ).loc main_arg6) :=
  (h5.2 main_arg6 (by decide)).trans (W4_main_arg6 m c)
/-- `main_arg7` is the array of region 1's input window 1: never written. -/
theorem V5_main_arg7 (h1 : Rd1OK m rd1) (c : Dev nD) (V5 : Valuation τ sig (Elt F)) (h5 : After1 m rd1 c V5) :
    V5 (Proc.devRef .tc main_arg7) = m ((c : Thread nD τ).loc main_arg7) := by
  have h := h5.1 1
  rw [(rd1 c).ArrAt_in 1 rfl] at h
  exact h.trans ((h1.hA c 1).trans (W4_main_arg7 m c))
/-- `main_arg8` is the array of region 1's input window 2: never written. -/
theorem V5_main_arg8 (h1 : Rd1OK m rd1) (c : Dev nD) (V5 : Valuation τ sig (Elt F)) (h5 : After1 m rd1 c V5) :
    V5 (Proc.devRef .tc main_arg8) = m ((c : Thread nD τ).loc main_arg8) := by
  have h := h5.1 2
  rw [(rd1 c).ArrAt_in 2 rfl] at h
  exact h.trans ((h1.hA c 2).trans (W4_main_arg8 m c))

/-- The new hidden state is the array of region 1's input window 0: never written. -/
theorem V5_main_v2 (h1 : Rd1OK m rd1) (c : Dev nD) (V5 : Valuation τ sig (Elt F)) (h5 : After1 m rd1 c V5) :
    V5 (Proc.devRef .tc main_v2) = W4 m c (Proc.devRef .tc main_v2) := by
  have h := h5.1 0
  rw [(rd1 c).ArrAt_in 0 rfl] at h
  exact h.trans (h1.hA c 0)

/-! ## The nine arguments end as launched -/

/-- From the run's post: the final memory at an argument is the host tail applied to the contents after region 1,
    read at a buffer no tail operation writes; those contents at an argument are the launch memory's. -/
theorem args_of_runPost (h1 : Rd1OK m rd1) (r : PUnit × MemSt nD τ sig (Elt F)) (h : RunPost m rd1 r) :
    ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  intro c
  obtain ⟨V5, h5, hmem⟩ := h c
  have tail : ∀ b : Ref sig .tc, b ∉ hostOps2_W → ¬ (Proc.devRef .tc b : DevRef τ sig).isScoped →
      r.2.mem ((c.tc : Thread nD τ).loc b) = V5 (Proc.devRef .tc b) := fun b hb hs =>
    (hmem _ (Finset.mem_filter.mpr ⟨StableHlo.devRef_mem_tcRefs b, hs⟩)).trans
      (StableHlo.after_of_writes_sub hostOps2 V5 hostOps2_writes hb)
  exact ⟨(tail main_arg0 (by decide) (by decide)).trans (V5_main_arg0 m rd1 h1 c V5 h5),
    (tail main_arg1 (by decide) (by decide)).trans (V5_main_arg1 m rd1 h1 c V5 h5),
    (tail main_arg2 (by decide) (by decide)).trans (V5_main_arg2 m rd1 h1 c V5 h5),
    (tail main_arg3 (by decide) (by decide)).trans (V5_main_arg3 m rd1 h1 c V5 h5),
    (tail main_arg4 (by decide) (by decide)).trans (V5_main_arg4 m rd1 h1 c V5 h5),
    (tail main_arg5 (by decide) (by decide)).trans (V5_main_arg5 m rd1 h1 c V5 h5),
    (tail main_arg6 (by decide) (by decide)).trans (V5_main_arg6 m rd1 h1 c V5 h5),
    (tail main_arg7 (by decide) (by decide)).trans (V5_main_arg7 m rd1 h1 c V5 h5),
    (tail main_arg8 (by decide) (by decide)).trans (V5_main_arg8 m rd1 h1 c V5 h5)⟩

end Cert.KernelIdeal.Hand

end
-- ==== Proof.FrameRun.lean ====
/-
  The frame: every weakly fair execution of @main terminates, nothing faulting, and the nine argument arrays end as
  launched. Read off the run at region 1's exact proof data with its three OUTPUT windows forgotten: what the second
  kernel leaves in its result blocks is then not named — at the word-level instance it is no function of the arrays,
  the words past the weight and bias arrays' ends flowing into the matrix product —, and the frame does not read it.
-/
import proofs.«402431_j70918499992252_3_alg».proof.Proof.RunMain
import proofs.«402431_j70918499992252_3_alg».proof.Proof.RunReg0
import proofs.«402431_j70918499992252_3_alg».proof.Proof.RunReg1
import proofs.«402431_j70918499992252_3_alg».proof.Proof.RunArgs

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Rounds
open Idealize.ShloMosaic.Pipeline (Dat RDat)

variable {F : FTy → Type} [FloatOps F] [Named F]

variable (m : (ℓ : Loc nD τ sig) → Buf (Elt F) ℓ) (ρ : Dev nD → PrngReg)

/-- Region 1's output windows: 3 (the logits block), 4 and 5 (the tile's maximum and sum). -/
abbrev outs1 : Fin cfg1.W → Bool := fun w => decide (3 ≤ w.val)

/-- Region 1's exact proof data read relationally, its outputs forgotten. -/
def rd1F (c : Dev nD) : RDat τ (Elt F) Unit ℕ (UR sig nD τ) ℕ cfg1 c := (dat1 (E1 m) c).toRForget outs1

theorem rd1F_ok : Rd1OK m (rd1F m) where
  hA c w := A_eq1 (E1 m) c w
  hΦ _ _ := rfl
  howed _ _ := rfl
  hshare c w := by
    show (dat1 (E1 m) c).share w = _
    exact (dat1 (E1 m) c).share_full (fun _ => rfl) w
  hrec _ _ := rfl
  hbody c := (body_obligation1_fgt (E1 m) c).toRForget

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h => args_of_runPost m (rd1F m) (rd1F_ok m) r h)
    (run_main m ρ (rd1F m) (reg0 m (rd1F m)) (fun _ => .rfl) (fun _ => .rfl)
      (reg1 m (rd1F m) (rd1F_ok m)) (fun _ => .rfl) (fun _ => .rfl))

end Cert.KernelIdeal.Hand

end
-- ==== Proof.Spec.lean ====
/-
  The mathematics both programs compute, written once over plain index types and the extended reals.

  One decoder step of a GRU language model: the embedding row of the token, rectified; the two gate
  pre-activations `gi = x·W_ihᵀ + b_ih` and `gh = h·W_hhᵀ + b_hh` (3072 columns: reset, update, candidate);
  `r = σ(gi_r + gh_r)`, `z = σ(gi_z + gh_z)`, `n = tanh(gi_n + r·gh_n)`, the new state
  `h' = (1 - z)·n + z·h`; the logits `h'·W_outᵀ + b_out` over 50257 words, and their log-softmax.

  The log-softmax is written in two arrangements: in one pass over all the logits (`outWhole`), and tile by
  tile — 25 tiles of 2048 lanes, the lanes past the vocabulary's end holding -∞, each tile giving its
  maximum and its sum of exponentials about that maximum, the tiles then combined about the largest maximum
  (`outTiled`). The two agree when every logit is a real number (module LseLaw).
-/
import Idealize.ShloMosaic.PureOps.Ideal

noncomputable section

namespace Cert.GruSpec

open Idealize.ShloMosaic

/-- The logistic function as the expression both programs spell: `1 / (1 + e^(-a))`. -/
def sig (a : EReal) : EReal := Ideal.div 1 (1 + Ideal.exp (-a))

/-- The embedding row a non-negative token selects: the token, held to the table's last row. -/
def rowOf (tok : BitVec 32) : Fin 50257 := ⟨min tok.toNat 50256, by omega⟩

/-- Row `k` of the reset gate, of the update gate, of the candidate, among the 3072 gate rows. -/
def gr (k : Fin 1024) : Fin 3072 := ⟨k.val, by omega⟩
def gz (k : Fin 1024) : Fin 3072 := ⟨1024 + k.val, by omega⟩
def gn (k : Fin 1024) : Fin 3072 := ⟨2048 + k.val, by omega⟩

section Gru

variable (x h : Fin 1024 → EReal) (wih whh : Fin 3072 → Fin 1024 → EReal) (bih bhh : Fin 3072 → EReal)

/-- The rectified embedding row. -/
def relu (e : Fin 1024 → EReal) (k : Fin 1024) : EReal := max (e k) 0

/-- The input-side and the state-side gate pre-activations. -/
def gi (j : Fin 3072) : EReal := (∑ k : Fin 1024, x k * wih j k) + bih j
def gh (j : Fin 3072) : EReal := (∑ k : Fin 1024, h k * whh j k) + bhh j

def rgate (k : Fin 1024) : EReal := sig (gi x wih bih (gr k) + gh h whh bhh (gr k))
def zgate (k : Fin 1024) : EReal := sig (gi x wih bih (gz k) + gh h whh bhh (gz k))
def cand (k : Fin 1024) : EReal :=
  Ideal.tanh (gi x wih bih (gn k) + rgate x h wih whh bih bhh k * gh h whh bhh (gn k))

/-- The new hidden state. -/
def hnew (k : Fin 1024) : EReal :=
  (1 - zgate x h wih whh bih bhh k) * cand x h wih whh bih bhh k + zgate x h wih whh bih bhh k * h k

end Gru

/-- The logits of a hidden state. -/
def logit (hn : Fin 1024 → EReal) (wout : Fin 50257 → Fin 1024 → EReal) (bout : Fin 50257 → EReal) (v : Fin 50257) : EReal :=
  (∑ k : Fin 1024, hn k * wout v k) + bout v

/-! ## The log-softmax, in one pass and tile by tile -/

/-- In one pass: shift by the largest logit, subtract the log of the sum of exponentials. -/
def outWhole (lg : Fin 50257 → EReal) (v : Fin 50257) : EReal :=
  (lg v - Finset.univ.sup lg) - Ideal.log (∑ u : Fin 50257, Ideal.exp (lg u - Finset.univ.sup lg))

/-- Lane `j` of tile `t`: the logit of word `2048·t + j`, or -∞ past the vocabulary's end. -/
def lane (lg : Fin 50257 → EReal) (t : Fin 25) (j : Fin 2048) : EReal :=
  if hv : 2048 * t.val + j.val < 50257 then lg ⟨2048 * t.val + j.val, hv⟩ else ⊥

/-- A tile's maximum, and its sum of exponentials about that maximum. -/
def tmax (lg : Fin 50257 → EReal) (t : Fin 25) : EReal := Finset.univ.sup (lane lg t)
def texp (lg : Fin 50257 → EReal) (t : Fin 25) : EReal := ∑ j : Fin 2048, Ideal.exp (lane lg t j - tmax lg t)

/-- The tiles combined about the largest maximum: the log of the sum of all exponentials. -/
def gmax (lg : Fin 50257 → EReal) : EReal := Finset.univ.sup (tmax lg)
def lseTiled (lg : Fin 50257 → EReal) : EReal :=
  gmax lg + Ideal.log (∑ t : Fin 25, texp lg t * Ideal.exp (tmax lg t - gmax lg))

/-- Tile by tile: the logit less the combined log-sum-exp. -/
def outTiled (lg : Fin 50257 → EReal) (v : Fin 50257) : EReal := lg v - lseTiled lg

end Cert.GruSpec

end
-- ==== Proof.Pay1Value.lean ====
/-
  The out-projection kernel's payloads read at an index, the floats read as extended reals.

  At grid point t the kernel holds the hidden row x0 [1,1024], a block x1 [2048,1024] of the output weights and a block
  x2 [2048] of the output bias. Lane j of the tile is the logit ∑ k, x0 k · x1 j k + x2 j where word 2048·t + j lies in
  the vocabulary (below 50257), and -∞ past its end. The tile's maximum is the supremum of the lanes; its sum of
  exponentials is taken about that maximum; both are copied to every place of a [1,8,128] block. Lanes past the
  vocabulary's end do not read the weight and bias blocks.
-/
import proofs.«402431_j70918499992252_3_alg».proof.Proof.Gen.KernelIdeal.Skeleton
import proofs.«402431_j70918499992252_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-! ## Words: the lane mask -/

/-- The constant the kernel masks with is named -∞. -/
theorem neg_big : Named.named (F := Ideal) κ "neg_big" (φ := .f32) 0xFF333333#32 = (⊥ : EReal) :=
  IdealRules.named_const.ideal_named_scalar _ _ _ _ rfl

theorem bit_eq_one {b : Bool} : BitVec.ofBool b = 1#1 ↔ b = true := by cases b <;> decide

/-- The word of lane j of tile t is the natural number 2048·t + j: nothing wraps. -/
theorem lane_word (t : Nat) (ht : t < 25) (j : Fin 2048) :
    (IntOp.addi (Scalar.muli (BitVec.ofNat 32 t) 2048#32) (BitVec.ofNat 32 j.val)).toNat = 2048 * t + j.val := by
  have hj := j.isLt
  show ((BitVec.ofNat 32 t * 2048#32) + BitVec.ofNat 32 j.val).toNat = _
  rw [BitVec.toNat_add, BitVec.toNat_mul, BitVec.toNat_ofNat, BitVec.toNat_ofNat, BitVec.toNat_ofNat]
  omega

/-- The signed comparison of a lane's word with 50257 is the comparison of natural numbers, both below 2³¹. -/
theorem lane_select (t : Nat) (ht : t < 25) (j : Fin 2048) (a b : EReal) :
    Scalar.select (IntOp.cmpi .slt (IntOp.addi (Scalar.muli (BitVec.ofNat 32 t) 2048#32) (BitVec.ofNat 32 j.val)) 50257#32) a b
      = if 2048 * t + j.val < 50257 then a else b := by
  have hw := lane_word t ht j
  have hj := j.isLt
  have hc : IntOp.cmpi .slt (IntOp.addi (Scalar.muli (BitVec.ofNat 32 t) 2048#32) (BitVec.ofNat 32 j.val)) 50257#32 = 1#1
      ↔ 2048 * t + j.val < 50257 := by
    generalize IntOp.addi (Scalar.muli (BitVec.ofNat 32 t) 2048#32) (BitVec.ofNat 32 j.val) = w at hw
    have h5 : (50257#32 : BitVec 32).toNat = 50257 := rfl
    simp only [IntOp.cmpi, bit_eq_one, BitVec.slt_iff_toInt_lt]
    rw [BitVec.toInt_eq_toNat_cond, BitVec.toInt_eq_toNat_cond, hw, h5]
    split <;> split <;> omega
  by_cases h : 2048 * t + j.val < 50257
  · rw [if_pos h, hc.mpr h, select_one]
  · rw [if_neg h, eq_zero_of_ne_one (fun e => h (hc.mp e)), select_zero]

/-! ## The product with the weight block -/

theorem lhs_axis0 (i : S1x2048.Idx) (q : dot_S1x1024_S1024x2048_S1x2048_1_0_0_1_n_n.contr.Idx) :
    (dot_S1x1024_S1024x2048_S1x2048_1_0_0_1_n_n.lhsIdx i q 0).val = (i 0).val := by
  unfold DotDims.lhsIdx
  rw [dif_neg (show ¬(0 : Fin S1x1024.rank) ∈ dot_S1x1024_S1024x2048_S1x2048_1_0_0_1_n_n.lhsBatch by decide), dif_pos (show (0 : Fin S1x1024.rank) ∈ dot_S1x1024_S1024x2048_S1x2048_1_0_0_1_n_n.lhsNonContracting by decide)]
  rfl
theorem lhs_axis1 (i : S1x2048.Idx) (q : dot_S1x1024_S1024x2048_S1x2048_1_0_0_1_n_n.contr.Idx) :
    (dot_S1x1024_S1024x2048_S1x2048_1_0_0_1_n_n.lhsIdx i q 1).val = (q ⟨0, by decide⟩).val :=
  dot_S1x1024_S1024x2048_S1x2048_1_0_0_1_n_n.lhsIdx_val_of_single rfl i q
theorem rhs_axis0 (i : S1x2048.Idx) (q : dot_S1x1024_S1024x2048_S1x2048_1_0_0_1_n_n.contr.Idx) :
    (dot_S1x1024_S1024x2048_S1x2048_1_0_0_1_n_n.rhsIdx i q 0).val = (q ⟨0, by decide⟩).val :=
  dot_S1x1024_S1024x2048_S1x2048_1_0_0_1_n_n.rhsIdx_val_of_single rfl i q
theorem rhs_axis1 (i : S1x2048.Idx) (q : dot_S1x1024_S1024x2048_S1x2048_1_0_0_1_n_n.contr.Idx) :
    (dot_S1x1024_S1024x2048_S1x2048_1_0_0_1_n_n.rhsIdx i q 1).val = (i 1).val := by
  unfold DotDims.rhsIdx
  rw [dif_neg (show ¬(1 : Fin S1024x2048.rank) ∈ dot_S1x1024_S1024x2048_S1x2048_1_0_0_1_n_n.rhsBatch by decide), dif_pos (show (1 : Fin S1024x2048.rank) ∈ dot_S1x1024_S1024x2048_S1x2048_1_0_0_1_n_n.rhsNonContracting by decide)]
  rfl

/-- The matrix product into a zero accumulator, at lane j: the sum over the 1024 hidden coordinates. -/
theorem matmul_at (a : FVec Ideal S1x1024 .bf16) (b : FVec Ideal S1024x2048 .bf16) (j : Fin 2048) :
    matmul dot_S1x1024_S1024x2048_S1x2048_1_0_0_1_n_n none a b (constant (F := Ideal) S1x2048 .f32 0x00000000#32) (ix2 (0 : Fin 1) j)
      = ∑ k : Fin 1024, a (ix2 (0 : Fin 1) k) * b (ix2 k j) := by
  simp only [matmul]
  rw [Ideal.matmul_constant_zero_apply, ← Equiv.sum_comp (contrEquiv1 dot_S1x1024_S1024x2048_S1x2048_1_0_0_1_n_n 1024 rfl rfl).symm]
  refine Finset.sum_congr rfl fun k _ => ?_
  have hk := contrEquiv1_symm_val dot_S1x1024_S1024x2048_S1x2048_1_0_0_1_n_n 1024 rfl rfl k
  have el : dot_S1x1024_S1024x2048_S1x2048_1_0_0_1_n_n.lhsIdx (ix2 (0 : Fin 1) j) ((contrEquiv1 dot_S1x1024_S1024x2048_S1x2048_1_0_0_1_n_n 1024 rfl rfl).symm k) = ix2 (0 : Fin 1) k := funext fun c => Fin.ext (by
    match c with
    | ⟨0, _⟩ => exact lhs_axis0 _ _
    | ⟨1, _⟩ => exact (lhs_axis1 _ _).trans hk)
  have er : dot_S1x1024_S1024x2048_S1x2048_1_0_0_1_n_n.rhsIdx (ix2 (0 : Fin 1) j) ((contrEquiv1 dot_S1x1024_S1024x2048_S1x2048_1_0_0_1_n_n 1024 rfl rfl).symm k) = ix2 k j := funext fun c => Fin.ext (by
    match c with
    | ⟨0, _⟩ => exact (rhs_axis0 _ _).trans hk
    | ⟨1, _⟩ => exact rhs_axis1 _ _)
  rw [el, er]

/-! ## The masked logits -/

/-- The payload, its pointwise operations read at an index. -/
theorem pay1_unfold (i : grid1.Coords) (x0 : Vec Ideal S1x1024 .f32) (x1 : Vec Ideal S2048x1024 .f32) (x2 : Vec Ideal S2048 .f32) (y : S1x2048.Idx) :
    k1_pay1 (F := Ideal) i x0 x1 x2 y
      = Scalar.select (IntOp.cmpi .slt (IntOp.addi (Scalar.muli (BitVec.ofNat 32 (i 0).val) 2048#32) (iota .tc S1x2048 32 [1] iota_S1x2048_d1_w32 y)) 50257#32)
          (matmul dot_S1x1024_S1024x2048_S1x2048_1_0_0_1_n_n none
              (truncf (F := Ideal) .bf16 (shapeCast S1x1024 x0 shapeCasts_S1x1024_S1x1024) bitsLt_bf16_f32)
              (transpose S1024x2048 [1, 0] (truncf (F := Ideal) .bf16 x1 bitsLt_bf16_f32) transposes_S2048x1024_p1_0_S1024x2048)
              (constant (F := Ideal) S1x2048 .f32 0x00000000#32) y
            + shapeCast S1x2048 x2 shapeCasts_S2048_S1x2048 y)
          (Named.named (F := Ideal) κ "neg_big" (φ := .f32) 0xFF333333#32) := rfl

theorem pay1_apply (i : grid1.Coords) (x0 : Vec Ideal S1x1024 .f32) (x1 : Vec Ideal S2048x1024 .f32) (x2 : Vec Ideal S2048 .f32) (j : Fin 2048) :
    k1_pay1 (F := Ideal) i x0 x1 x2 (ix2 (0 : Fin 1) j)
      = if 2048 * (i 0).val + j.val < 50257 then (∑ k : Fin 1024, x0 (ix2 (0 : Fin 1) k) * x1 (ix2 j k)) + x2 (ix1 j) else ⊥ := by
  have ht : (i 0).val < 25 := (i 0).isLt
  rw [pay1_unfold, iota_single_apply, neg_big, matmul_at, shapeCast_a_1a_apply, shapeCast_self]
  have es : (∑ k : Fin 1024, (truncf (F := Ideal) .bf16 x0 bitsLt_bf16_f32) (ix2 (0 : Fin 1) k)
        * (transpose S1024x2048 [1, 0] (truncf (F := Ideal) .bf16 x1 bitsLt_bf16_f32) transposes_S2048x1024_p1_0_S1024x2048) (ix2 k j))
      = ∑ k : Fin 1024, x0 (ix2 (0 : Fin 1) k) * x1 (ix2 j k) :=
    Finset.sum_congr rfl fun k _ => by rw [transpose_ix2_apply]; rfl
  rw [es]
  exact lane_select (i 0).val ht j _ _

/-! ## The tile's maximum and its sum of exponentials -/

/-- The pattern the maximum starts from is -∞. -/
theorem ofBits_neg_inf : Ideal.ofBits .f32 0xFF800000#32 = (⊥ : EReal) := by simp [Ideal.ofBits, Ideal.ieee]

/-- The index of a [1,2048] row over the one result index, with lane j put back, is (0, j). -/
theorem lift_row (y : S1.Idx) (j : Fin 2048) : reduces_S1x2048_S1.lift y j = ix2 (0 : Fin 1) j := by
  funext c
  apply Fin.ext
  match c with
  | ⟨0, _⟩ =>
    have h0 : (y 0).val < 1 := (y 0).isLt
    show (y 0).val = 0
    omega
  | ⟨1, _⟩ => rfl

/-- The maximum over the lanes, from -∞: the supremum of the row. -/
theorem tile_max (src : FVec Ideal S1x2048 .f32) (hφ : FKind.Formats .f32)
    (hacc : (0xFF800000#32 : BitVec 32) = FKind.maximumf.neutral .f32 hφ) (y : S1.Idx) :
    multiReduction .maximumf [1] S1 src 0xFF800000#32 reduces_S1x2048_S1 hφ hacc y
      = Finset.univ.sup fun j : Fin 2048 => src (ix2 (0 : Fin 1) j) := by
  refine (Ideal.multiReduction_maximumf_single src _ reduces_S1x2048_S1 hφ hacc y).trans ?_
  show (Finset.univ : Finset (Fin 2048)).fold max (Ideal.ofBits .f32 0xFF800000#32) (src ∘ reduces_S1x2048_S1.lift y) = _
  have e : (src ∘ reduces_S1x2048_S1.lift y) = fun j : Fin 2048 => src (ix2 (0 : Fin 1) j) :=
    funext fun j => congrArg src (lift_row y j)
  rw [ofBits_neg_inf, e]
  rfl

/-- The sum over the lanes, from zero: the sum of the row. -/
theorem tile_sum (src : FVec Ideal S1x2048 .f32) (hφ : FKind.Formats .f32)
    (hacc : (0x00000000#32 : BitVec 32) = FKind.add.neutral .f32 hφ) (y : S1.Idx) :
    multiReduction .add [1] S1 src 0x00000000#32 reduces_S1x2048_S1 hφ hacc y
      = ∑ j : Fin 2048, src (ix2 (0 : Fin 1) j) := by
  refine (Ideal.multiReduction_add_single src _ reduces_S1x2048_S1 hφ hacc y).trans ?_
  show (∑ j : Fin 2048, src (reduces_S1x2048_S1.lift y j)) = _
  exact Finset.sum_congr rfl fun j _ => congrArg src (lift_row y j)

/-- The tile's maximum, a [1,1] value: the supremum of the masked logits. -/
theorem pay2_apply (i : grid1.Coords) (x0 : Vec Ideal S1x1024 .f32) (x1 : Vec Ideal S2048x1024 .f32) (x2 : Vec Ideal S2048 .f32) (y : S1x1.Idx) :
    k1_pay2 (F := Ideal) i x0 x1 x2 y
      = Finset.univ.sup fun j : Fin 2048 => k1_pay1 (F := Ideal) i x0 x1 x2 (ix2 (0 : Fin 1) j) :=
  tile_max (k1_pay1 (F := Ideal) i x0 x1 x2) (.inl rfl) rfl (Shape.reshapeEquiv shapeCasts_S1_S1x1 y)

theorem pay3_apply (i : grid1.Coords) (x0 : Vec Ideal S1x1024 .f32) (x1 : Vec Ideal S2048x1024 .f32) (x2 : Vec Ideal S2048 .f32) (y : S1x8x128.Idx) :
    k1_pay3 (F := Ideal) i x0 x1 x2 y
      = Finset.univ.sup fun j : Fin 2048 => k1_pay1 (F := Ideal) i x0 x1 x2 (ix2 (0 : Fin 1) j) := by
  unfold k1_pay3 broadcastTo shapeCast
  exact pay2_apply i x0 x1 x2 _

theorem pay4_apply (i : grid1.Coords) (x0 : Vec Ideal S1x1024 .f32) (x1 : Vec Ideal S2048x1024 .f32) (x2 : Vec Ideal S2048 .f32) (y : S1x8x128.Idx) :
    k1_pay4 (F := Ideal) i x0 x1 x2 y
      = ∑ j : Fin 2048, Ideal.exp (k1_pay1 (F := Ideal) i x0 x1 x2 (ix2 (0 : Fin 1) j)
          - Finset.univ.sup fun j' : Fin 2048 => k1_pay1 (F := Ideal) i x0 x1 x2 (ix2 (0 : Fin 1) j')) := by
  unfold k1_pay4 broadcastTo shapeCast
  refine (tile_sum _ (.inl rfl) rfl _).trans ?_
  refine Finset.sum_congr rfl fun j _ => ?_
  show Ideal.exp (k1_pay1 (F := Ideal) i x0 x1 x2 (ix2 (0 : Fin 1) j) - k1_pay2 (F := Ideal) i x0 x1 x2 _) = _
  rw [pay2_apply]

/-! ## Lanes past the vocabulary's end read nothing -/

theorem pay_indep (i : grid1.Coords) (x0 : Vec Ideal S1x1024 .f32) (x1 x1' : Vec Ideal S2048x1024 .f32) (x2 x2' : Vec Ideal S2048 .f32)
    (h1 : ∀ (j : Fin 2048) (k : Fin 1024), 2048 * (i 0).val + j.val < 50257 → x1 (ix2 j k) = x1' (ix2 j k))
    (h2 : ∀ j : Fin 2048, 2048 * (i 0).val + j.val < 50257 → x2 (ix1 j) = x2' (ix1 j)) :
    k1_pay1 (F := Ideal) i x0 x1 x2 = k1_pay1 (F := Ideal) i x0 x1' x2'
      ∧ k1_pay3 (F := Ideal) i x0 x1 x2 = k1_pay3 (F := Ideal) i x0 x1' x2'
      ∧ k1_pay4 (F := Ideal) i x0 x1 x2 = k1_pay4 (F := Ideal) i x0 x1' x2' := by
  have e1 : k1_pay1 (F := Ideal) i x0 x1 x2 = k1_pay1 (F := Ideal) i x0 x1' x2' := by
    funext y
    obtain ⟨p, q, rfl⟩ : ∃ (p : Fin 1) (q : Fin 2048), y = ix2 p q := ⟨y 0, y 1, eq_ix2 y⟩
    obtain rfl : p = 0 := Fin.fin_one_eq_zero p
    rw [pay1_apply, pay1_apply]
    by_cases hv : 2048 * (i 0).val + q.val < 50257
    · rw [if_pos hv, if_pos hv, h2 q hv, Finset.sum_congr rfl fun k _ => by rw [h1 q k hv]]
    · rw [if_neg hv, if_neg hv]
  refine ⟨e1, ?_, ?_⟩
  · funext y
    rw [pay3_apply, pay3_apply, e1]
  · funext y
    rw [pay4_apply, pay4_apply, e1]

end Cert.KernelIdeal.PayValue

end
-- ==== Proof.Reg1Value.lean ====
/-
  What the second region leaves in its three output arrays, the floats read as extended reals.

  The arrays when the region is entered: the hidden row h [1,1024], the output weights W [50257,1024], the output bias
  b [50257]; the logits are lg v = ∑ k, h k · W v k + b v. Point t of the grid holds rows 2048·t … 2048·t + 2047 of W and b
  (zero past the arrays' end, where the lane mask reads nothing) and writes back lane block t of the masked logits
  [1,51200], and row t of the tile maxima and of the tile sums of exponentials [25,8,128]. Word 2048·t + j is written by
  point t only, and every place of the three arrays is written by some point.
-/
import proofs.«402431_j70918499992252_3_alg».proof.Proof.Reg1
import proofs.«402431_j70918499992252_3_alg».proof.Proof.Pay1Value
import proofs.«402431_j70918499992252_3_alg».proof.Proof.Spec
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.SL.Sem Idealize.ShloMosaic.ValueIdx
open Idealize.ShloMosaic.Pipeline (Dat)

/-! ## A whole-buffer load is the contents; a whole one-piece store leaves its payload -/

theorem zeros1 : (![0] : Fin 1 → Nat) = fun _ => 0 := funext fun a => match a with | ⟨0, _⟩ => rfl
theorem zeros2 : (![0, 0] : Fin 2 → Nat) = fun _ => 0 := funext fun a => match a with | ⟨0, _⟩ => rfl | ⟨1, _⟩ => rfl
theorem zeros3 : (![0, 0, 0] : Fin 3 → Nat) = fun _ => 0 :=
  funext fun a => match a with | ⟨0, _⟩ => rfl | ⟨1, _⟩ => rfl | ⟨2, _⟩ => rfl

theorem out1_3_eq (i : grid1.Coords) (x0 : Vec Ideal S1x1024 .f32) (x1 : Vec Ideal S2048x1024 .f32) (x2 : Vec Ideal S2048 .f32) :
    out1_3 (F := Ideal) i x0 x1 x2 = k1_pay1 (F := Ideal) i x0 x1 x2 := by
  unfold out1_3
  rw [View.canon_unit_zero zeros2]
  simp only [View.ld_unit_zero (S := S1x1024) zeros2, View.ld_unit_zero (S := S2048x1024) zeros2, View.ld_unit_zero (S := S2048) zeros1]

theorem out1_4_eq (i : grid1.Coords) (x0 : Vec Ideal S1x1024 .f32) (x1 : Vec Ideal S2048x1024 .f32) (x2 : Vec Ideal S2048 .f32) :
    out1_4 (F := Ideal) i x0 x1 x2 = k1_pay3 (F := Ideal) i x0 x1 x2 := by
  unfold out1_4
  rw [View.canon_unit_zero zeros3]
  simp only [View.ld_unit_zero (S := S1x1024) zeros2, View.ld_unit_zero (S := S2048x1024) zeros2, View.ld_unit_zero (S := S2048) zeros1]

theorem out1_5_eq (i : grid1.Coords) (x0 : Vec Ideal S1x1024 .f32) (x1 : Vec Ideal S2048x1024 .f32) (x2 : Vec Ideal S2048 .f32) :
    out1_5 (F := Ideal) i x0 x1 x2 = k1_pay4 (F := Ideal) i x0 x1 x2 := by
  unfold out1_5
  rw [View.canon_unit_zero zeros3]
  simp only [View.ld_unit_zero (S := S1x1024) zeros2, View.ld_unit_zero (S := S2048x1024) zeros2, View.ld_unit_zero (S := S2048) zeros1]

/-- The three outputs do not depend on what the weight and bias buffers hold past the arrays' end. -/
theorem hindep_ideal : ∀ (i : grid1.Coords) (x0 : Vec Ideal S1x1024 .f32) (x1 x1' : Vec Ideal S2048x1024 .f32) (x2 x2' : Vec Ideal S2048 .f32),
    AgreeInside i x1 x1' → AgreeInside' i x2 x2' →
      out1_3 (F := Ideal) i x0 x1 x2 = out1_3 i x0 x1' x2' ∧ out1_4 (F := Ideal) i x0 x1 x2 = out1_4 i x0 x1' x2'
        ∧ out1_5 (F := Ideal) i x0 x1 x2 = out1_5 i x0 x1' x2' := by
  intro i x0 x1 x1' x2 x2' h1 h2
  rw [out1_3_eq, out1_3_eq, out1_4_eq, out1_4_eq, out1_5_eq, out1_5_eq]
  exact pay_indep i x0 x1 x1' x2 x2' (fun j k hv => h1.apply (ix2 j k) hv) (fun j hv => h2.apply (ix1 j) hv)

variable (V : (c : Dev nD) → (b : Ref sig .tc) → Buf (Elt Ideal) ((c : Thread nD τ).loc b))

/-- The three arrays the region reads, as it finds them: the hidden row, the output weights, the output bias. -/
abbrev hV (c : Dev nD) : S1x1024.Idx → EReal := V c main_v2
abbrev wV (c : Dev nD) : S50257x1024.Idx → EReal := V c main_arg7
abbrev bV (c : Dev nD) : S50257.Idx → EReal := V c main_arg8

/-- Their logits: the hidden row against each row of the weights, plus the bias. -/
def lgV (c : Dev nD) : Fin 50257 → EReal := fun v =>
  (∑ k : Fin 1024, hV V c (ix2 (0 : Fin 1) k) * wV V c (ix2 v k)) + bV V c (ix1 v)

/-! ## The grid's points and the windows' block indices -/

/-- Point t has coordinate t; the hidden row's block index is always 0; the weight, bias and output blocks move with t. -/
theorem point_facts : ∀ t : Fin cfg1.N, (grid1.coords t 0).val = t.val
    ∧ win1_0.index t (0 : Fin 2) = 0 ∧ win1_0.index t (1 : Fin 2) = 0
    ∧ win1_1.index t (0 : Fin 2) = t.val ∧ win1_1.index t (1 : Fin 2) = 0
    ∧ win1_2.index t (0 : Fin 1) = t.val
    ∧ win1_3.index t (0 : Fin 2) = 0 ∧ win1_3.index t (1 : Fin 2) = t.val
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0 :=
  (by decide +kernel : ∀ t : Fin grid1.N, _)

theorem hblk_eq (c : Dev nD) (t : Fin cfg1.N) : hblk V c t = hV V c := by
  obtain ⟨_, e0, e1, _⟩ := point_facts t
  funext y
  unfold hblk iblk1
  rw [View.read_apply]
  show V c main_v2 _ = V c main_v2 y
  congr 1
  funext a
  apply Fin.ext
  match a with
  | ⟨0, _⟩ => show win1_0.index t (0 : Fin 2) * 1 + 1 * (y 0).val = (y 0).val; rw [e0]; omega
  | ⟨1, _⟩ => show win1_0.index t (1 : Fin 2) * 1024 + 1 * (y 1).val = (y 1).val; rw [e1]; omega

/-- A row of the weight block that names a word of the vocabulary is that word's row of the weights. -/
theorem wblk_apply (c : Dev nD) (t : Fin cfg1.N) (j : Fin 2048) (k : Fin 1024) (hv : 2048 * t.val + j.val < 50257) :
    wblk V c t (ix2 j k) = wV V c (ix2 ⟨2048 * t.val + j.val, hv⟩ k) := by
  obtain ⟨_, _, _, e0, e1, _⟩ := point_facts t
  have hix : cc1_transform_1 (grid1.coords t) 0 = t.val := e0
  have hm : ∀ a, (ix2 j k a).val < (cfg1.win 1).xsize (grid1.coords t) a := by
    intro a
    match a with
    | ⟨0, _⟩ =>
      show j.val < (Pipeline.Clip.of (cc1_transform_1 (grid1.coords t) 0) 2048 50257).extent 2048
      rw [hix]; unfold Pipeline.Clip.of
      have := j.isLt
      split
      · exact this
      · show j.val < 50257 - t.val * 2048; omega
    | ⟨1, _⟩ => exact k.isLt
  have hfill : wblk V c t (ix2 j k) = iblk1 V c 1 t (fun a => ⟨(ix2 j k a).val, hm a⟩) :=
    (cfg1.win 1).fill_xinj (grid1.coords t) _ (iblk1 V c 1 t) (fun a => ⟨(ix2 j k a).val, hm a⟩)
  rw [hfill]
  unfold iblk1
  rw [View.read_apply]
  show V c main_arg7 _ = V c main_arg7 _
  congr 1
  funext a
  apply Fin.ext
  match a with
  | ⟨0, _⟩ => show win1_1.index t (0 : Fin 2) * 2048 + 1 * j.val = 2048 * t.val + j.val; rw [e0]; omega
  | ⟨1, _⟩ => show win1_1.index t (1 : Fin 2) * 1024 + 1 * k.val = k.val; rw [e1]; omega

/-- A lane of the bias block that names a word of the vocabulary is that word's bias. -/
theorem bblk_apply (c : Dev nD) (t : Fin cfg1.N) (j : Fin 2048) (hv : 2048 * t.val + j.val < 50257) :
    bblk V c t (ix1 j) = bV V c (ix1 ⟨2048 * t.val + j.val, hv⟩) := by
  obtain ⟨_, _, _, _, _, e0, _⟩ := point_facts t
  have hix : cc1_transform_2 (grid1.coords t) 0 = t.val := e0
  have hm : ∀ a, (ix1 j a).val < (cfg1.win 2).xsize (grid1.coords t) a := by
    intro a
    match a with
    | ⟨0, _⟩ =>
      show j.val < (Pipeline.Clip.of (cc1_transform_2 (grid1.coords t) 0) 2048 50257).extent 2048
      rw [hix]; unfold Pipeline.Clip.of
      have := j.isLt
      split
      · exact this
      · show j.val < 50257 - t.val * 2048; omega
  have hfill : bblk V c t (ix1 j) = iblk1 V c 2 t (fun a => ⟨(ix1 j a).val, hm a⟩) :=
    (cfg1.win 2).fill_xinj (grid1.coords t) _ (iblk1 V c 2 t) (fun a => ⟨(ix1 j a).val, hm a⟩)
  rw [hfill]
  unfold iblk1
  rw [View.read_apply]
  show V c main_arg8 _ = V c main_arg8 _
  congr 1
  funext a
  apply Fin.ext
  match a with
  | ⟨0, _⟩ => show win1_2.index t (0 : Fin 1) * 2048 + 1 * j.val = 2048 * t.val + j.val; rw [e0]; omega

/-! ## What point t computes -/

/-- Lane j of point t's masked logits is lane j of tile t of the logits. -/
theorem pay1_at (c : Dev nD) (t : Fin cfg1.N) (ht : t.val < 25) (j : Fin 2048) :
    k1_pay1 (F := Ideal) (grid1.coords t) (hblk V c t) (wblk V c t) (bblk V c t) (ix2 (0 : Fin 1) j)
      = Cert.GruSpec.lane (lgV V c) ⟨t.val, ht⟩ j := by
  obtain ⟨ec, _⟩ := point_facts t
  rw [pay1_apply, ec]
  unfold Cert.GruSpec.lane
  by_cases hv : 2048 * t.val + j.val < 50257
  · rw [if_pos hv, dif_pos hv]
    unfold lgV
    rw [hblk_eq, bblk_apply V c t j hv, Finset.sum_congr rfl fun k _ => by rw [wblk_apply V c t j k hv]]
  · rw [if_neg hv, dif_neg hv]

/-- The masked logits of point t, as a function of the lane, are tile t's lanes. -/
theorem pay1_fun (c : Dev nD) (t : Fin cfg1.N) (ht : t.val < 25) :
    (fun j : Fin 2048 => k1_pay1 (F := Ideal) (grid1.coords t) (hblk V c t) (wblk V c t) (bblk V c t) (ix2 (0 : Fin 1) j))
      = Cert.GruSpec.lane (lgV V c) ⟨t.val, ht⟩ :=
  funext fun j => pay1_at V c t ht j

/-- Point t's maximum is tile t's maximum, at every place of its block. -/
theorem pay3_at (c : Dev nD) (t : Fin cfg1.N) (ht : t.val < 25) (y : S1x8x128.Idx) :
    k1_pay3 (F := Ideal) (grid1.coords t) (hblk V c t) (wblk V c t) (bblk V c t) y
      = Cert.GruSpec.tmax (lgV V c) ⟨t.val, ht⟩ := by
  rw [pay3_apply, pay1_fun V c t ht]
  rfl

/-- Point t's sum of exponentials is tile t's, at every place of its block. -/
theorem pay4_at (c : Dev nD) (t : Fin cfg1.N) (ht : t.val < 25) (y : S1x8x128.Idx) :
    k1_pay4 (F := Ideal) (grid1.coords t) (hblk V c t) (wblk V c t) (bblk V c t) y
      = Cert.GruSpec.texp (lgV V c) ⟨t.val, ht⟩ := by
  rw [pay4_apply, pay1_fun V c t ht]
  unfold Cert.GruSpec.texp Cert.GruSpec.tmax
  exact Finset.sum_congr rfl fun j _ => by rw [pay1_at V c t ht j]

/-! ## The three arrays as functions of the logits -/

/-- The masked logits, [1,51200]: place v is lane v mod 2048 of tile v div 2048. -/
def G3 (c : Dev nD) : S1x51200.Idx → EReal := fun i =>
  Cert.GruSpec.lane (lgV V c) ⟨(i 1).val / 2048, by have : (i 1).val < 51200 := (i 1).isLt; omega⟩
    ⟨(i 1).val % 2048, Nat.mod_lt _ (by decide)⟩
/-- The tile maxima and the tile sums of exponentials, [25,8,128]: row t holds tile t's, at every place. -/
def G4 (c : Dev nD) : S25x8x128.Idx → EReal := fun i => Cert.GruSpec.tmax (lgV V c) ⟨(i 0).val, (i 0).isLt⟩
def G5 (c : Dev nD) : S25x8x128.Idx → EReal := fun i => Cert.GruSpec.texp (lgV V c) ⟨(i 0).val, (i 0).isLt⟩

theorem G3_at (c : Dev nD) (i : S1x51200.Idx) (t : Nat) (ht : t < 25) (j : Fin 2048) (h : (i 1).val = 2048 * t + j.val) :
    G3 V c i = Cert.GruSpec.lane (lgV V c) ⟨t, ht⟩ j := by
  have hj := j.isLt
  unfold G3
  exact congrArg₂ (Cert.GruSpec.lane (lgV V c)) (Fin.ext (by show (i 1).val / 2048 = t; omega))
    (Fin.ext (by show (i 1).val % 2048 = j.val; omega))

theorem point_lt (t : Fin cfg1.N) : t.val < 25 := lt_of_lt_of_eq t.isLt N_1

/-! ## The masked logits' array -/

/-- What point t writes back is block t of the masked logits. -/
theorem flushed3_eq (c : Dev nD) (t : Fin cfg1.N) :
    (dat1 V c).flushed 3 t = ((cfg1.win 3).blk t).view.read (Elt Ideal) (G3 V c) := by
  have ht := point_lt t
  obtain ⟨_, _, _, _, _, _, e30, e31, _⟩ := point_facts t
  show (cfg1.win 3).cut (grid1.coords t) ((dat1 V c).after 3 t) = _
  rw [after1_3, out1_3_eq]
  funext y
  rw [View.read_apply]
  have h0 : (y 0).val < 1 := (y 0).isLt
  have h1 : (y 1).val < 2048 := (y 1).isLt
  have ey : (cfg1.win 3).xinj (grid1.coords t) y = ix2 (0 : Fin 1) ⟨(y 1).val, h1⟩ := funext fun a => Fin.ext (by
    match a with
    | ⟨0, _⟩ => show (y 0).val = 0; omega
    | ⟨1, _⟩ => rfl)
  show k1_pay1 (F := Ideal) _ _ _ _ ((cfg1.win 3).xinj (grid1.coords t) y) = G3 V c _
  rw [ey, pay1_at V c t ht]
  refine (G3_at V c _ t.val ht ⟨(y 1).val, h1⟩ ?_).symm
  show win1_3.index t (1 : Fin 2) * 2048 + 1 * (y 1).val = 2048 * t.val + (y 1).val
  rw [e31]; omega

/-- A place of the array is in point t's block when each coordinate is in the block's range. -/
theorem mem_blk3 (t : Fin cfg1.N) (i : S1x51200.Idx) :
    i ∈ ((cfg1.win 3).blk t).view.set ↔ ∀ a : Fin 2, win1_3.index t a * S1x2048.size a ≤ (i a).val
      ∧ (i a).val < win1_3.index t a * S1x2048.size a + S1x2048.size a := by
  show i ∈ ((View.whole main_v3_0).slice (win1_3.rect t)).set ↔ _
  rw [View.set_slice_whole, Rect.mem_set_unit]
  exact Iff.rfl

/-- Place v is written by point v div 2048. -/
theorem cover3 (i : S1x51200.Idx) : ∃ t : Fin cfg1.N, (cfg1.win 3).flush t = true ∧ i ∈ ((cfg1.win 3).blk t).view.set := by
  have hi0 : (i 0).val < 1 := (i 0).isLt
  have hi1 : (i 1).val < 51200 := (i 1).isLt
  obtain ⟨t, htv⟩ : ∃ t : Fin cfg1.N, t.val = (i 1).val / 2048 :=
    ⟨⟨(i 1).val / 2048, by rw [show cfg1.N = 25 from N_1]; omega⟩, rfl⟩
  obtain ⟨_, _, _, _, _, _, e30, e31, _⟩ := point_facts t
  refine ⟨t, flush1_3 t, ?_⟩
  rw [mem_blk3]
  intro a
  match a with
  | ⟨0, _⟩ =>
    show win1_3.index t (0 : Fin 2) * 1 ≤ (i 0).val ∧ (i 0).val < win1_3.index t (0 : Fin 2) * 1 + 1
    rw [e30]; omega
  | ⟨1, _⟩ =>
    show win1_3.index t (1 : Fin 2) * 2048 ≤ (i 1).val ∧ (i 1).val < win1_3.index t (1 : Fin 2) * 2048 + 2048
    rw [e31, htv]; omega

theorem final3 (c : Dev nD) : (dat1 V c).arrAt 3 cfg1.N = G3 V c :=
  (dat1 V c).arrAt_eq_of_cover 3 (G3 V c) (fun t _ => flushed3_eq V c t) cover3

theorem arr3_apply (c : Dev nD) (t : Fin 25) (j : Fin 2048) :
    (dat1 (F := Ideal) V c).arrAt 3 cfg1.N (ix2 (0 : Fin 1) ⟨2048 * t.val + j.val, by omega⟩) = Cert.GruSpec.lane (lgV V c) t j := by
  rw [final3]
  exact G3_at V c _ t.val t.isLt j rfl

/-! ## The tile maxima's array -/

/-- What point t writes back is row t of the array. -/
theorem flushed4_eq (c : Dev nD) (t : Fin cfg1.N) :
    (dat1 V c).flushed 4 t = ((cfg1.win 4).blk t).view.read (Elt Ideal) (G4 V c) := by
  have ht := point_lt t
  obtain ⟨_, _, _, _, _, _, _, _, e40, e41, e42, e50, e51, e52⟩ := point_facts t
  show (cfg1.win 4).cut (grid1.coords t) ((dat1 V c).after 4 t) = _
  rw [after1_4, out1_4_eq]
  funext y
  rw [View.read_apply]
  have h0 : (y 0).val < 1 := (y 0).isLt
  show k1_pay3 (F := Ideal) _ _ _ _ ((cfg1.win 4).xinj (grid1.coords t) y) = G4 V c _
  rw [pay3_at V c t ht]
  unfold G4
  refine congrArg (Cert.GruSpec.tmax (lgV V c)) (Fin.ext ?_)
  show t.val = win1_4.index t (0 : Fin 3) * 1 + 1 * (y 0).val
  rw [e40]; omega

theorem mem_blk4 (t : Fin cfg1.N) (i : S25x8x128.Idx) :
    i ∈ ((cfg1.win 4).blk t).view.set ↔ ∀ a : Fin 3, win1_4.index t a * S1x8x128.size a ≤ (i a).val
      ∧ (i a).val < win1_4.index t a * S1x8x128.size a + S1x8x128.size a := by
  show i ∈ ((View.whole main_v3_1).slice (win1_4.rect t)).set ↔ _
  rw [View.set_slice_whole, Rect.mem_set_unit]
  exact Iff.rfl

/-- Row t is written by point t. -/
theorem cover4 (i : S25x8x128.Idx) : ∃ t : Fin cfg1.N, (cfg1.win 4).flush t = true ∧ i ∈ ((cfg1.win 4).blk t).view.set := by
  have hi0 : (i 0).val < 25 := (i 0).isLt
  have hi1 : (i 1).val < 8 := (i 1).isLt
  have hi2 : (i 2).val < 128 := (i 2).isLt
  obtain ⟨t, htv⟩ : ∃ t : Fin cfg1.N, t.val = (i 0).val :=
    ⟨⟨(i 0).val, by rw [show cfg1.N = 25 from N_1]; exact hi0⟩, rfl⟩
  obtain ⟨_, _, _, _, _, _, _, _, e40, e41, e42, e50, e51, e52⟩ := point_facts t
  refine ⟨t, flush1_4 t, ?_⟩
  rw [mem_blk4]
  intro a
  match a with
  | ⟨0, _⟩ =>
    show win1_4.index t (0 : Fin 3) * 1 ≤ (i 0).val ∧ (i 0).val < win1_4.index t (0 : Fin 3) * 1 + 1
    rw [e40, htv]; omega
  | ⟨1, _⟩ =>
    show win1_4.index t (1 : Fin 3) * 8 ≤ (i 1).val ∧ (i 1).val < win1_4.index t (1 : Fin 3) * 8 + 8
    rw [e41]; omega
  | ⟨2, _⟩ =>
    show win1_4.index t (2 : Fin 3) * 128 ≤ (i 2).val ∧ (i 2).val < win1_4.index t (2 : Fin 3) * 128 + 128
    rw [e42]; omega

theorem final4 (c : Dev nD) : (dat1 V c).arrAt 4 cfg1.N = G4 V c :=
  (dat1 V c).arrAt_eq_of_cover 4 (G4 V c) (fun t _ => flushed4_eq V c t) cover4

theorem arr4_apply (c : Dev nD) (t : Fin 25) (a : Fin 8) (b : Fin 128) :
    (dat1 (F := Ideal) V c).arrAt 4 cfg1.N (ix3 t a b) = Cert.GruSpec.tmax (lgV V c) t := by
  rw [final4]
  rfl

/-! ## The tile sums' array -/

/-- What point t writes back is row t of the array. -/
theorem flushed5_eq (c : Dev nD) (t : Fin cfg1.N) :
    (dat1 V c).flushed 5 t = ((cfg1.win 5).blk t).view.read (Elt Ideal) (G5 V c) := by
  have ht := point_lt t
  obtain ⟨_, _, _, _, _, _, _, _, e40, e41, e42, e50, e51, e52⟩ := point_facts t
  show (cfg1.win 5).cut (grid1.coords t) ((dat1 V c).after 5 t) = _
  rw [after1_5, out1_5_eq]
  funext y
  rw [View.read_apply]
  have h0 : (y 0).val < 1 := (y 0).isLt
  show k1_pay4 (F := Ideal) _ _ _ _ ((cfg1.win 5).xinj (grid1.coords t) y) = G5 V c _
  rw [pay4_at V c t ht]
  unfold G5
  refine congrArg (Cert.GruSpec.texp (lgV V c)) (Fin.ext ?_)
  show t.val = win1_5.index t (0 : Fin 3) * 1 + 1 * (y 0).val
  rw [e50]; omega

theorem mem_blk5 (t : Fin cfg1.N) (i : S25x8x128.Idx) :
    i ∈ ((cfg1.win 5).blk t).view.set ↔ ∀ a : Fin 3, win1_5.index t a * S1x8x128.size a ≤ (i a).val
      ∧ (i a).val < win1_5.index t a * S1x8x128.size a + S1x8x128.size a := by
  show i ∈ ((View.whole main_v3_2).slice (win1_5.rect t)).set ↔ _
  rw [View.set_slice_whole, Rect.mem_set_unit]
  exact Iff.rfl

/-- Row t is written by point t. -/
theorem cover5 (i : S25x8x128.Idx) : ∃ t : Fin cfg1.N, (cfg1.win 5).flush t = true ∧ i ∈ ((cfg1.win 5).blk t).view.set := by
  have hi0 : (i 0).val < 25 := (i 0).isLt
  have hi1 : (i 1).val < 8 := (i 1).isLt
  have hi2 : (i 2).val < 128 := (i 2).isLt
  obtain ⟨t, htv⟩ : ∃ t : Fin cfg1.N, t.val = (i 0).val :=
    ⟨⟨(i 0).val, by rw [show cfg1.N = 25 from N_1]; exact hi0⟩, rfl⟩
  obtain ⟨_, _, _, _, _, _, _, _, e40, e41, e42, e50, e51, e52⟩ := point_facts t
  refine ⟨t, flush1_5 t, ?_⟩
  rw [mem_blk5]
  intro a
  match a with
  | ⟨0, _⟩ =>
    show win1_5.index t (0 : Fin 3) * 1 ≤ (i 0).val ∧ (i 0).val < win1_5.index t (0 : Fin 3) * 1 + 1
    rw [e50, htv]; omega
  | ⟨1, _⟩ =>
    show win1_5.index t (1 : Fin 3) * 8 ≤ (i 1).val ∧ (i 1).val < win1_5.index t (1 : Fin 3) * 8 + 8
    rw [e51]; omega
  | ⟨2, _⟩ =>
    show win1_5.index t (2 : Fin 3) * 128 ≤ (i 2).val ∧ (i 2).val < win1_5.index t (2 : Fin 3) * 128 + 128
    rw [e52]; omega

theorem final5 (c : Dev nD) : (dat1 V c).arrAt 5 cfg1.N = G5 V c :=
  (dat1 V c).arrAt_eq_of_cover 5 (G5 V c) (fun t _ => flushed5_eq V c t) cover5

theorem arr5_apply (c : Dev nD) (t : Fin 25) (a : Fin 8) (b : Fin 128) :
    (dat1 (F := Ideal) V c).arrAt 5 cfg1.N (ix3 t a b) = Cert.GruSpec.texp (lgV V c) t := by
  rw [final5]
  rfl

end Cert.KernelIdeal.Hand

end
-- ==== Proof.Pay0Value.lean ====
/-
  The kernel's output block, read at an index, at the extended reals.

  The one store's payload is, entry by entry: the embedding block `[1, 8, 128]` laid out as a row of 1024 (entry `k` is
  entry `(0, k / 128, k % 128)`) and rectified; six products of a row of 1024 with a transposed slice of 1024 rows of a
  weight block, each into a zero accumulator, with a slice of a bias block added; the logistic function of the summed
  reset and update pre-activations; the hyperbolic tangent of the candidate's; and `(1 - z) * n + z * h`. Narrowing to the
  shorter format is exact here, and a slice at rows `o` onward read at row `j` is the block at row `o + j`. So the
  output block at `(0, k)` is the specification's new hidden state at `k`.
-/
import proofs.«402431_j70918499992252_3_alg».proof.Proof.Reg0
import proofs.«402431_j70918499992252_3_alg».proof.Proof.Gen.KernelIdeal.Skeleton
import proofs.«402431_j70918499992252_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.PayValue0

open Cert.KernelIdeal Cert.KernelIdeal.Gen Cert.KernelIdeal.Hand
open Idealize.ShloMosaic Idealize.ShloMosaic.ValueIdx

/-- The hidden-state block as a row: entry `k` of the row is entry `(0, 0, k)` of the block. -/
def hrow (v5 : Vec Ideal S1x1x1024 .f32) : Fin 1024 → EReal := fun k => v5 (ix3 (0 : Fin 1) (0 : Fin 1) k)

theorem pay2_apply (v5 : Vec Ideal S1x1x1024 .f32) (k : Fin 1024) :
    k0_pay2 (F := Ideal) v5 (ix2 (0 : Fin 1) k) = hrow v5 k := by
  unfold k0_pay2
  exact shapeCast_1ab_ab_apply v5 shapeCasts_S1x1x1024_S1x1024 (0 : Fin 1) k

theorem pay4_apply (v5 : Vec Ideal S1x1x1024 .f32) (k : Fin 1024) :
    k0_pay4 (F := Ideal) v5 (ix2 (0 : Fin 1) k) = hrow v5 k := by
  unfold k0_pay4
  exact pay2_apply v5 k

theorem pay9_apply (v28 : Vec Ideal S1024 .f32) (k : Fin 1024) :
    k0_pay9 (F := Ideal) v28 (ix2 (0 : Fin 1) k) = v28 (ix1 k) := by
  unfold k0_pay9
  exact shapeCast_a_1a_apply v28 shapeCasts_S1024_S1x1024 (0 : Fin 1) k

/-- The embedding block `[1, 8, 128]` as a row of 1024, rectified: entry `k` is entry `(0, k / 128, k % 128)`, or 0 if larger. -/
theorem pay3_apply (v0 : Vec Ideal S1x8x128 .f32) (k : Fin 1024) :
    k0_pay3 (F := Ideal) v0 (ix2 (0 : Fin 1) k)
      = max (v0 (ix3 (0 : Fin 1) ⟨k.val / 128, by omega⟩ ⟨k.val % 128, Nat.mod_lt _ (by decide)⟩)) 0 := by
  unfold k0_pay3
  show max (shapeCast S1x1024 (shapeCast S1x8x128 v0 shapeCasts_S1x8x128_S1x8x128) shapeCasts_S1x8x128_S1x1024 (ix2 (0 : Fin 1) k))
      (Ideal.ofBits .f32 0x00000000#32) = _
  rw [Ideal.ofBits_zero_f32]
  refine congrArg (fun t => max t (0 : EReal)) ?_
  refine (shapeCast_apply _ shapeCasts_S1x8x128_S1x1024 (ix2 (0 : Fin 1) k)
    (ix3 (0 : Fin 1) ⟨k.val / 128, by omega⟩ ⟨k.val % 128, Nat.mod_lt _ (by decide)⟩) ?_).trans ?_
  · rw [Shape.rowMajor_val_two, Shape.rowMajor_val_three]
    show (0 * 8 + k.val / 128) * 128 + k.val % 128 = 0 * 1024 + k.val
    omega
  · rw [shapeCast_self]

/-! ## The matrix product of a row with a transposed weight slice -/

theorem lhs_mm_0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem lhs_mm_1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
theorem rhs_mm_0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q
theorem rhs_mm_1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- A row times a matrix, into a zero accumulator: entry `j` is the sum over `k` of the row's entry `k` times the
    matrix's entry `(k, j)`. -/
theorem mm_apply {φ₁ φ₂ : FTy} (y0 : FVec Ideal S1x1024 φ₁) (y1 : FVec Ideal S1024x1024 φ₂) (j : Fin 1024) :
    matmul dot_S1x1024_S1024x1024_S1x1024_1_0_0_1_n_n none y0 y1 (constant S1x1024 .f32 0x00000000#32) (ix2 (0 : Fin 1) j)
      = ∑ k : Fin 1024, y0 (ix2 (0 : Fin 1) k) * y1 (ix2 k j) := by
  simp only [matmul]
  rw [Ideal.matmul_constant_zero_apply, ← Equiv.sum_comp (ValueIdx.contrEquiv1 dot_S1x1024_S1024x1024_S1x1024_1_0_0_1_n_n 1024 rfl rfl).symm]
  refine Finset.sum_congr rfl fun k _ => ?_
  have hk := ValueIdx.contrEquiv1_symm_val dot_S1x1024_S1024x1024_S1x1024_1_0_0_1_n_n 1024 rfl rfl k
  have el : dot_S1x1024_S1024x1024_S1x1024_1_0_0_1_n_n.lhsIdx (ix2 (0 : Fin 1) j) ((ValueIdx.contrEquiv1 dot_S1x1024_S1024x1024_S1x1024_1_0_0_1_n_n 1024 rfl rfl).symm k) = ix2 (0 : Fin 1) k := funext fun a => Fin.ext (by
    match a with
    | ⟨0, _⟩ => exact lhs_mm_0 _ _
    | ⟨1, _⟩ => exact (lhs_mm_1 _ _).trans hk)
  have er : dot_S1x1024_S1024x1024_S1x1024_1_0_0_1_n_n.rhsIdx (ix2 (0 : Fin 1) j) ((ValueIdx.contrEquiv1 dot_S1x1024_S1024x1024_S1x1024_1_0_0_1_n_n 1024 rfl rfl).symm k) = ix2 k j := funext fun a => Fin.ext (by
    match a with
    | ⟨0, _⟩ => exact (rhs_mm_0 _ _).trans hk
    | ⟨1, _⟩ => exact rhs_mm_1 _ _)
  rw [el, er]

/-- The same with the weight slice as the program has it: narrowed (exactly) and transposed. -/
theorem mmT_apply {φ₁ : FTy} (y0 : FVec Ideal S1x1024 φ₁) (w : Vec Ideal S1024x1024 .f32) (j : Fin 1024) :
    matmul dot_S1x1024_S1024x1024_S1x1024_1_0_0_1_n_n none y0
        (transpose S1024x1024 [1, 0] (truncf .bf16 w bitsLt_bf16_f32 : FVec Ideal S1024x1024 .bf16) transposes_S1024x1024_p1_0_S1024x1024)
        (constant S1x1024 .f32 0x00000000#32) (ix2 (0 : Fin 1) j)
      = ∑ k : Fin 1024, y0 (ix2 (0 : Fin 1) k) * w (ix2 j k) := by
  refine (mm_apply y0 _ j).trans ?_
  refine Finset.sum_congr rfl fun k _ => ?_
  refine congrArg (fun t => y0 (ix2 (0 : Fin 1) k) * t) ?_
  exact transpose_ix2_apply _ transposes_S1024x1024_p1_0_S1024x1024 k j

/-! ## The gate pre-activations -/

/-- The rectified embedding row of a block, as the specification names it. -/
def xrow (v0 : Vec Ideal S1x8x128 .f32) : Fin 1024 → EReal :=
  Cert.GruSpec.relu fun k' : Fin 1024 => v0 (ix3 (0 : Fin 1) ⟨k'.val / 128, by omega⟩ ⟨k'.val % 128, Nat.mod_lt _ (by decide)⟩)

theorem pay3_eq_xrow (v0 : Vec Ideal S1x8x128 .f32) (k : Fin 1024) :
    k0_pay3 (F := Ideal) v0 (ix2 (0 : Fin 1) k) = xrow v0 k := pay3_apply v0 k

theorem pay5_apply (v0 : Vec Ideal S1x8x128 .f32) (v9 : Vec Ideal S1024x1024 .f32) (v13 : Vec Ideal S1024 .f32) (j : Fin 1024) :
    k0_pay5 (F := Ideal) v0 v9 v13 (ix2 (0 : Fin 1) j) = (∑ k : Fin 1024, xrow v0 k * v9 (ix2 j k)) + v13 (ix1 j) := by
  unfold k0_pay5
  refine (addf_apply _ _ _).trans ?_
  refine congrArg₂ (· + ·) ?_ (shapeCast_a_1a_apply v13 shapeCasts_S1024_S1x1024 (0 : Fin 1) j)
  refine (mmT_apply _ v9 j).trans ?_
  exact Finset.sum_congr rfl fun k _ => congrArg (fun t => t * v9 (ix2 j k)) (pay3_eq_xrow v0 k)

theorem pay7_apply (v0 : Vec Ideal S1x8x128 .f32) (v23 : Vec Ideal S1024x1024 .f32) (v27 : Vec Ideal S1024 .f32) (j : Fin 1024) :
    k0_pay7 (F := Ideal) v0 v23 v27 (ix2 (0 : Fin 1) j) = (∑ k : Fin 1024, xrow v0 k * v23 (ix2 j k)) + v27 (ix1 j) := by
  unfold k0_pay7
  refine (addf_apply _ _ _).trans ?_
  refine congrArg₂ (· + ·) ?_ (shapeCast_a_1a_apply v27 shapeCasts_S1024_S1x1024 (0 : Fin 1) j)
  refine (mmT_apply _ v23 j).trans ?_
  exact Finset.sum_congr rfl fun k _ => congrArg (fun t => t * v23 (ix2 j k)) (pay3_eq_xrow v0 k)

theorem pay6_apply (v5 : Vec Ideal S1x1x1024 .f32) (v11 : Vec Ideal S1024x1024 .f32) (v14 : Vec Ideal S1024 .f32) (j : Fin 1024) :
    k0_pay6 (F := Ideal) v5 v11 v14 (ix2 (0 : Fin 1) j)
      = (∑ k : Fin 1024, hrow v5 k * v11 (ix2 j k)) + v14 (ix1 j) := by
  unfold k0_pay6
  refine (addf_apply _ _ _).trans ?_
  refine congrArg₂ (· + ·) ?_ (shapeCast_a_1a_apply v14 shapeCasts_S1024_S1x1024 (0 : Fin 1) j)
  refine (mmT_apply _ v11 j).trans ?_
  exact Finset.sum_congr rfl fun k _ => congrArg (fun t => t * v11 (ix2 j k)) (pay4_apply v5 k)

theorem pay8_apply (v5 : Vec Ideal S1x1x1024 .f32) (v25 : Vec Ideal S1024x1024 .f32) (j : Fin 1024) :
    k0_pay8 (F := Ideal) v5 v25 (ix2 (0 : Fin 1) j) = ∑ k : Fin 1024, hrow v5 k * v25 (ix2 j k) := by
  unfold k0_pay8
  refine (mmT_apply _ v25 j).trans ?_
  exact Finset.sum_congr rfl fun k _ => congrArg (fun t => t * v25 (ix2 j k)) (pay4_apply v5 k)

/-! ## The new hidden state -/

theorem pay1_apply (v6 : FVec Ideal S1x1024 .f32) (v7 v8 : FVec Ideal S1x1024 .bf16) (v18 v22 v32 v34 v35 : FVec Ideal S1x1024 .f32)
    (v37 v39 : Vec Ideal S1024x1024 .f32) (v41 v42 : Vec Ideal S1024 .f32) (j : Fin 1024) :
    k0_pay1 (F := Ideal) v6 v7 v8 v18 v22 v32 v34 v35 v37 v39 v41 v42 (ix2 (0 : Fin 1) j)
      = (1 - Cert.GruSpec.sig (v32 (ix2 (0 : Fin 1) j) + (v34 (ix2 (0 : Fin 1) j) + v35 (ix2 (0 : Fin 1) j))))
          * Ideal.tanh (((∑ k : Fin 1024, v7 (ix2 (0 : Fin 1) k) * v37 (ix2 j k)) + v41 (ix1 j))
              + Cert.GruSpec.sig (v18 (ix2 (0 : Fin 1) j) + v22 (ix2 (0 : Fin 1) j))
                * ((∑ k : Fin 1024, v8 (ix2 (0 : Fin 1) k) * v39 (ix2 j k)) + v42 (ix1 j)))
        + Cert.GruSpec.sig (v32 (ix2 (0 : Fin 1) j) + (v34 (ix2 (0 : Fin 1) j) + v35 (ix2 (0 : Fin 1) j))) * v6 (ix2 (0 : Fin 1) j) := by
  unfold k0_pay1
  show (Ideal.ofBits .f32 0x3F800000#32 - Cert.GruSpec.sig (v32 (ix2 (0 : Fin 1) j) + (v34 (ix2 (0 : Fin 1) j) + v35 (ix2 (0 : Fin 1) j))))
          * Ideal.tanh ((matmul dot_S1x1024_S1024x1024_S1x1024_1_0_0_1_n_n none v7
                (transpose S1024x1024 [1, 0] (truncf .bf16 v37 bitsLt_bf16_f32 : FVec Ideal S1024x1024 .bf16) transposes_S1024x1024_p1_0_S1024x1024)
                (constant S1x1024 .f32 0x00000000#32) (ix2 (0 : Fin 1) j)
              + shapeCast S1x1024 v41 shapeCasts_S1024_S1x1024 (ix2 (0 : Fin 1) j))
              + Cert.GruSpec.sig (v18 (ix2 (0 : Fin 1) j) + v22 (ix2 (0 : Fin 1) j))
                * (matmul dot_S1x1024_S1024x1024_S1x1024_1_0_0_1_n_n none v8
                    (transpose S1024x1024 [1, 0] (truncf .bf16 v39 bitsLt_bf16_f32 : FVec Ideal S1024x1024 .bf16) transposes_S1024x1024_p1_0_S1024x1024)
                    (constant S1x1024 .f32 0x00000000#32) (ix2 (0 : Fin 1) j)
                  + shapeCast S1x1024 v42 shapeCasts_S1024_S1x1024 (ix2 (0 : Fin 1) j)))
        + Cert.GruSpec.sig (v32 (ix2 (0 : Fin 1) j) + (v34 (ix2 (0 : Fin 1) j) + v35 (ix2 (0 : Fin 1) j))) * v6 (ix2 (0 : Fin 1) j) = _
  rw [mmT_apply v7 v37 j, mmT_apply v8 v39 j, shapeCast_a_1a_apply v41 shapeCasts_S1024_S1x1024 (0 : Fin 1) j,
    shapeCast_a_1a_apply v42 shapeCasts_S1024_S1x1024 (0 : Fin 1) j, Ideal.ofBits_one_f32]

/-! ## The loads: whole blocks, and the three slices of a weight block and of a bias block -/

theorem ldE (x0 : Vec Ideal S1x8x128 .f32) : View.ld x0 rE = x0 :=
  View.ld_unit_zero (funext fun a => match a with | ⟨0, _⟩ => rfl | ⟨1, _⟩ => rfl | ⟨2, _⟩ => rfl) _ x0

theorem ldH (x1 : Vec Ideal S1x1x1024 .f32) : View.ld x1 rH = x1 :=
  View.ld_unit_zero (funext fun a => match a with | ⟨0, _⟩ => rfl | ⟨1, _⟩ => rfl | ⟨2, _⟩ => rfl) _ x1

/-- Rows `o` onward of a weight block, read at `(j, k)`: the block at `(o + j, k)`. -/
theorem ldW_apply (x : Vec Ideal S3072x1024 .f32) (o : Nat) (inb : ∀ a, (![o, 0] : Fin 2 → Nat) a + S1024x1024.size a ≤ S3072x1024.size a)
    (j k : Fin 1024) (r : Fin 3072) (hr : r.val = o + j.val) :
    View.ld x (Rect.unit (s := S3072x1024) ![o, 0] S1024x1024.size inb) (ix2 j k) = x (ix2 r k) := by
  show x ((Rect.unit (s := S3072x1024) ![o, 0] S1024x1024.size inb).idx (ix2 j k)) = x (ix2 r k)
  refine congrArg x (funext fun a => Fin.ext ?_)
  match a with
  | ⟨0, _⟩ => show o + 1 * j.val = r.val; omega
  | ⟨1, _⟩ => show 0 + 1 * k.val = k.val; omega

/-- Entries `o` onward of a bias block, read at `j`: the block at `o + j`. -/
theorem ldB_apply (x : Vec Ideal S3072 .f32) (o : Nat) (inb : ∀ a, (![o] : Fin 1 → Nat) a + S1024.size a ≤ S3072.size a)
    (j : Fin 1024) (r : Fin 3072) (hr : r.val = o + j.val) :
    View.ld x (Rect.unit (s := S3072) ![o] S1024.size inb) (ix1 j) = x (ix1 r) := by
  show x ((Rect.unit (s := S3072) ![o] S1024.size inb).idx (ix1 j)) = x (ix1 r)
  refine congrArg x (funext fun a => Fin.ext ?_)
  match a with
  | ⟨0, _⟩ => show o + 1 * j.val = r.val; omega

/-- A gate pre-activation over a slice of the weight block and of the bias block is the specification's over the whole
    blocks, at the slice's row. -/
theorem gi_ld (f : Fin 1024 → EReal) (x : Vec Ideal S3072x1024 .f32) (b : Vec Ideal S3072 .f32) (o : Nat)
    (inbW : ∀ a, (![o, 0] : Fin 2 → Nat) a + S1024x1024.size a ≤ S3072x1024.size a)
    (inbB : ∀ a, (![o] : Fin 1 → Nat) a + S1024.size a ≤ S3072.size a) (j : Fin 1024) (r : Fin 3072) (hr : r.val = o + j.val) :
    (∑ k : Fin 1024, f k * View.ld x (Rect.unit (s := S3072x1024) ![o, 0] S1024x1024.size inbW) (ix2 j k))
        + View.ld b (Rect.unit (s := S3072) ![o] S1024.size inbB) (ix1 j)
      = Cert.GruSpec.gi f (fun j k' => x (ix2 j k')) (fun j => b (ix1 j)) r :=
  congrArg₂ (· + ·) (Finset.sum_congr rfl fun k _ => congrArg (fun t => f k * t) (ldW_apply x o inbW j k r hr)) (ldB_apply b o inbB j r hr)

theorem gh_ld (f : Fin 1024 → EReal) (x : Vec Ideal S3072x1024 .f32) (b : Vec Ideal S3072 .f32) (o : Nat)
    (inbW : ∀ a, (![o, 0] : Fin 2 → Nat) a + S1024x1024.size a ≤ S3072x1024.size a)
    (inbB : ∀ a, (![o] : Fin 1 → Nat) a + S1024.size a ≤ S3072.size a) (j : Fin 1024) (r : Fin 3072) (hr : r.val = o + j.val) :
    (∑ k : Fin 1024, f k * View.ld x (Rect.unit (s := S3072x1024) ![o, 0] S1024x1024.size inbW) (ix2 j k))
        + View.ld b (Rect.unit (s := S3072) ![o] S1024.size inbB) (ix1 j)
      = Cert.GruSpec.gh f (fun j k' => x (ix2 j k')) (fun j => b (ix1 j)) r :=
  gi_ld f x b o inbW inbB j r hr

/-! ## The output block -/

/-- The output block at `(0, k)` is the specification's new hidden state at `k`, of the rectified embedding row, the
    hidden state, the two weight blocks and the two bias blocks. -/
theorem out0_6_apply (x0 : Vec Ideal S1x8x128 .f32) (x1 : Vec Ideal S1x1x1024 .f32) (x2 x3 : Vec Ideal S3072x1024 .f32) (x4 x5 : Vec Ideal S3072 .f32) (k : Fin 1024) :
    Cert.KernelIdeal.Hand.out0_6 (F := Ideal) x0 x1 x2 x3 x4 x5 (ix2 (0 : Fin 1) k)
      = Cert.GruSpec.hnew (Cert.GruSpec.relu fun k' : Fin 1024 => x0 (ix3 (0 : Fin 1) ⟨k'.val / 128, by omega⟩ ⟨k'.val % 128, Nat.mod_lt _ (by decide)⟩))
          (fun k' => x1 (ix3 (0 : Fin 1) (0 : Fin 1) k')) (fun j k' => x2 (ix2 j k')) (fun j k' => x3 (ix2 j k')) (fun j => x4 (ix1 j)) (fun j => x5 (ix1 j)) k := by
  unfold out0_6
  refine (congrFun (View.canon_unit_zero (funext fun a => match a with | ⟨0, _⟩ => rfl | ⟨1, _⟩ => rfl) _ _) (ix2 (0 : Fin 1) k)).trans ?_
  refine (pay1_apply _ _ _ _ _ _ _ _ _ _ _ _ k).trans ?_
  simp only [ldE, ldH, pay2_apply, pay3_eq_xrow, pay4_apply, pay5_apply, pay6_apply, pay7_apply, pay8_apply, pay9_apply]
  rw [gi_ld (xrow x0) x2 x4 1024 _ _ k (Cert.GruSpec.gz k) rfl, gh_ld (hrow x1) x3 x5 1024 _ _ k (Cert.GruSpec.gz k) rfl,
    gi_ld (xrow x0) x2 x4 2048 _ _ k (Cert.GruSpec.gn k) rfl, gh_ld (hrow x1) x3 x5 2048 _ _ k (Cert.GruSpec.gn k) rfl,
    gi_ld (xrow x0) x2 x4 0 _ _ k (Cert.GruSpec.gr k) (by show k.val = 0 + k.val; omega),
    gh_ld (hrow x1) x3 x5 0 _ _ k (Cert.GruSpec.gr k) (by show k.val = 0 + k.val; omega)]
  rfl

end Cert.KernelIdeal.PayValue0

end
-- ==== Proof.SpecArgs.lean ====
/-
  The specification read off the nine argument arrays at their literal shapes: the token word, the hidden state
  [1,1,1024], the embedding table [50257,1024], the two gate weight matrices [3072,1024] and their biases [3072],
  the output projection [50257,1024] and its bias [50257]. The two results as functions of them: the log-softmax of
  the logits (in one pass, or tile by tile) over [1,50257], and the new hidden state over [1,1,1024].
-/
import proofs.«402431_j70918499992252_3_alg».proof.Proof.Spec
import Idealize.ShloMosaic.Lib.ValueIdx

noncomputable section

namespace Cert.GruSpec

open Idealize.ShloMosaic Idealize.ShloMosaic.ValueIdx

/-- The nine argument arrays, as extended reals (the token as a 32-bit word). -/
structure Args where
  tok : (⟨1, ![1]⟩ : Shape).Idx → BitVec 32
  hid : (⟨3, ![1, 1, 1024]⟩ : Shape).Idx → EReal
  emb : (⟨2, ![50257, 1024]⟩ : Shape).Idx → EReal
  wih : (⟨2, ![3072, 1024]⟩ : Shape).Idx → EReal
  whh : (⟨2, ![3072, 1024]⟩ : Shape).Idx → EReal
  bih : (⟨1, ![3072]⟩ : Shape).Idx → EReal
  bhh : (⟨1, ![3072]⟩ : Shape).Idx → EReal
  wout : (⟨2, ![50257, 1024]⟩ : Shape).Idx → EReal
  bout : (⟨1, ![50257]⟩ : Shape).Idx → EReal

namespace Args

variable (A : Args)

/-- The token's word, and the embedding row it selects. -/
def word : BitVec 32 := A.tok (ix1 (0 : Fin 1))
def row : Fin 50257 := rowOf A.word

/-- The rectified embedding row; the hidden state as a row. -/
def x (k : Fin 1024) : EReal := relu (fun k' => A.emb (ix2 A.row k')) k
def h (k : Fin 1024) : EReal := A.hid (ix3 (0 : Fin 1) (0 : Fin 1) k)

def wihM (j : Fin 3072) (k : Fin 1024) : EReal := A.wih (ix2 j k)
def whhM (j : Fin 3072) (k : Fin 1024) : EReal := A.whh (ix2 j k)
def bihV (j : Fin 3072) : EReal := A.bih (ix1 j)
def bhhV (j : Fin 3072) : EReal := A.bhh (ix1 j)
def woutM (v : Fin 50257) (k : Fin 1024) : EReal := A.wout (ix2 v k)
def boutV (v : Fin 50257) : EReal := A.bout (ix1 v)

/-- The new hidden state and the logits, of the arguments. -/
def hnew (k : Fin 1024) : EReal := GruSpec.hnew A.x A.h A.wihM A.whhM A.bihV A.bhhV k
def logit (v : Fin 50257) : EReal := GruSpec.logit A.hnew A.woutM A.boutV v

/-- The first result, [1, 50257]: the log-softmax in one pass (the reference's arrangement), -/
def outW : (⟨2, ![1, 50257]⟩ : Shape).Idx → EReal := fun i => outWhole A.logit (i 1)
/-- and tile by tile (the kernel's). -/
def outT : (⟨2, ![1, 50257]⟩ : Shape).Idx → EReal := fun i => outTiled A.logit (i 1)
/-- The second result, [1, 1, 1024]: the new hidden state. -/
def hid' : (⟨3, ![1, 1, 1024]⟩ : Shape).Idx → EReal := fun i => A.hnew (i 2)

/-- Every float argument is a real number. -/
def Real : Prop :=
  (∀ i, ∃ r : ℝ, A.hid i = (r : EReal)) ∧ (∀ i, ∃ r : ℝ, A.emb i = (r : EReal)) ∧ (∀ i, ∃ r : ℝ, A.wih i = (r : EReal))
  ∧ (∀ i, ∃ r : ℝ, A.whh i = (r : EReal)) ∧ (∀ i, ∃ r : ℝ, A.bih i = (r : EReal)) ∧ (∀ i, ∃ r : ℝ, A.bhh i = (r : EReal))
  ∧ (∀ i, ∃ r : ℝ, A.wout i = (r : EReal)) ∧ (∀ i, ∃ r : ℝ, A.bout i = (r : EReal))

end Args

end Cert.GruSpec

end
-- ==== Proof.KValue0.lean ====
/-
  Region 0's result array is the specification's new hidden state.

  The region's grid has one point, and the output window's block there is the whole output array `[1, 1024]`; so after the
  one write-back the array holds what the body left in the output's buffer: the closed function of the six input blocks,
  which at `(0, k)` is the specification's new hidden state at `k` of those blocks. Five input windows' blocks are their
  whole arrays (block index 0 on every axis), which no host operation before the region writes: the hidden state, the two
  weight matrices, the two biases, as launched. The embedding window's block is row `w` of the `[50257, 8, 128]` array, `w`
  the table's word; the host wrote that array before the region as the embedding table `[50257, 1024]` re-laid (entry
  `(r, a, b)` is entry `(r, 128 a + b)`), and for a non-negative token `w` is the smaller of the token and 50256, the row the
  specification selects; and `128 (k / 128) + k % 128 = k`.
-/
import proofs.«402431_j70918499992252_3_alg».proof.Proof.RunArgs
import proofs.«402431_j70918499992252_3_alg».proof.Proof.Pay0Value
import proofs.«402431_j70918499992252_3_alg».proof.Proof.SpecArgs
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The nine argument arrays at launch, on core `c`. -/
def argsOf (c : Dev nD) : Cert.GruSpec.Args :=
  Cert.GruSpec.Args.mk (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## What region 0 is entered from -/

/-- No host operation before the region writes an argument. -/
theorem V2_main_arg2 (c : Dev nD) : V2 m c (Proc.devRef .tc main_arg2) = m ((c : Thread nD τ).loc main_arg2) :=
  (V2_of m c main_arg2 (by decide)).trans <| (V1_of m c main_arg2 (by decide)).trans rfl

/-- The embedding table `[50257, 1024]` laid out as `[50257, 8, 128]` by the host before the region: entry `(r, a, b)` is
    entry `(r, 128 a + b)` of the table. -/
theorem v1_apply (c : Dev nD) (r : Fin 50257) (a : Fin 8) (b : Fin 128) :
    V3 m c (Proc.devRef .tc main_v1) (ix3 r a b) = m ((c : Thread nD τ).loc main_arg2) (ix2 r ⟨128 * a.val + b.val, by omega⟩) := by
  have e : (V3 m c (Proc.devRef .tc main_v1) : S50257x8x128.Idx → EReal)
      = shapeCast S50257x8x128 (V2 m c (Proc.devRef .tc main_arg2) : S50257x1024.Idx → EReal) shapeCasts_S50257x1024_S50257x8x128 := by
    unfold V3
    simp only [hostOps0_2]
    after_results
    rfl
  rw [e, V2_main_arg2]
  refine shapeCast_apply _ shapeCasts_S50257x1024_S50257x8x128 (ix3 r a b) (ix2 r ⟨128 * a.val + b.val, by omega⟩) ?_
  rw [Shape.rowMajor_val_two, Shape.rowMajor_val_three]
  show r.val * 1024 + (128 * a.val + b.val) = (r.val * 8 + a.val) * 128 + b.val
  omega

/-! ## Region 0's windows, at any contents of the buffers and any admissible table -/

section Generic

variable (V : (c : Dev nD) → (b : Ref sig .tc) → Buf (Elt Ideal) ((c : Thread nD τ).loc b)) (a : (pcfg0 (F := Ideal)).Adm)

/-- The grid has one point, and the output window is written back there. -/
theorem flush0_6 (t : Fin (cfg0 a).N) : ((cfg0 a).win 6).flush t = true := by
  rw [Pipeline.Window.flush_eq_flushOf]
  unfold Pipeline.Window.flushOf
  have hN : t.val + 1 = grid0.N := by
    have h1 := t.isLt
    have h2 : (cfg0 a).N = 1 := N_0
    have h3 : grid0.N = 1 := N_0
    omega
  have ho : ((cfg0 a).win 6).isOut = true := rfl
  rw [ho, Bool.true_and, Bool.or_eq_true]
  exact Or.inl (decide_eq_true hN)

/-- The block indices: the embedding window's is the table's word, then 0, 0; every other window's is 0 on every axis. -/
theorem index_0 (t : Fin (cfg0 a).N) : ((cfg0 a).win 0).index t = ![(a.1 0 (ix1 (0 : Fin 1))).toNat, 0, 0] :=
  index0_0_of a.1 (grid0.coords t)
theorem index_1 (t : Fin (cfg0 a).N) (ax : Fin 3) : ((cfg0 a).win 1).index t ax = 0 := by
  show cc0_transform_1 (grid0.coords t) ax = 0
  match ax with
  | ⟨0, _⟩ => rfl
  | ⟨1, _⟩ => rfl
  | ⟨2, _⟩ => rfl
theorem index_2 (t : Fin (cfg0 a).N) (ax : Fin 2) : ((cfg0 a).win 2).index t ax = 0 := by
  show cc0_transform_2 (grid0.coords t) ax = 0
  match ax with
  | ⟨0, _⟩ => rfl
  | ⟨1, _⟩ => rfl
theorem index_3 (t : Fin (cfg0 a).N) (ax : Fin 2) : ((cfg0 a).win 3).index t ax = 0 := by
  show cc0_transform_3 (grid0.coords t) ax = 0
  match ax with
  | ⟨0, _⟩ => rfl
  | ⟨1, _⟩ => rfl
theorem index_4 (t : Fin (cfg0 a).N) (ax : Fin 1) : ((cfg0 a).win 4).index t ax = 0 := by
  show cc0_transform_4 (grid0.coords t) ax = 0
  match ax with
  | ⟨0, _⟩ => rfl
theorem index_5 (t : Fin (cfg0 a).N) (ax : Fin 1) : ((cfg0 a).win 5).index t ax = 0 := by
  show cc0_transform_5 (grid0.coords t) ax = 0
  match ax with
  | ⟨0, _⟩ => rfl
theorem index_6 (t : Fin (cfg0 a).N) (ax : Fin 2) : ((cfg0 a).win 6).index t ax = 0 := by
  show cc0_transform_6 (grid0.coords t) ax = 0
  match ax with
  | ⟨0, _⟩ => rfl
  | ⟨1, _⟩ => rfl

/-- The embedding window's block at a point is the table's row of the `[50257, 8, 128]` array. -/
theorem iblk0_0_apply (c : Dev nD) (t : Fin (cfg0 a).N) (p : Fin 1) (q : Fin 8) (r : Fin 128) (row : Fin 50257)
    (hrow : row.val = (a.1 0 (ix1 (0 : Fin 1))).toNat) :
    (iblk0 V a c 0 t : S1x8x128.Idx → EReal) (ix3 p q r) = (V c main_v1 : S50257x8x128.Idx → EReal) (ix3 row q r) := by
  unfold iblk0
  show V c main_v1 _ = V c main_v1 _
  refine congrArg (V c main_v1) (funext fun ax => Fin.ext ?_)
  have hp : p.val = 0 := by omega
  match ax with
  | ⟨0, _⟩ => show ((cfg0 a).win 0).index t (0 : Fin 3) * 1 + 1 * p.val = row.val; rw [index_0]; show (a.1 0 (ix1 (0 : Fin 1))).toNat * 1 + 1 * p.val = row.val; omega
  | ⟨1, _⟩ => show ((cfg0 a).win 0).index t (1 : Fin 3) * 8 + 1 * q.val = q.val; rw [index_0]; show 0 * 8 + 1 * q.val = q.val; omega
  | ⟨2, _⟩ => show ((cfg0 a).win 0).index t (2 : Fin 3) * 128 + 1 * r.val = r.val; rw [index_0]; show 0 * 128 + 1 * r.val = r.val; omega

/-- The other input windows' blocks are their whole arrays. -/
theorem iblk0_1_apply (c : Dev nD) (t : Fin (cfg0 a).N) (p q : Fin 1) (r : Fin 1024) :
    (iblk0 V a c 1 t : S1x1x1024.Idx → EReal) (ix3 p q r) = (V c main_arg1 : S1x1x1024.Idx → EReal) (ix3 p q r) := by
  unfold iblk0
  show V c main_arg1 _ = V c main_arg1 _
  refine congrArg (V c main_arg1) (funext fun ax => Fin.ext ?_)
  match ax with
  | ⟨0, _⟩ => show ((cfg0 a).win 1).index t (0 : Fin 3) * 1 + 1 * p.val = p.val; rw [index_1]; omega
  | ⟨1, _⟩ => show ((cfg0 a).win 1).index t (1 : Fin 3) * 1 + 1 * q.val = q.val; rw [index_1]; omega
  | ⟨2, _⟩ => show ((cfg0 a).win 1).index t (2 : Fin 3) * 1024 + 1 * r.val = r.val; rw [index_1]; omega

theorem iblk0_2_apply (c : Dev nD) (t : Fin (cfg0 a).N) (p : Fin 3072) (q : Fin 1024) :
    (iblk0 V a c 2 t : S3072x1024.Idx → EReal) (ix2 p q) = (V c main_arg3 : S3072x1024.Idx → EReal) (ix2 p q) := by
  unfold iblk0
  show V c main_arg3 _ = V c main_arg3 _
  refine congrArg (V c main_arg3) (funext fun ax => Fin.ext ?_)
  match ax with
  | ⟨0, _⟩ => show ((cfg0 a).win 2).index t (0 : Fin 2) * 3072 + 1 * p.val = p.val; rw [index_2]; omega
  | ⟨1, _⟩ => show ((cfg0 a).win 2).index t (1 : Fin 2) * 1024 + 1 * q.val = q.val; rw [index_2]; omega

theorem iblk0_3_apply (c : Dev nD) (t : Fin (cfg0 a).N) (p : Fin 3072) (q : Fin 1024) :
    (iblk0 V a c 3 t : S3072x1024.Idx → EReal) (ix2 p q) = (V c main_arg4 : S3072x1024.Idx → EReal) (ix2 p q) := by
  unfold iblk0
  show V c main_arg4 _ = V c main_arg4 _
  refine congrArg (V c main_arg4) (funext fun ax => Fin.ext ?_)
  match ax with
  | ⟨0, _⟩ => show ((cfg0 a).win 3).index t (0 : Fin 2) * 3072 + 1 * p.val = p.val; rw [index_3]; omega
  | ⟨1, _⟩ => show ((cfg0 a).win 3).index t (1 : Fin 2) * 1024 + 1 * q.val = q.val; rw [index_3]; omega

theorem iblk0_4_apply (c : Dev nD) (t : Fin (cfg0 a).N) (p : Fin 3072) :
    (iblk0 V a c 4 t : S3072.Idx → EReal) (ix1 p) = (V c main_arg5 : S3072.Idx → EReal) (ix1 p) := by
  unfold iblk0
  show V c main_arg5 _ = V c main_arg5 _
  refine congrArg (V c main_arg5) (funext fun ax => Fin.ext ?_)
  match ax with
  | ⟨0, _⟩ => show ((cfg0 a).win 4).index t (0 : Fin 1) * 3072 + 1 * p.val = p.val; rw [index_4]; omega

theorem iblk0_5_apply (c : Dev nD) (t : Fin (cfg0 a).N) (p : Fin 3072) :
    (iblk0 V a c 5 t : S3072.Idx → EReal) (ix1 p) = (V c main_arg6 : S3072.Idx → EReal) (ix1 p) := by
  unfold iblk0
  show V c main_arg6 _ = V c main_arg6 _
  refine congrArg (V c main_arg6) (funext fun ax => Fin.ext ?_)
  match ax with
  | ⟨0, _⟩ => show ((cfg0 a).win 5).index t (0 : Fin 1) * 3072 + 1 * p.val = p.val; rw [index_5]; omega

/-! ## The output array after the region -/

/-- What the one write-back writes, read at an index of the output block: the body's block there. -/
theorem flushed6_apply (c : Dev nD) (Hn : Fin 1024 → EReal)
    (h : ∀ (t : Fin (cfg0 a).N) (q : Fin 1024),
      out0_6 (F := Ideal) (iblk0 V a c 0 t) (iblk0 V a c 1 t) (iblk0 V a c 2 t) (iblk0 V a c 3 t) (iblk0 V a c 4 t) (iblk0 V a c 5 t)
        (ix2 (0 : Fin 1) q) = Hn q)
    (t : Fin (cfg0 a).N) (y : S1x1024.Idx) :
    ((dat0 V a c).flushed 6 t : S1x1024.Idx → EReal) y
      = (((cfg0 a).win 6).blk t).view.read (Elt Ideal) (fun j : S1x1024.Idx => Hn (j 1)) y := by
  obtain ⟨p, q, rfl⟩ : ∃ (p : Fin 1) (q : Fin 1024), y = ix2 p q := ⟨y 0, y 1, eq_ix2 y⟩
  obtain rfl : p = 0 := Fin.fin_one_eq_zero p
  show (dat0 V a c).after 6 t (ix2 (0 : Fin 1) q) = Hn ((((cfg0 a).win 6).blk t).view.emb (ix2 (0 : Fin 1) q) (1 : Fin 2))
  rw [after0_6, h t q]
  refine congrArg Hn (Fin.ext ?_)
  show q.val = ((cfg0 a).win 6).index t (1 : Fin 2) * 1024 + 1 * q.val
  rw [index_6]
  omega

/-- The output window's block at a point is the whole output array: every index lies in it. -/
theorem mem_blk6 (t : Fin (cfg0 a).N) (i : S1x1024.Idx) :
    i ∈ ((((cfg0 a).win 6).blk t).view.set : Finset S1x1024.Idx) := by
  have hmem : i ∈ (((cfg0 a).win 6).rect t : Rect S1x1024).set := by
    refine (Rect.mem_set_unit (s := S1x1024)).mpr fun ax => ?_
    have h0 : (i 0 : Nat) < 1 := (i 0).isLt
    have h1 : (i 1 : Nat) < 1024 := (i 1).isLt
    match ax with
    | ⟨0, _⟩ =>
      show ((cfg0 a).win 6).index t (0 : Fin 2) * 1 ≤ (i 0 : Nat) ∧ (i 0 : Nat) < ((cfg0 a).win 6).index t (0 : Fin 2) * 1 + 1
      rw [index_6]; omega
    | ⟨1, _⟩ =>
      show ((cfg0 a).win 6).index t (1 : Fin 2) * 1024 ≤ (i 1 : Nat) ∧ (i 1 : Nat) < ((cfg0 a).win 6).index t (1 : Fin 2) * 1024 + 1024
      rw [index_6]; omega
  exact (congrArg (fun S : Finset S1x1024.Idx => i ∈ S)
    (View.set_slice_whole main_v2 (((cfg0 a).win 6).rect t : Rect S1x1024))).mpr hmem

/-- The output array after the region: at `(0, k)`, what the body's block holds at `(0, k)`. -/
theorem arr6_of (c : Dev nD) (Hn : Fin 1024 → EReal)
    (h : ∀ (t : Fin (cfg0 a).N) (q : Fin 1024),
      out0_6 (F := Ideal) (iblk0 V a c 0 t) (iblk0 V a c 1 t) (iblk0 V a c 2 t) (iblk0 V a c 3 t) (iblk0 V a c 4 t) (iblk0 V a c 5 t)
        (ix2 (0 : Fin 1) q) = Hn q)
    (k : Fin 1024) : (dat0 V a c).arrAt 6 (cfg0 a).N (ix2 (0 : Fin 1) k) = Hn k := by
  have e := (dat0 V a c).arrAt_eq_of_cover 6 (fun j : S1x1024.Idx => Hn (j 1))
    (fun t _ => funext fun y => flushed6_apply V a c Hn h t y)
    (fun i => ⟨⟨0, by rw [show (cfg0 a).N = 1 from N_0]; exact Nat.one_pos⟩, flush0_6 a _, mem_blk6 a _ i⟩)
  exact congrFun e (ix2 (0 : Fin 1) k)

/-- The body's block at `(0, q)`, over the buffers' contents: the specification's new hidden state of the table's row of
    the `[50257, 8, 128]` array, the hidden state, the weights and the biases. -/
theorem out_block_of (c : Dev nD) (t : Fin (cfg0 a).N) (q : Fin 1024) (row : Fin 50257)
    (hrow : row.val = (a.1 0 (ix1 (0 : Fin 1))).toNat) :
    out0_6 (F := Ideal) (iblk0 V a c 0 t) (iblk0 V a c 1 t) (iblk0 V a c 2 t) (iblk0 V a c 3 t) (iblk0 V a c 4 t) (iblk0 V a c 5 t)
        (ix2 (0 : Fin 1) q)
      = Cert.GruSpec.hnew
          (Cert.GruSpec.relu fun k' : Fin 1024 => (V c main_v1 : S50257x8x128.Idx → EReal)
            (ix3 row ⟨k'.val / 128, by omega⟩ ⟨k'.val % 128, Nat.mod_lt _ (by decide)⟩))
          (fun k' => (V c main_arg1 : S1x1x1024.Idx → EReal) (ix3 (0 : Fin 1) (0 : Fin 1) k'))
          (fun j k' => (V c main_arg3 : S3072x1024.Idx → EReal) (ix2 j k'))
          (fun j k' => (V c main_arg4 : S3072x1024.Idx → EReal) (ix2 j k'))
          (fun j => (V c main_arg5 : S3072.Idx → EReal) (ix1 j))
          (fun j => (V c main_arg6 : S3072.Idx → EReal) (ix1 j)) q := by
  refine (Cert.KernelIdeal.PayValue0.out0_6_apply _ _ _ _ _ _ q).trans ?_
  have e0 : (fun k' : Fin 1024 => (iblk0 V a c 0 t : S1x8x128.Idx → EReal) (ix3 (0 : Fin 1) ⟨k'.val / 128, by omega⟩ ⟨k'.val % 128, Nat.mod_lt _ (by decide)⟩))
      = fun k' : Fin 1024 => (V c main_v1 : S50257x8x128.Idx → EReal) (ix3 row ⟨k'.val / 128, by omega⟩ ⟨k'.val % 128, Nat.mod_lt _ (by decide)⟩) :=
    funext fun k' => iblk0_0_apply V a c t _ _ _ row hrow
  have e1 : (fun k' : Fin 1024 => (iblk0 V a c 1 t : S1x1x1024.Idx → EReal) (ix3 (0 : Fin 1) (0 : Fin 1) k'))
      = fun k' => (V c main_arg1 : S1x1x1024.Idx → EReal) (ix3 (0 : Fin 1) (0 : Fin 1) k') :=
    funext fun k' => iblk0_1_apply V a c t _ _ _
  have e2 : (fun (j : Fin 3072) (k' : Fin 1024) => (iblk0 V a c 2 t : S3072x1024.Idx → EReal) (ix2 j k'))
      = fun j k' => (V c main_arg3 : S3072x1024.Idx → EReal) (ix2 j k') :=
    funext fun j => funext fun k' => iblk0_2_apply V a c t _ _
  have e3 : (fun (j : Fin 3072) (k' : Fin 1024) => (iblk0 V a c 3 t : S3072x1024.Idx → EReal) (ix2 j k'))
      = fun j k' => (V c main_arg4 : S3072x1024.Idx → EReal) (ix2 j k') :=
    funext fun j => funext fun k' => iblk0_3_apply V a c t _ _
  have e4 : (fun j : Fin 3072 => (iblk0 V a c 4 t : S3072.Idx → EReal) (ix1 j)) = fun j => (V c main_arg5 : S3072.Idx → EReal) (ix1 j) :=
    funext fun j => iblk0_4_apply V a c t _
  have e5 : (fun j : Fin 3072 => (iblk0 V a c 5 t : S3072.Idx → EReal) (ix1 j)) = fun j => (V c main_arg6 : S3072.Idx → EReal) (ix1 j) :=
    funext fun j => iblk0_5_apply V a c t _
  exact (congrArg (fun f => Cert.GruSpec.hnew (Cert.GruSpec.relu f) _ _ _ _ _ q) e0).trans <|
    (congrArg (fun f => Cert.GruSpec.hnew _ f _ _ _ _ q) e1).trans <|
    (congrArg (fun f => Cert.GruSpec.hnew _ _ f _ _ _ q) e2).trans <|
    (congrArg (fun f => Cert.GruSpec.hnew _ _ _ f _ _ q) e3).trans <|
    (congrArg (fun f => Cert.GruSpec.hnew _ _ _ _ f _ q) e4).trans
    (congrArg (fun f => Cert.GruSpec.hnew _ _ _ _ _ f q) e5)

end Generic

/-! ## The result array is the specification's new hidden state -/

/-- For a non-negative token the table's word is the row of the embedding table the specification selects. -/
theorem row_eq (htok : 0 ≤ (tok m).toInt) (c : Dev nD) :
    ((argsOf m c).row).val = ((adm0 m).1 0 (ix1 (0 : Fin 1))).toNat := by
  obtain rfl : c = 0 := Subsingleton.elim _ _
  have h1 : ((argsOf m 0).row).val = min (tok m).toNat 50256 := rfl
  have e : (adm0 (F := Ideal) m).1 = tbl m := rfl
  rw [h1, e, tbl_word, tblWord_of_nonneg m htok]

/-- After region 0 its result array holds, at `(0, k)`, the specification's new hidden state at `k` of the nine
    argument arrays. -/
theorem h_value (htok : 0 ≤ (tok m).toInt) (c : Dev nD) (k : Fin 1024) :
    (d0 (F := Ideal) m c).arrAt 6 (cfg0 (adm0 m)).N (ix2 (0 : Fin 1) k) = (argsOf m c).hnew k := by
  refine arr6_of (E0 m) (adm0 m) c (fun q => (argsOf m c).hnew q) (fun t q => ?_) k
  refine (out_block_of (E0 m) (adm0 m) c t q (argsOf m c).row (row_eq m htok c)).trans ?_
  have e0 : (fun k' : Fin 1024 => (E0 m c main_v1 : S50257x8x128.Idx → EReal)
        (ix3 (argsOf m c).row ⟨k'.val / 128, by omega⟩ ⟨k'.val % 128, Nat.mod_lt _ (by decide)⟩))
      = fun k' : Fin 1024 => (argsOf m c).emb (ix2 (argsOf m c).row k') :=
    funext fun k' => (v1_apply m c (argsOf m c).row ⟨k'.val / 128, by omega⟩ ⟨k'.val % 128, Nat.mod_lt _ (by decide)⟩).trans
      (congrArg (fun i : Fin 1024 => (argsOf m c).emb (ix2 (argsOf m c).row i)) (Fin.ext (by
        show 128 * (k'.val / 128) + k'.val % 128 = k'.val
        omega)))
  have e1 : (fun k' : Fin 1024 => (E0 m c main_arg1 : S1x1x1024.Idx → EReal) (ix3 (0 : Fin 1) (0 : Fin 1) k')) = (argsOf m c).h :=
    funext fun k' => congrFun (V3_main_arg1 m c) _
  have e2 : (fun (j : Fin 3072) (k' : Fin 1024) => (E0 m c main_arg3 : S3072x1024.Idx → EReal) (ix2 j k')) = (argsOf m c).wihM :=
    funext fun j => funext fun k' => congrFun (V3_main_arg3 m c) _
  have e3 : (fun (j : Fin 3072) (k' : Fin 1024) => (E0 m c main_arg4 : S3072x1024.Idx → EReal) (ix2 j k')) = (argsOf m c).whhM :=
    funext fun j => funext fun k' => congrFun (V3_main_arg4 m c) _
  have e4 : (fun j : Fin 3072 => (E0 m c main_arg5 : S3072.Idx → EReal) (ix1 j)) = (argsOf m c).bihV :=
    funext fun j => congrFun (V3_main_arg5 m c) _
  have e5 : (fun j : Fin 3072 => (E0 m c main_arg6 : S3072.Idx → EReal) (ix1 j)) = (argsOf m c).bhhV :=
    funext fun j => congrFun (V3_main_arg6 m c) _
  exact (congrArg (fun f => Cert.GruSpec.hnew (Cert.GruSpec.relu f) _ _ _ _ _ q) e0).trans <|
    (congrArg (fun f => Cert.GruSpec.hnew _ f _ _ _ _ q) e1).trans <|
    (congrArg (fun f => Cert.GruSpec.hnew _ _ f _ _ _ q) e2).trans <|
    (congrArg (fun f => Cert.GruSpec.hnew _ _ _ f _ _ q) e3).trans <|
    (congrArg (fun f => Cert.GruSpec.hnew _ _ _ _ f _ q) e4).trans
    (congrArg (fun f => Cert.GruSpec.hnew _ _ _ _ _ f q) e5)

end Cert.KernelIdeal.Hand

end
-- ==== Proof.TailValue.lean ====
/-
  The host tail of the kernel program, read at an index, the floats read as extended reals.

  After its two regions the program holds the masked logits [1,51200], each tile's maximum and each tile's sum of
  exponentials (both [25,8,128], the value copied over a tile's block) and the new hidden state [1,1024]. The tail takes
  the 25 maxima m t and the 25 sums s t at place (t,0,0), the largest maximum G = sup m (a max-reduce from -∞), the sum
  ∑ t, s t · exp (m t - G) (an add-reduce from 0), its logarithm, and returns, at word v < 50257,
  logits v - (G + log ∑ t, s t · exp (m t - G)); the second result is the hidden state, one unit axis added. Stated over
  an arbitrary valuation of the buffers.
-/
import proofs.«402431_j70918499992252_3_alg».proof.Proof.Gen.KernelIdeal.Launch
import Idealize.ShloMosaic.Lib.StableHlo.Run
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Hand

open Cert.KernelIdeal Cert.KernelIdeal.Gen Idealize.ShloMosaic Idealize.ShloMosaic.ValueIdx

/-- A tile's maximum and its sum of exponentials, as the second region leaves them, and the largest maximum. -/
def mT (V5 : Valuation τ sig (Elt Ideal)) (t : Fin 25) : EReal :=
  (V5 (Proc.devRef .tc main_v3_1) : S25x8x128.Idx → EReal) (ix3 t (0 : Fin 8) (0 : Fin 128))
def sT (V5 : Valuation τ sig (Elt Ideal)) (t : Fin 25) : EReal :=
  (V5 (Proc.devRef .tc main_v3_2) : S25x8x128.Idx → EReal) (ix3 t (0 : Fin 8) (0 : Fin 128))
def G (V5 : Valuation τ sig (Elt Ideal)) : EReal := Finset.univ.sup (mT V5)

/-- The masked logits as the second region leaves them, lane by lane. -/
abbrev zT (V5 : Valuation τ sig (Elt Ideal)) : S1x51200.Idx → EReal := V5 (Proc.devRef .tc main_v3_0)

section
variable (V5 : Valuation τ sig (Elt Ideal))

/-- Each tile's maximum and each tile's sum of exponentials, gathered as vectors of 25. -/
def tmaxV : FVec Ideal S25 .f32 :=
  shapeCast S25 (extractStridedSlice S25x1x1 ![0, 0, 0] (V5 (Proc.devRef .tc main_v3_1) : FVec Ideal S25x8x128 .f32)
    Facts₀.slices_S25x8x128_S25x1x1_0_0_0) Facts₀.shapeCasts_S25x1x1_S25
def texpV : FVec Ideal S25 .f32 :=
  shapeCast S25 (extractStridedSlice S25x1x1 ![0, 0, 0] (V5 (Proc.devRef .tc main_v3_2) : FVec Ideal S25x8x128 .f32)
    Facts₀.slices_S25x8x128_S25x1x1_0_0_0) Facts₀.shapeCasts_S25x1x1_S25

/-- The largest maximum, the combined sum of exponentials about it, and the log-sum-exp, as scalars. -/
def gmaxV : FVec Ideal S_ .f32 :=
  Host.reduce (FloatOps.maximumf (F := Ideal) (φ := .f32)) (tmaxV V5) (constant (F := Ideal) S_ .f32 0xFF800000#32)
    Facts₀.reducesTo_S25_S_d0 Facts₀.h_S_
def sumV : FVec Ideal S_ .f32 :=
  Host.reduceAdd (mulf (texpV V5) (Host.exp (subf (tmaxV V5) (broadcastInDim S25 ![] Facts₀.bcast_S_S25 (gmaxV V5)))))
    (constant (F := Ideal) S_ .f32 0x00000000#32) Facts₀.reducesTo_S25_S_d0 Facts₀.h_S_
def lseV : FVec Ideal S_ .f32 := addf (gmaxV V5) (Host.log (sumV V5))

theorem after_v18 : (StableHlo.after (hostOps2 (F := Ideal)) V5 (Proc.devRef .tc main_v18) : FVec Ideal S1x50257 .f32)
    = subf (extractStridedSlice S1x50257 ![0, 0] (V5 (Proc.devRef .tc main_v3_0) : FVec Ideal S1x51200 .f32) Facts₀.slices_S1x51200_S1x50257_0_0)
        (broadcastInDim S1x50257 ![] Facts₀.bcast_S_S1x50257 (lseV V5)) := by
  simp only [hostOps2]; after_results; rfl

end

section
variable (V5 : Valuation τ sig (Elt Ideal))

/-- A fold of max from -∞ is the supremum. -/
theorem fold_max_bot {ι : Type} (s : Finset ι) (f : ι → EReal) : s.fold max ⊥ f = s.sup f :=
  le_antisymm ((Finset.fold_max_le _).2 ⟨bot_le, fun _ hx => Finset.le_sup hx⟩)
    (Finset.sup_le fun x hx => (Finset.le_fold_max _).2 (Or.inr ⟨x, hx, le_rfl⟩))

theorem neg_inf_word : Ideal.ofBits .f32 0xFF800000#32 = (⊥ : EReal) := by simp [Ideal.ofBits, Ideal.ieee]

theorem sliceT_apply (x : FVec Ideal S25x8x128 .f32) (t : Fin 25) :
    shapeCast S25 (extractStridedSlice S25x1x1 ![0, 0, 0] x Facts₀.slices_S25x8x128_S25x1x1_0_0_0) Facts₀.shapeCasts_S25x1x1_S25 (ix1 t)
      = x (ix3 t (0 : Fin 8) (0 : Fin 128)) := by
  refine (shapeCast_apply _ Facts₀.shapeCasts_S25x1x1_S25 (ix1 t) (ix3 t (0 : Fin 1) (0 : Fin 1)) ?_).trans ?_
  · rewrite [Shape.rowMajor_val_three, Shape.rowMajor_val_one]
    show (t.val * 1 + 0) * 1 + 0 = t.val
    omega
  · exact extractStridedSlice_apply ![0, 0, 0] x Facts₀.slices_S25x8x128_S25x1x1_0_0_0 (ix3 t (0 : Fin 1) (0 : Fin 1))
      (ix3 t (0 : Fin 8) (0 : Fin 128)) (fun a => match a with
        | ⟨0, _⟩ => by show t.val = 0 + t.val; omega
        | ⟨1, _⟩ => by show 0 = 0 + 0; rfl
        | ⟨2, _⟩ => by show 0 = 0 + 0; rfl)

theorem tmaxV_apply (t : Fin 25) : tmaxV V5 (ix1 t) = mT V5 t := sliceT_apply _ t
theorem texpV_apply (t : Fin 25) : texpV V5 (ix1 t) = sT V5 t := sliceT_apply _ t

theorem gmaxV_apply (j : S_.Idx) : gmaxV V5 j = G V5 := by
  unfold gmaxV G
  rw [Host.reduce_eq_fold _ _ _ Facts₀.reducesTo_S25_S_d0 Facts₀.h_S_ j,
    Finset.filter_true_of_mem fun i _ => funext fun b => b.elim0]
  show (Finset.univ : Finset S25.Idx).fold max (Ideal.ofBits .f32 0xFF800000#32) (tmaxV V5) = _
  rw [neg_inf_word, fold_max_bot]
  refine le_antisymm (Finset.sup_le fun i _ => ?_) (Finset.sup_le fun t _ => ?_)
  · obtain ⟨t, rfl⟩ : ∃ t : Fin 25, i = ix1 t := ⟨i 0, eq_ix1 (n := 25) i⟩
    rw [tmaxV_apply]; exact Finset.le_sup (Finset.mem_univ _)
  · rw [← tmaxV_apply]; exact Finset.le_sup (f := tmaxV V5) (Finset.mem_univ (ix1 t))

theorem sumV_apply (j : S_.Idx) : sumV V5 j = ∑ t : Fin 25, sT V5 t * Ideal.exp (mT V5 t - G V5) := by
  unfold sumV
  simp only [Host.reduceAdd, Ideal.hostReduceAdd_def]
  rw [Ideal.hostReduceAdd_total Facts₀.reducesTo_S25_S_d0 (fun b => b.elim0), constant_apply, Ideal.ofBits_zero_f32, zero_add,
    ← Equiv.sum_comp (idxEquiv1 (n := 25)).symm]
  refine Finset.sum_congr rfl fun k _ => ?_
  show texpV V5 (ix1 k) * Ideal.exp (tmaxV V5 (ix1 k) - broadcastInDim S25 ![] Facts₀.bcast_S_S25 (gmaxV V5) (ix1 k)) = _
  rw [tmaxV_apply, texpV_apply,
    broadcastInDim_apply _ Facts₀.bcast_S_S25 (gmaxV V5) (ix1 k) (fun a => a.elim0) (fun a => a.elim0), gmaxV_apply]

theorem lseV_apply (j : S_.Idx) : lseV V5 j = G V5 + Ideal.log (∑ t : Fin 25, sT V5 t * Ideal.exp (mT V5 t - G V5)) := by
  show gmaxV V5 j + Ideal.log (sumV V5 j) = _
  rw [gmaxV_apply, sumV_apply]

end

theorem tail_v19 (V5 : Valuation τ sig (Elt Ideal)) (k : Fin 1024) :
    (StableHlo.after (hostOps2 (F := Ideal)) V5 (Proc.devRef .tc main_v19) : S1x1x1024.Idx → EReal) (ix3 (0 : Fin 1) (0 : Fin 1) k)
      = (V5 (Proc.devRef .tc main_v2) : S1x1024.Idx → EReal) (ix2 (0 : Fin 1) k) := by
  have e : (StableHlo.after (hostOps2 (F := Ideal)) V5 (Proc.devRef .tc main_v19) : FVec Ideal S1x1x1024 .f32)
      = broadcastInDim S1x1x1024 ![1, 2] Facts₀.bcast_S1x1024_S1x1x1024_1_2 (V5 (Proc.devRef .tc main_v2) : FVec Ideal S1x1024 .f32) := by
    simp only [hostOps2]; after_results
  rw [e]
  exact broadcastInDim_apply _ Facts₀.bcast_S1x1024_S1x1x1024_1_2 _ _ (ix2 (0 : Fin 1) k) (fun a => match a with
    | ⟨0, _⟩ => by show 0 = if (1 : Nat) = 1 then 0 else 0; rw [if_pos rfl]
    | ⟨1, _⟩ => by show k.val = if (1024 : Nat) = 1 then 0 else k.val; rw [if_neg (by decide)])

theorem tail_v18 (V5 : Valuation τ sig (Elt Ideal)) (v : Fin 50257) :
    (StableHlo.after (hostOps2 (F := Ideal)) V5 (Proc.devRef .tc main_v18) : S1x50257.Idx → EReal) (ix2 (0 : Fin 1) v)
      = zT V5 (ix2 (0 : Fin 1) ⟨v.val, by omega⟩)
        - (G V5 + Ideal.log (∑ t : Fin 25, sT V5 t * Ideal.exp (mT V5 t - G V5))) := by
  rw [after_v18, subf_apply,
    broadcastInDim_apply _ Facts₀.bcast_S_S1x50257 (lseV V5) (ix2 (0 : Fin 1) v) (fun a => a.elim0) (fun a => a.elim0), lseV_apply,
    extractStridedSlice_apply ![0, 0] _ Facts₀.slices_S1x51200_S1x50257_0_0 (ix2 (0 : Fin 1) v) (ix2 (0 : Fin 1) ⟨v.val, by omega⟩)
      (fun a => match a with
        | ⟨0, _⟩ => by show 0 = 0 + 0; rfl
        | ⟨1, _⟩ => by show v.val = 0 + v.val; omega)]

end Cert.KernelIdeal.Hand

end
-- ==== Proof.KValue.lean ====
/-
  The idealized kernel program's two results, at the ideal instance: the run at region 1's EXACT proof data (there the
  second kernel's result blocks are functions of the arrays: a lane of the product reads one row of the weight block,
  and a lane past the vocabulary's end is replaced by -∞ before anything reads it), the host tail read at an index,
  and the arrays the two regions leave read back to the specification: the first result is the logits less their
  log-sum-exp combined tile by tile, the second the new hidden state.
-/
import proofs.«402431_j70918499992252_3_alg».proof.Proof.RunMain
import proofs.«402431_j70918499992252_3_alg».proof.Proof.RunReg0
import proofs.«402431_j70918499992252_3_alg».proof.Proof.RunReg1
import proofs.«402431_j70918499992252_3_alg».proof.Proof.RunArgs
import proofs.«402431_j70918499992252_3_alg».proof.Proof.Reg1Value
import proofs.«402431_j70918499992252_3_alg».proof.Proof.KValue0
import proofs.«402431_j70918499992252_3_alg».proof.Proof.TailValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Rounds
open Idealize.ShloMosaic.Pipeline (Dat RDat)

variable (m : (ℓ : Loc nD τ sig) → Buf (Elt Ideal) ℓ) (ρ : Dev nD → PrngReg)

/-- Region 1's exact proof data, read relationally. -/
def rd1I (c : Dev nD) : RDat τ (Elt Ideal) Unit ℕ (UR sig nD τ) ℕ cfg1 c := (dat1 (F := Ideal) (E1 m) c).toR

theorem rd1I_ok : Rd1OK m (rd1I m) where
  hA c w := A_eq1 (E1 m) c w
  hΦ _ _ := rfl
  howed _ _ := rfl
  hshare c w := by unfold Pipeline.RDat.share; split <;> rfl
  hrec _ _ := rfl
  hbody c := (body_obligation1 (E1 m) hindep_ideal c).toR

/-- The run at the exact data. -/
theorem run_ideal : θ_run defs (onTc (τ := τ) (main (F := Ideal))) ⟨m, fun _ => 0, ρ⟩ (RunPost m (rd1I m)) :=
  run_main m ρ (rd1I m) (reg0 m (rd1I m)) (fun _ => .rfl) (fun _ => .rfl)
    (reg1 m (rd1I m) (rd1I_ok m)) (fun _ => .rfl) (fun _ => .rfl)

/-- Lane `v mod 2048` of tile `v div 2048` is word `v`'s logit. -/
theorem lane_div_mod (lg : Fin 50257 → EReal) (v : Fin 50257) :
    Cert.GruSpec.lane lg ⟨v.val / 2048, by have := v.isLt; omega⟩ ⟨v.val % 2048, Nat.mod_lt _ (by decide)⟩ = lg v := by
  have hv := v.isLt
  unfold Cert.GruSpec.lane
  have e : 2048 * (v.val / 2048) + v.val % 2048 = v.val := Nat.div_add_mod v.val 2048
  rw [dif_pos (show 2048 * (v.val / 2048) + v.val % 2048 < 50257 by omega)]
  exact congrArg lg (Fin.ext e)

/-- The two results the run leaves, read back to the specification: the first is the logits less their log-sum-exp
    combined tile by tile, the second the new hidden state. -/
theorem results_of_runPost (htok : 0 ≤ (tok m).toInt) (r : PUnit × MemSt nD τ sig (Elt Ideal)) (h : RunPost m (rd1I m) r) (c : Dev nD) :
    r.2.mem ((c.tc : Thread nD τ).loc main_v18) = (argsOf m c).outT
      ∧ r.2.mem ((c.tc : Thread nD τ).loc main_v19) = (argsOf m c).hid' := by
  obtain ⟨V5, h5, hmem⟩ := h c
  have h1 := rd1I_ok m
  -- the arrays region 1 writes, after its write-backs
  have hA3 : V5 (Proc.devRef .tc main_v3_0) = (dat1 (F := Ideal) (E1 m) c).arrAt 3 cfg1.N :=
    (dat1 (F := Ideal) (E1 m) c).toR_arrAt 3 cfg1.N _ (h5.1 3)
  have hA4 : V5 (Proc.devRef .tc main_v3_1) = (dat1 (F := Ideal) (E1 m) c).arrAt 4 cfg1.N :=
    (dat1 (F := Ideal) (E1 m) c).toR_arrAt 4 cfg1.N _ (h5.1 4)
  have hA5 : V5 (Proc.devRef .tc main_v3_2) = (dat1 (F := Ideal) (E1 m) c).arrAt 5 cfg1.N :=
    (dat1 (F := Ideal) (E1 m) c).toR_arrAt 5 cfg1.N _ (h5.1 5)
  -- the new hidden state, which region 1 only reads
  have hW2 : W4 m c (Proc.devRef .tc main_v2) = (d0 m c).arrAt 6 (cfg0 (adm0 m)).N := W4_arr m c 6
  have hv2 : V5 (Proc.devRef .tc main_v2) = (d0 m c).arrAt 6 (cfg0 (adm0 m)).N :=
    (V5_main_v2 m (rd1I m) h1 c V5 h5).trans hW2
  -- the logits region 1 computes are the specification's
  have hlg : lgV (E1 m) c = (argsOf m c).logit := by
    have e1 : ∀ k, hV (E1 m) c (ix2 (0 : Fin 1) k) = (argsOf m c).hnew k := fun k => by
      show W4 m c (Proc.devRef .tc main_v2) (ix2 (0 : Fin 1) k) = _
      rw [hW2]; exact h_value m htok c k
    have e2 : ∀ v k, wV (E1 m) c (ix2 v k) = (argsOf m c).woutM v k := fun v k => by
      show W4 m c (Proc.devRef .tc main_arg7) (ix2 v k) = _
      rw [W4_main_arg7]; rfl
    have e3 : ∀ v, bV (E1 m) c (ix1 v) = (argsOf m c).boutV v := fun v => by
      show W4 m c (Proc.devRef .tc main_arg8) (ix1 v) = _
      rw [W4_main_arg8]; rfl
    funext v
    unfold lgV Cert.GruSpec.Args.logit Cert.GruSpec.logit
    simp only [e1, e2, e3]
  constructor
  · have hm := hmem (Proc.devRef .tc main_v18) (Finset.mem_filter.mpr ⟨StableHlo.devRef_mem_tcRefs main_v18, by decide⟩)
    refine (show r.2.mem ((c.tc : Thread nD τ).loc main_v18) = _ from hm).trans ?_
    funext i
    obtain ⟨a, v, rfl⟩ : ∃ a v, i = ix2 a v := ⟨i 0, i 1, eq_ix2 i⟩
    obtain rfl : a = 0 := Subsingleton.elim _ _
    rw [tail_v18 V5 v]
    show _ = Cert.GruSpec.outTiled (argsOf m c).logit v
    rw [← hlg]
    have hmT : ∀ t, mT V5 t = Cert.GruSpec.tmax (lgV (E1 m) c) t := fun t => by
      unfold mT; rw [hA4]; exact arr4_apply (E1 m) c t 0 0
    have hsT : ∀ t, sT V5 t = Cert.GruSpec.texp (lgV (E1 m) c) t := fun t => by
      unfold sT; rw [hA5]; exact arr5_apply (E1 m) c t 0 0
    have hG : G V5 = Cert.GruSpec.gmax (lgV (E1 m) c) := by
      unfold G Cert.GruSpec.gmax; exact congrArg _ (funext hmT)
    unfold Cert.GruSpec.outTiled Cert.GruSpec.lseTiled
    rw [hG]; simp only [hmT, hsT]
    congr 1
    refine (congrFun hA3 _).trans ?_
    have h3 := arr3_apply (E1 m) c ⟨v.val / 2048, by have := v.isLt; omega⟩ ⟨v.val % 2048, Nat.mod_lt _ (by decide)⟩
    rw [lane_div_mod] at h3
    rw [← h3]
    congr 2
    exact Fin.ext (Nat.div_add_mod v.val 2048).symm
  · have hm := hmem (Proc.devRef .tc main_v19) (Finset.mem_filter.mpr ⟨StableHlo.devRef_mem_tcRefs main_v19, by decide⟩)
    refine (show r.2.mem ((c.tc : Thread nD τ).loc main_v19) = _ from hm).trans ?_
    funext i
    obtain ⟨a, b, k, rfl⟩ : ∃ a b k, i = ix3 a b k := ⟨i 0, i 1, i 2, eq_ix3 i⟩
    obtain rfl : a = 0 := Subsingleton.elim _ _
    obtain rfl : b = 0 := Subsingleton.elim _ _
    rw [tail_v19 V5 k, hv2]
    exact h_value m htok c k

end Cert.KernelIdeal.Hand

end
-- ==== Proof.RefRunH.lean ====
/-
  The reference program's run, stated over the stages of its computation rather than over one composed term per
  result: every weakly fair execution of @main terminates with the log-probabilities' buffer and the new hidden state's
  buffer each at its stage of the arguments' launch contents (`ReadS.val_main_v49`, `ReadS.val_main_v50`), and the
  arguments unchanged.

  @main is a list of 74 host operations run in order (`main_eq`); the buffers after the list are the fold of the
  operations' results over the launch contents (the library's run of such a list). The fold is read stretch by
  stretch: the list is the stretches of module RefStretches appended (`ops_split`), a list run after another is the two
  folds in turn (`after_app`), and that module's `chain_results` carries the stages and the arguments from the launch
  contents through every stretch, so that no step compares two composed terms.

  The operation list, `main_eq`, `scopedRefs_eq`, `scopedSems_eq` and `ops_sub` follow the generated run of this
  program, which states the run over composed terms and does not elaborate at this size.
-/
import proofs.«402431_j70918499992252_3_alg».proof.Proof.RefStretches

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## @main as a list of operations -/

/-- @main's 74 operations, in order (a called function's operations stand in its call's place). -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg2 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v6) (TRef.of (T := ⟨S1x1024, .f32⟩) main_call0_v0) (TRef.of (T := ⟨S1x1024, .f32⟩) main_v7) maximumf,
    reshape main_arg1 main_v8 rfl shapeCasts_S1x1x1024_S1x1024,
    unary main_arg3 main_v9 ((transpose S1024x3072 [1, 0] · transposes_S3072x1024_S1024x3072_1_0) : (⟨S3072x1024, .f32⟩ : BufTy).Contents (Elt F) → (⟨S1024x3072, .f32⟩ : BufTy).Contents (Elt F)),
    binary main_v7 main_v9 main_v10 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg5 main_v11 (broadcastInDim S1x3072 ![1] bcast_S3072_S1x3072_1 : (⟨S3072, .f32⟩ : BufTy).Contents (Elt F) → (⟨S1x3072, .f32⟩ : BufTy).Contents (Elt F)),
    binary main_v10 main_v11 main_v12 (addf : (⟨S1x3072, .f32⟩ : BufTy).Contents (Elt F) → (⟨S1x3072, .f32⟩ : BufTy).Contents (Elt F) → (⟨S1x3072, .f32⟩ : BufTy).Contents (Elt F)),
    unary main_arg4 main_v13 ((transpose S1024x3072 [1, 0] · transposes_S3072x1024_S1024x3072_1_0) : (⟨S3072x1024, .f32⟩ : BufTy).Contents (Elt F) → (⟨S1024x3072, .f32⟩ : BufTy).Contents (Elt F)),
    binary main_v8 main_v13 main_v14 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg6 main_v15 (broadcastInDim S1x3072 ![1] bcast_S3072_S1x3072_1 : (⟨S3072, .f32⟩ : BufTy).Contents (Elt F) → (⟨S1x3072, .f32⟩ : BufTy).Contents (Elt F)),
    binary main_v14 main_v15 main_v16 (addf : (⟨S1x3072, .f32⟩ : BufTy).Contents (Elt F) → (⟨S1x3072, .f32⟩ : BufTy).Contents (Elt F) → (⟨S1x3072, .f32⟩ : BufTy).Contents (Elt F)),
    unary main_v12 main_v17 ((extractStridedSlice S1x1024 ![0, 0] · slices_S1x3072_S1x1024_0_0) : (⟨S1x3072, .f32⟩ : BufTy).Contents (Elt F) → (⟨S1x1024, .f32⟩ : BufTy).Contents (Elt F)),
    unary main_v12 main_v18 ((extractStridedSlice S1x1024 ![0, 1024] · slices_S1x3072_S1x1024_0_1024) : (⟨S1x3072, .f32⟩ : BufTy).Contents (Elt F) → (⟨S1x1024, .f32⟩ : BufTy).Contents (Elt F)),
    unary main_v12 main_v19 ((extractStridedSlice S1x1024 ![0, 2048] · slices_S1x3072_S1x1024_0_2048) : (⟨S1x3072, .f32⟩ : BufTy).Contents (Elt F) → (⟨S1x1024, .f32⟩ : BufTy).Contents (Elt F)),
    unary main_v16 main_v20 ((extractStridedSlice S1x1024 ![0, 0] · slices_S1x3072_S1x1024_0_0) : (⟨S1x3072, .f32⟩ : BufTy).Contents (Elt F) → (⟨S1x1024, .f32⟩ : BufTy).Contents (Elt F)),
    unary main_v16 main_v21 ((extractStridedSlice S1x1024 ![0, 1024] · slices_S1x3072_S1x1024_0_1024) : (⟨S1x3072, .f32⟩ : BufTy).Contents (Elt F) → (⟨S1x1024, .f32⟩ : BufTy).Contents (Elt F)),
    unary main_v16 main_v22 ((extractStridedSlice S1x1024 ![0, 2048] · slices_S1x3072_S1x1024_0_2048) : (⟨S1x3072, .f32⟩ : BufTy).Contents (Elt F) → (⟨S1x1024, .f32⟩ : BufTy).Contents (Elt F)),
    binary main_v17 main_v20 main_v23 (addf : (⟨S1x1024, .f32⟩ : BufTy).Contents (Elt F) → (⟨S1x1024, .f32⟩ : BufTy).Contents (Elt F) → (⟨S1x1024, .f32⟩ : BufTy).Contents (Elt F)),
    unary main_v23 main_v24 (Host.negf : (⟨S1x1024, .f32⟩ : BufTy).Contents (Elt F) → (⟨S1x1024, .f32⟩ : BufTy).Contents (Elt F)),
    unary main_v24 main_v25 (Host.exp : (⟨S1x1024, .f32⟩ : BufTy).Contents (Elt F) → (⟨S1x1024, .f32⟩ : BufTy).Contents (Elt F)),
    nullary main_cst (constant S_ .f32 0x3F800000#32),
    unary main_cst main_v26 (broadcastInDim S1x1024 ![] bcast_S_S1x1024 : (⟨S_, .f32⟩ : BufTy).Contents (Elt F) → (⟨S1x1024, .f32⟩ : BufTy).Contents (Elt F)),
    binary main_v26 main_v25 main_v27 (addf : (⟨S1x1024, .f32⟩ : BufTy).Contents (Elt F) → (⟨S1x1024, .f32⟩ : BufTy).Contents (Elt F) → (⟨S1x1024, .f32⟩ : BufTy).Contents (Elt F)),
    nullary main_cst_1 (constant S_ .f32 0x3F800000#32),
    unary main_cst_1 main_v28 (broadcastInDim S1x1024 ![] bcast_S_S1x1024 : (⟨S_, .f32⟩ : BufTy).Contents (Elt F) → (⟨S1x1024, .f32⟩ : BufTy).Contents (Elt F)),
    binary main_v28 main_v27 main_v29 (Host.divf : (⟨S1x1024, .f32⟩ : BufTy).Contents (Elt F) → (⟨S1x1024, .f32⟩ : BufTy).Contents (Elt F) → (⟨S1x1024, .f32⟩ : BufTy).Contents (Elt F)),
    binary main_v18 main_v21 main_v30 (addf : (⟨S1x1024, .f32⟩ : BufTy).Contents (Elt F) → (⟨S1x1024, .f32⟩ : BufTy).Contents (Elt F) → (⟨S1x1024, .f32⟩ : BufTy).Contents (Elt F)),
    unary main_v30 main_v31 (Host.negf : (⟨S1x1024, .f32⟩ : BufTy).Contents (Elt F) → (⟨S1x1024, .f32⟩ : BufTy).Contents (Elt F)),
    unary main_v31 main_v32 (Host.exp : (⟨S1x1024, .f32⟩ : BufTy).Contents (Elt F) → (⟨S1x1024, .f32⟩ : BufTy).Contents (Elt F)),
    nullary main_cst_2 (constant S_ .f32 0x3F800000#32),
    unary main_cst_2 main_v33 (broadcastInDim S1x1024 ![] bcast_S_S1x1024 : (⟨S_, .f32⟩ : BufTy).Contents (Elt F) → (⟨S1x1024, .f32⟩ : BufTy).Contents (Elt F)),
    binary main_v33 main_v32 main_v34 (addf : (⟨S1x1024, .f32⟩ : BufTy).Contents (Elt F) → (⟨S1x1024, .f32⟩ : BufTy).Contents (Elt F) → (⟨S1x1024, .f32⟩ : BufTy).Contents (Elt F)),
    nullary main_cst_3 (constant S_ .f32 0x3F800000#32),
    unary main_cst_3 main_v35 (broadcastInDim S1x1024 ![] bcast_S_S1x1024 : (⟨S_, .f32⟩ : BufTy).Contents (Elt F) → (⟨S1x1024, .f32⟩ : BufTy).Contents (Elt F)),
    binary main_v35 main_v34 main_v36 (Host.divf : (⟨S1x1024, .f32⟩ : BufTy).Contents (Elt F) → (⟨S1x1024, .f32⟩ : BufTy).Contents (Elt F) → (⟨S1x1024, .f32⟩ : BufTy).Contents (Elt F)),
    binary main_v29 main_v22 main_v37 (mulf : (⟨S1x1024, .f32⟩ : BufTy).Contents (Elt F) → (⟨S1x1024, .f32⟩ : BufTy).Contents (Elt F) → (⟨S1x1024, .f32⟩ : BufTy).Contents (Elt F)),
    binary main_v19 main_v37 main_v38 (addf : (⟨S1x1024, .f32⟩ : BufTy).Contents (Elt F) → (⟨S1x1024, .f32⟩ : BufTy).Contents (Elt F) → (⟨S1x1024, .f32⟩ : BufTy).Contents (Elt F)),
    unary main_v38 main_v39 (Host.tanh : (⟨S1x1024, .f32⟩ : BufTy).Contents (Elt F) → (⟨S1x1024, .f32⟩ : BufTy).Contents (Elt F)),
    nullary main_cst_4 (constant S_ .f32 0x3F800000#32),
    unary main_cst_4 main_v40 (broadcastInDim S1x1024 ![] bcast_S_S1x1024 : (⟨S_, .f32⟩ : BufTy).Contents (Elt F) → (⟨S1x1024, .f32⟩ : BufTy).Contents (Elt F)),
    binary main_v40 main_v36 main_v41 (subf : (⟨S1x1024, .f32⟩ : BufTy).Contents (Elt F) → (⟨S1x1024, .f32⟩ : BufTy).Contents (Elt F) → (⟨S1x1024, .f32⟩ : BufTy).Contents (Elt F)),
    binary main_v41 main_v39 main_v42 (mulf : (⟨S1x1024, .f32⟩ : BufTy).Contents (Elt F) → (⟨S1x1024, .f32⟩ : BufTy).Contents (Elt F) → (⟨S1x1024, .f32⟩ : BufTy).Contents (Elt F)),
    binary main_v36 main_v8 main_v43 (mulf : (⟨S1x1024, .f32⟩ : BufTy).Contents (Elt F) → (⟨S1x1024, .f32⟩ : BufTy).Contents (Elt F) → (⟨S1x1024, .f32⟩ : BufTy).Contents (Elt F)),
    binary main_v42 main_v43 main_v44 (addf : (⟨S1x1024, .f32⟩ : BufTy).Contents (Elt F) → (⟨S1x1024, .f32⟩ : BufTy).Contents (Elt F) → (⟨S1x1024, .f32⟩ : BufTy).Contents (Elt F)),
    unary main_arg7 main_v45 ((transpose S1024x50257 [1, 0] · transposes_S50257x1024_S1024x50257_1_0) : (⟨S50257x1024, .f32⟩ : BufTy).Contents (Elt F) → (⟨S1024x50257, .f32⟩ : BufTy).Contents (Elt F)),
    binary main_v44 main_v45 main_v46 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg8 main_v47 (broadcastInDim S1x50257 ![1] bcast_S50257_S1x50257_1 : (⟨S50257, .f32⟩ : BufTy).Contents (Elt F) → (⟨S1x50257, .f32⟩ : BufTy).Contents (Elt F)),
    binary main_v46 main_v47 main_v48 (addf : (⟨S1x50257, .f32⟩ : BufTy).Contents (Elt F) → (⟨S1x50257, .f32⟩ : BufTy).Contents (Elt F) → (⟨S1x50257, .f32⟩ : BufTy).Contents (Elt F)),
    TRef.nullary (TRef.of (T := ⟨S_, .f32⟩) main_call1_cst) (constant S_ .f32 0xFF800000#32),
    TRef.binary (TRef.of (T := ⟨S1x50257, .f32⟩) main_v48) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v48) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v49) subf,
    unary main_v44 main_v50 (broadcastInDim S1x1x1024 ![1, 2] bcast_S1x1024_S1x1x1024_1_2 : (⟨S1x1024, .f32⟩ : BufTy).Contents (Elt F) → (⟨S1x1x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., reshape_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩

/-- The list is the stretches in order. -/
theorem ops_split : (ops : List (HloOp τ sig (Elt F))) = opsA ++ (opsB ++ (opsC ++ (opsD ++ (opsE ++ (opsF ++ (opsG ++ (opsH1 ++ (opsH2 ++ (opsH3 ++ (opsH4 ++ (opsH5 ++ (opsH6 ++ (opsH7 ++ (opsH8 ++ opsI)))))))))))))) := rfl

/-- A list run after another: the two folds in turn. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The fold over the whole list -/

/-- After the whole list, from any contents `V0`: the two results at their stages of `V0` at the arguments, and the
    arguments as in `V0`. The list is the stretches appended, so its fold is the stretches' folds in turn, which is the
    valuation `chain_results` speaks of. -/
theorem fold_results (V0 : Valuation τ sig (Elt F)) :
    after ops V0 (Proc.devRef .tc main_v49) = ReadS.val_main_v49 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
    ∧ after ops V0 (Proc.devRef .tc main_v50) = ReadS.val_main_v50 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
    ∧ after ops V0 (Proc.devRef .tc main_arg0) = V0 (Proc.devRef .tc main_arg0)
    ∧ after ops V0 (Proc.devRef .tc main_arg1) = V0 (Proc.devRef .tc main_arg1)
    ∧ after ops V0 (Proc.devRef .tc main_arg2) = V0 (Proc.devRef .tc main_arg2)
    ∧ after ops V0 (Proc.devRef .tc main_arg3) = V0 (Proc.devRef .tc main_arg3)
    ∧ after ops V0 (Proc.devRef .tc main_arg4) = V0 (Proc.devRef .tc main_arg4)
    ∧ after ops V0 (Proc.devRef .tc main_arg5) = V0 (Proc.devRef .tc main_arg5)
    ∧ after ops V0 (Proc.devRef .tc main_arg6) = V0 (Proc.devRef .tc main_arg6)
    ∧ after ops V0 (Proc.devRef .tc main_arg7) = V0 (Proc.devRef .tc main_arg7)
    ∧ after ops V0 (Proc.devRef .tc main_arg8) = V0 (Proc.devRef .tc main_arg8) := by
  rw [ops_split]
  simp only [after_app]
  exact chain_results V0

/-! ## The run -/

/-- On every device, for any float values, from any memory with zero counters: every weakly fair execution of @main
    terminates with each result at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = ReadS.val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v50) = ReadS.val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      have hf := fold_results (F := F) (launchContents m c)
      ⟨(h c main_v49).trans hf.1,
       (h c main_v50).trans hf.2.1,
       (h c main_arg0).trans hf.2.2.1,
       (h c main_arg1).trans hf.2.2.2.1,
       (h c main_arg2).trans hf.2.2.2.2.1,
       (h c main_arg3).trans hf.2.2.2.2.2.1,
       (h c main_arg4).trans hf.2.2.2.2.2.2.1,
       (h c main_arg5).trans hf.2.2.2.2.2.2.2.1,
       (h c main_arg6).trans hf.2.2.2.2.2.2.2.2.1,
       (h c main_arg7).trans hf.2.2.2.2.2.2.2.2.2.1,
       (h c main_arg8).trans hf.2.2.2.2.2.2.2.2.2.2⟩)
    (run_seq scopedRefs_eq scopedSems_eq defs main (fun _ => ops) main_eq (fun _ => ops_sub) m ρ)

end Cert.ReferenceIdeal.RunH

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.RefValue.lean ====
/-
  The reference program's two results, read at an index, are the specification's functions of the arguments:
  the log-softmax of the logits in one pass, and the new hidden state.
-/
import proofs.«402431_j70918499992252_3_alg».proof.Proof.RefStages
import proofs.«402431_j70918499992252_3_alg».proof.Proof.SpecArgs
import proofs.«402431_j70918499992252_3_alg».proof.Proof.LibRowGatherScatter
import Idealize.ShloMosaic.Lib.IdealHost
import Idealize.ShloMosaic.PureOps.Reduce

noncomputable section

namespace Cert.ReferenceIdeal.RefValue

open Cert.ReferenceIdeal Cert.ReferenceIdeal.Gen Cert.ReferenceIdeal.ReadS Idealize.ShloMosaic Idealize.ShloMosaic.ValueIdx Cert.GruSpec

/-- A word read as a non-negative signed integer is its unsigned value. -/
theorem toInt_toNat_of_nonneg (w : BitVec 32) (h : 0 ≤ w.toInt) : w.toInt.toNat = w.toNat := by
  have hlt := w.isLt
  have e := BitVec.toInt_eq_toNat_cond w
  by_cases hc : 2 * w.toNat < 2 ^ 32
  · rw [if_pos hc] at e; omega
  · rw [if_neg hc] at e; omega

/-- The start index the gather reads: a non-negative token is not wrapped. -/
theorem tok_eq (x0 : (⟨S1, .i32⟩ : BufTy).Contents (Elt Ideal)) (htok : 0 ≤ (x0 (ix1 (0 : Fin 1))).toInt) (j : S1x1.Idx) :
    val_main_v5 (F := Ideal) x0 j = x0 (ix1 (0 : Fin 1)) := by
  have hi : idx_main_v5 j = ix1 (0 : Fin 1) := funext fun a => by match a with | ⟨0, _⟩ => rfl
  rw [val_main_v5_apply, hi, val_main_v4_apply, val_main_v1_apply, val_main_v0_apply, val_main_c_apply]
  have hc : IntOp.cmpi .slt (x0 (ix1 (0 : Fin 1))) 0#32 = 0#1 := by
    have hs : (x0 (ix1 (0 : Fin 1))).slt 0#32 = false := by
      rw [BitVec.slt]
      exact decide_eq_false (by rw [BitVec.toInt_zero]; omega)
    show BitVec.ofBool ((x0 (ix1 (0 : Fin 1))).slt 0#32) = 0#1
    rw [hs]; rfl
  rw [hc, select_zero]

/-- The gathered row: the embedding table's row at the token, held to the last row. -/
theorem emb_eq (x0 : (⟨S1, .i32⟩ : BufTy).Contents (Elt Ideal)) (x2 : (⟨S50257x1024, .f32⟩ : BufTy).Contents (Elt Ideal)) (htok : 0 ≤ (x0 (ix1 (0 : Fin 1))).toInt) (i : S1x1024.Idx) :
    val_main_v6 (F := Ideal) x0 x2 i = x2 (ix2 (rowOf (x0 (ix1 (0 : Fin 1)))) (i 1)) := by
  obtain ⟨e, q, rfl⟩ : ∃ (e : Fin 1) (q : Fin 1024), i = ix2 e q := ⟨i 0, i 1, eq_ix2 i⟩
  unfold val_main_v6
  rw [Cert.Gcn.gather_rows (N := 50257) (E := 1) (C := 1024) gather_S50257x1024_S1x1_S1x1024_1_0_n_n_0_1_11024 rfl rfl rfl rfl rfl
    x2 (val_main_v5 (F := Ideal) x0) e q (by decide)]
  have ht := tok_eq x0 htok (ix2 e (0 : Fin 1))
  refine congrArg x2 (congrArg (fun r => ix2 r q) (Fin.ext ?_))
  show min (val_main_v5 (F := Ideal) x0 (ix2 e (0 : Fin 1))).toInt.toNat (50257 - 1) = min (x0 (ix1 (0 : Fin 1))).toNat 50256
  rw [ht, toInt_toNat_of_nonneg _ htok]

/-- The rectified embedding row. -/
theorem x_eq (x0 : (⟨S1, .i32⟩ : BufTy).Contents (Elt Ideal)) (x2 : (⟨S50257x1024, .f32⟩ : BufTy).Contents (Elt Ideal)) (htok : 0 ≤ (x0 (ix1 (0 : Fin 1))).toInt) (i : S1x1024.Idx) :
    val_main_v7 (F := Ideal) x0 x2 i
      = relu (fun k' => x2 (ix2 (rowOf (x0 (ix1 (0 : Fin 1)))) k')) (i 1) := by
  rw [val_main_v7_apply, emb_eq x0 x2 htok, val_main_call0_v0_apply, val_main_call0_cst_apply, Ideal.maximumf_def,
    Ideal.ofBits_def, Ideal.ofBits_zero_f32]
  rfl

/-- The rectified embedding row, as the specification names it. -/
theorem x_eq' (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (i : S1x1024.Idx) :
    val_main_v7 (F := Ideal) x0 x2 i = (Args.mk x0 x1 x2 x3 x4 x5 x6 x7 x8).x (i 1) := x_eq x0 x2 htok i

/-- The hidden state read as a row. -/
theorem h_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (i : S1x1024.Idx) :
    val_main_v8 (F := Ideal) x1 i = (Args.mk x0 x1 x2 x3 x4 x5 x6 x7 x8).h (i 1) := by
  rw [val_main_v8_apply]
  refine congrArg x1 (funext fun a => Fin.ext ?_)
  have h0 : (i 0).val < 1 := (i 0).isLt
  have h1 : (i 1).val < 1024 := (i 1).isLt
  match a with
  | ⟨0, _⟩ => rfl
  | ⟨1, _⟩ => rfl
  | ⟨2, _⟩ => show ((i 0).val * 1024 + (i 1).val) % 1024 = (i 1).val; omega

/-- The input-side gate pre-activations. -/
theorem gi_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (i : S1x3072.Idx) :
    val_main_v12 (F := Ideal) x0 x2 x3 x5 i = gi (Args.mk x0 x1 x2 x3 x4 x5 x6 x7 x8).x (Args.mk x0 x1 x2 x3 x4 x5 x6 x7 x8).wihM (Args.mk x0 x1 x2 x3 x4 x5 x6 x7 x8).bihV (i 1) := by
  rw [val_main_v12_apply, val_main_v10_apply, val_main_v11_apply, Ideal.addf_def]
  unfold gi
  refine congrArg₂ (· + ·) (Finset.sum_congr rfl fun k _ => ?_) ?_
  · rw [x_eq' x0 x1 x2 x3 x4 x5 x6 x7 x8 htok, val_main_v9_apply]
    refine congrArg₂ (· * ·) rfl (congrArg x3 (funext fun a => Fin.ext ?_))
    match a with
    | ⟨0, _⟩ => rfl
    | ⟨1, _⟩ => rfl
  · exact congrArg x5 (funext fun a => Fin.ext (by match a with | ⟨0, _⟩ => rfl))

/-- The state-side gate pre-activations. -/
theorem gh_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (i : S1x3072.Idx) :
    val_main_v16 (F := Ideal) x1 x4 x6 i = gh (Args.mk x0 x1 x2 x3 x4 x5 x6 x7 x8).h (Args.mk x0 x1 x2 x3 x4 x5 x6 x7 x8).whhM (Args.mk x0 x1 x2 x3 x4 x5 x6 x7 x8).bhhV (i 1) := by
  rw [val_main_v16_apply, val_main_v14_apply, val_main_v15_apply, Ideal.addf_def]
  unfold gh
  refine congrArg₂ (· + ·) (Finset.sum_congr rfl fun k _ => ?_) ?_
  · rw [h_eq x0 x1 x2 x3 x4 x5 x6 x7 x8, val_main_v13_apply]
    refine congrArg₂ (· * ·) rfl (congrArg x4 (funext fun a => Fin.ext ?_))
    match a with
    | ⟨0, _⟩ => rfl
    | ⟨1, _⟩ => rfl
  · exact congrArg x6 (funext fun a => Fin.ext (by match a with | ⟨0, _⟩ => rfl))

/-- The constant one, broadcast. -/
theorem one26 (i : S1x1024.Idx) : val_main_v26 (F := Ideal) i = 1 := by
  rw [val_main_v26_apply, val_main_cst_apply, Ideal.ofBits_def, Ideal.ofBits_one_f32]
theorem one28 (i : S1x1024.Idx) : val_main_v28 (F := Ideal) i = 1 := by
  rw [val_main_v28_apply, val_main_cst_1_apply, Ideal.ofBits_def, Ideal.ofBits_one_f32]
theorem one33 (i : S1x1024.Idx) : val_main_v33 (F := Ideal) i = 1 := by
  rw [val_main_v33_apply, val_main_cst_2_apply, Ideal.ofBits_def, Ideal.ofBits_one_f32]
theorem one35 (i : S1x1024.Idx) : val_main_v35 (F := Ideal) i = 1 := by
  rw [val_main_v35_apply, val_main_cst_3_apply, Ideal.ofBits_def, Ideal.ofBits_one_f32]
theorem one40 (i : S1x1024.Idx) : val_main_v40 (F := Ideal) i = 1 := by
  rw [val_main_v40_apply, val_main_cst_4_apply, Ideal.ofBits_def, Ideal.ofBits_one_f32]

/-- The reset gate. -/
theorem r_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (i : S1x1024.Idx) :
    val_main_v29 (F := Ideal) x0 x1 x2 x3 x4 x5 x6 i = rgate (Args.mk x0 x1 x2 x3 x4 x5 x6 x7 x8).x (Args.mk x0 x1 x2 x3 x4 x5 x6 x7 x8).h (Args.mk x0 x1 x2 x3 x4 x5 x6 x7 x8).wihM (Args.mk x0 x1 x2 x3 x4 x5 x6 x7 x8).whhM (Args.mk x0 x1 x2 x3 x4 x5 x6 x7 x8).bihV (Args.mk x0 x1 x2 x3 x4 x5 x6 x7 x8).bhhV (i 1) := by
  rw [val_main_v29_apply, one28, val_main_v27_apply, one26, val_main_v25_apply, val_main_v24_apply, val_main_v23_apply,
    val_main_v17_apply, val_main_v20_apply, gi_eq x0 x1 x2 x3 x4 x5 x6 x7 x8 htok, gh_eq x0 x1 x2 x3 x4 x5 x6 x7 x8]
  have e1 : idx_main_v17 i 1 = gr (i 1) := Fin.ext rfl
  have e2 : idx_main_v20 i 1 = gr (i 1) := Fin.ext rfl
  rw [e1, e2]
  simp only [Ideal.hostDivf_def, Ideal.addf_def, Ideal.hostUnary_exp_def, Ideal.hostNegf_def, Ideal.negf_def]
  rfl

/-- The update gate. -/
theorem z_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (i : S1x1024.Idx) :
    val_main_v36 (F := Ideal) x0 x1 x2 x3 x4 x5 x6 i = zgate (Args.mk x0 x1 x2 x3 x4 x5 x6 x7 x8).x (Args.mk x0 x1 x2 x3 x4 x5 x6 x7 x8).h (Args.mk x0 x1 x2 x3 x4 x5 x6 x7 x8).wihM (Args.mk x0 x1 x2 x3 x4 x5 x6 x7 x8).whhM (Args.mk x0 x1 x2 x3 x4 x5 x6 x7 x8).bihV (Args.mk x0 x1 x2 x3 x4 x5 x6 x7 x8).bhhV (i 1) := by
  rw [val_main_v36_apply, one35, val_main_v34_apply, one33, val_main_v32_apply, val_main_v31_apply, val_main_v30_apply,
    val_main_v18_apply, val_main_v21_apply, gi_eq x0 x1 x2 x3 x4 x5 x6 x7 x8 htok, gh_eq x0 x1 x2 x3 x4 x5 x6 x7 x8]
  have e1 : idx_main_v18 i 1 = gz (i 1) := Fin.ext rfl
  have e2 : idx_main_v21 i 1 = gz (i 1) := Fin.ext rfl
  rw [e1, e2]
  simp only [Ideal.hostDivf_def, Ideal.addf_def, Ideal.hostUnary_exp_def, Ideal.hostNegf_def, Ideal.negf_def]
  rfl

/-- The candidate state. -/
theorem n_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (i : S1x1024.Idx) :
    val_main_v39 (F := Ideal) x0 x1 x2 x3 x4 x5 x6 i = cand (Args.mk x0 x1 x2 x3 x4 x5 x6 x7 x8).x (Args.mk x0 x1 x2 x3 x4 x5 x6 x7 x8).h (Args.mk x0 x1 x2 x3 x4 x5 x6 x7 x8).wihM (Args.mk x0 x1 x2 x3 x4 x5 x6 x7 x8).whhM (Args.mk x0 x1 x2 x3 x4 x5 x6 x7 x8).bihV (Args.mk x0 x1 x2 x3 x4 x5 x6 x7 x8).bhhV (i 1) := by
  rw [val_main_v39_apply, val_main_v38_apply, val_main_v19_apply, val_main_v37_apply, val_main_v22_apply,
    r_eq x0 x1 x2 x3 x4 x5 x6 x7 x8 htok, gi_eq x0 x1 x2 x3 x4 x5 x6 x7 x8 htok, gh_eq x0 x1 x2 x3 x4 x5 x6 x7 x8]
  have e1 : idx_main_v19 i 1 = gn (i 1) := Fin.ext rfl
  have e2 : idx_main_v22 i 1 = gn (i 1) := Fin.ext rfl
  rw [e1, e2]
  simp only [Ideal.addf_def, Ideal.mulf_def, Ideal.hostUnary_tanh_def]
  rfl

/-- The new hidden state, as a row. -/
theorem hn_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (i : S1x1024.Idx) :
    val_main_v44 (F := Ideal) x0 x1 x2 x3 x4 x5 x6 i = (Args.mk x0 x1 x2 x3 x4 x5 x6 x7 x8).hnew (i 1) := by
  rw [val_main_v44_apply, val_main_v42_apply, val_main_v43_apply, val_main_v41_apply, one40,
    z_eq x0 x1 x2 x3 x4 x5 x6 x7 x8 htok, n_eq x0 x1 x2 x3 x4 x5 x6 x7 x8 htok, h_eq x0 x1 x2 x3 x4 x5 x6 x7 x8]
  rfl

/-- The reference's second result is the new hidden state. -/
theorem ref_hid (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) :
    val_main_v50 (F := Ideal) x0 x1 x2 x3 x4 x5 x6 = (Args.mk x0 x1 x2 x3 x4 x5 x6 x7 x8).hid' := by
  funext i
  rw [val_main_v50_apply, hn_eq x0 x1 x2 x3 x4 x5 x6 x7 x8 htok]
  rfl

/-- The logits. -/
theorem lg_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (i : S1x50257.Idx) :
    val_main_v48 (F := Ideal) x0 x1 x2 x3 x4 x5 x6 x7 x8 i = (Args.mk x0 x1 x2 x3 x4 x5 x6 x7 x8).logit (i 1) := by
  rw [val_main_v48_apply, val_main_v46_apply, val_main_v47_apply, Ideal.addf_def]
  unfold Args.logit GruSpec.logit
  refine congrArg₂ (· + ·) (Finset.sum_congr rfl fun k _ => ?_) ?_
  · rw [hn_eq x0 x1 x2 x3 x4 x5 x6 x7 x8 htok, val_main_v45_apply]
    refine congrArg₂ (· * ·) rfl (congrArg x7 (funext fun a => Fin.ext ?_))
    match a with
    | ⟨0, _⟩ => rfl
    | ⟨1, _⟩ => rfl
  · exact congrArg x8 (funext fun a => Fin.ext (by match a with | ⟨0, _⟩ => rfl))

/-- The word of minus infinity is the bottom element. -/
theorem ofBits_ninf : Ideal.ofBits .f32 0xFF800000#32 = (⊥ : EReal) := by simp [Ideal.ofBits, Ideal.ieee]

/-- The reduction's maximum is the largest logit. -/
theorem mx0_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (j : S1.Idx) :
    val_main_call1_v0 (F := Ideal) x0 x1 x2 x3 x4 x5 x6 x7 x8 j = Finset.univ.sup (Args.mk x0 x1 x2 x3 x4 x5 x6 x7 x8).logit := by
  have hR : S1x50257.Reduces [1] S1 := by decide
  unfold val_main_call1_v0
  rw [Host.reduce_eq_fold_single FloatOps.maximumf _ _ reducesTo_S1x50257_S1_d1 hR h_S_ j]
  have hf : (fun k : Fin 50257 => val_main_v48 (F := Ideal) x0 x1 x2 x3 x4 x5 x6 x7 x8 (hR.lift j k)) = (Args.mk x0 x1 x2 x3 x4 x5 x6 x7 x8).logit :=
    funext fun k => by
      rw [lg_eq x0 x1 x2 x3 x4 x5 x6 x7 x8 htok]
      exact congrArg (Args.mk x0 x1 x2 x3 x4 x5 x6 x7 x8).logit (Fin.ext rfl)
  change Finset.fold max (Ideal.ofBits .f32 0xFF800000#32)
    (fun k : Fin 50257 => val_main_v48 (F := Ideal) x0 x1 x2 x3 x4 x5 x6 x7 x8 (hR.lift j k)) Finset.univ = _
  rw [hf, ofBits_ninf]
  rfl

/-- The maximum against minus infinity changes nothing. -/
theorem mx_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (j : S1.Idx) :
    val_main_call1_v2 (F := Ideal) x0 x1 x2 x3 x4 x5 x6 x7 x8 j = Finset.univ.sup (Args.mk x0 x1 x2 x3 x4 x5 x6 x7 x8).logit := by
  rw [val_main_call1_v2_apply, val_main_call1_v1_apply, val_main_call1_cst_0_apply, Ideal.maximumf_def, Ideal.ofBits_def,
    mx0_eq x0 x1 x2 x3 x4 x5 x6 x7 x8 htok, ofBits_ninf]
  exact max_eq_right bot_le

/-- The shifted logits. -/
theorem sh_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (i : S1x50257.Idx) :
    val_main_call1_v5 (F := Ideal) x0 x1 x2 x3 x4 x5 x6 x7 x8 i = (Args.mk x0 x1 x2 x3 x4 x5 x6 x7 x8).logit (i 1) - Finset.univ.sup (Args.mk x0 x1 x2 x3 x4 x5 x6 x7 x8).logit := by
  rw [val_main_call1_v5_apply, val_main_call1_v4_apply, val_main_call1_v3_apply, mx_eq x0 x1 x2 x3 x4 x5 x6 x7 x8 htok,
    lg_eq x0 x1 x2 x3 x4 x5 x6 x7 x8 htok, Ideal.subf_def]

/-- The sum of the exponentials of the shifted logits. -/
theorem sum_eq (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) (j : S1.Idx) :
    val_main_call1_v7 (F := Ideal) x0 x1 x2 x3 x4 x5 x6 x7 x8 j
      = ∑ u : Fin 50257, Ideal.exp ((Args.mk x0 x1 x2 x3 x4 x5 x6 x7 x8).logit u - Finset.univ.sup (Args.mk x0 x1 x2 x3 x4 x5 x6 x7 x8).logit) := by
  rw [val_main_call1_v7_apply, val_main_call1_cst_1_apply, Ideal.ofBits_def, Ideal.ofBits_zero_f32, zero_add]
  refine Finset.sum_congr rfl fun k _ => ?_
  rw [val_main_call1_v6_apply, sh_eq x0 x1 x2 x3 x4 x5 x6 x7 x8 htok, Ideal.hostUnary_exp_def]
  rfl

/-- The reference's first result is the log-softmax of the logits, in one pass. -/
theorem ref_out (x0 : (⟨S1, .i32⟩ : BufTy).Contents (Elt Ideal)) (x1 : (⟨S1x1x1024, .f32⟩ : BufTy).Contents (Elt Ideal)) (x2 : (⟨S50257x1024, .f32⟩ : BufTy).Contents (Elt Ideal)) (x3 : (⟨S3072x1024, .f32⟩ : BufTy).Contents (Elt Ideal)) (x4 : (⟨S3072x1024, .f32⟩ : BufTy).Contents (Elt Ideal)) (x5 : (⟨S3072, .f32⟩ : BufTy).Contents (Elt Ideal)) (x6 : (⟨S3072, .f32⟩ : BufTy).Contents (Elt Ideal)) (x7 : (⟨S50257x1024, .f32⟩ : BufTy).Contents (Elt Ideal)) (x8 : (⟨S50257, .f32⟩ : BufTy).Contents (Elt Ideal)) (htok : 0 ≤ (x0 (ix1 (0 : Fin 1))).toInt) :
    val_main_v49 (F := Ideal) x0 x1 x2 x3 x4 x5 x6 x7 x8 = (Args.mk x0 x1 x2 x3 x4 x5 x6 x7 x8).outW := by
  funext i
  rw [val_main_v49_apply, sh_eq x0 x1 x2 x3 x4 x5 x6 x7 x8 htok, val_main_call1_v10_apply, val_main_call1_v9_apply,
    val_main_call1_v8_apply, sum_eq x0 x1 x2 x3 x4 x5 x6 x7 x8 htok, Ideal.subf_def, Ideal.hostUnary_log_def]
  rfl

end Cert.ReferenceIdeal.RefValue

end
-- ==== Proof.PreReal.lean ====
/-
  The printed precondition, read at the extended reals.

  The precondition is a conjunction of nine facts: for each of the eight float arrays, "every entry has absolute
  value below +∞" (an `and`-reduction over all axes of the entrywise comparison `|x| < +∞`), and for the token,
  "every entry is at least 0" as a signed word. An extended real whose absolute value `max x (-x)` is below `⊤`
  is neither `⊤` nor `⊥`, hence a real number. So the precondition gives: every float argument is a real number,
  and the token is non-negative.
-/
import proofs.«402431_j70918499992252_3_alg».proof.Proof.Gen.Pre_finite_inputs
import proofs.«402431_j70918499992252_3_alg».proof.Proof.SpecArgs
import Idealize.ShloMosaic.Lib.ReduceAll

namespace Cert.PreReal

open Idealize.ShloMosaic Idealize.ShloMosaic.ValueIdx Cert.Pre_finite_inputs

/-- The rank-0 index set has one element. -/
instance : Subsingleton S_.Idx := ⟨fun a b => funext fun d => d.elim0⟩

/-- The pattern `0x7F800000` denotes `+∞`. -/
theorem inf_eq_top : Ideal.ofBits .f32 0x7F800000#32 = ⊤ := by simp [Ideal.ofBits, Ideal.ieee]

/-- An extended real with `|x| < +∞` is a real number. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => exact absurd h (by simp [Ideal.cmp])
  | coe r => exact ⟨r, rfl⟩
  | top => exact absurd h (by simp [Ideal.cmp])

/-- One `and`-reduction over all axes of `|x| < +∞` that came out 1: every entry of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) :
    ∀ i, ∃ r : ℝ, x i = (r : EReal) := by
  intro i
  have hi := Host.reduce_andi_all _ _ hr hu ix0 e i
  exact real_of_abs_lt (x i) hi

/-- The `and`-reduction of `token ≥ 0` (signed) that came out 1: the token is non-negative as a signed word. -/
theorem nonneg_of_all (a0 : IVec S1 32)
    (hb : S_.BroadcastsInDim S1 (![] : Fin 0 → Fin S1.rank)) (hr : S1.ReducesTo [0] S_) (hu : 0 < S_.numel)
    (e : Host.reduce IntOp.andi (cmpi .sge a0 (broadcastInDim S1 ![] hb (constantI S_ 32 0#32)))
      (constantI S_ 1 1#1) hr hu ix0 = 1#1) :
    0 ≤ (a0 (ix1 (0 : Fin 1))).toInt := by
  have hi := Host.reduce_andi_all _ _ hr hu ix0 e (ix1 (0 : Fin 1))
  have hle : (0#32 : BitVec 32).toInt ≤ (a0 (ix1 (0 : Fin 1))).toInt := IntOp.cmpi_sge.1 hi
  have hz : (0#32 : BitVec 32).toInt = 0 := by decide
  rwa [hz] at hle

theorem real_of_pre (a0 : IVec Cert.Pre_finite_inputs.S1 32) (a1 : FVec Ideal Cert.Pre_finite_inputs.S1x1x1024 .f32)
    (a2 : FVec Ideal Cert.Pre_finite_inputs.S50257x1024 .f32) (a3 a4 : FVec Ideal Cert.Pre_finite_inputs.S3072x1024 .f32)
    (a5 a6 : FVec Ideal Cert.Pre_finite_inputs.S3072 .f32) (a7 : FVec Ideal Cert.Pre_finite_inputs.S50257x1024 .f32)
    (a8 : FVec Ideal Cert.Pre_finite_inputs.S50257 .f32)
    (h : Cert.Pre_finite_inputs.fn (F := Ideal) a0 a1 a2 a3 a4 a5 a6 a7 a8 = (fun _ => 1#1)) :
    (Cert.GruSpec.Args.mk a0 a1 a2 a3 a4 a5 a6 a7 a8).Real ∧ 0 ≤ (a0 (Idealize.ShloMosaic.ValueIdx.ix1 (0 : Fin 1))).toInt := by
  have h0 := congrFun h ix0
  dsimp only [fn, fn_part1, fn_part2, andi] at h0
  simp only [IntOp.andi_eq_one] at h0
  obtain ⟨⟨⟨⟨⟨⟨⟨⟨h1, h2⟩, h3⟩, h4⟩, h5⟩, h6⟩, h7⟩, h8⟩, ht⟩ := h0
  exact ⟨⟨real_of_all a1 _ _ _ h1, real_of_all a2 _ _ _ h2, real_of_all a3 _ _ _ h3, real_of_all a4 _ _ _ h4,
    real_of_all a5 _ _ _ h5, real_of_all a6 _ _ _ h6, real_of_all a7 _ _ _ h7, real_of_all a8 _ _ _ h8⟩,
    nonneg_of_all a0 _ _ _ ht⟩

end Cert.PreReal
-- ==== Proof.SpecReal.lean ====
/-
  Every intermediate value of the specification is a real number when the inputs are.

  The reals sit inside the extended reals closed under sum, difference, product, maximum, finite sums,
  the hyperbolic tangent, and the logistic function `1 / (1 + e^(-a))` (whose denominator is a real
  above 1, hence nonzero). The gate pre-activations, the gates, the candidate, the new state and the
  logits are built from real inputs by these operations alone.
-/
import proofs.«402431_j70918499992252_3_alg».proof.Proof.Spec
import Mathlib.Data.EReal.Basic
import Mathlib.Data.EReal.Operations
import Mathlib.Data.EReal.Inv
import Mathlib.Algebra.BigOperators.Group.Finset.Basic

noncomputable section

namespace Cert.GruSpec

open Idealize.ShloMosaic

/-- An extended real that is (the image of) a real number. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_sub {a b : EReal} (ha : IsReal a) (hb : IsReal b) : IsReal (a - b) := by
  obtain ⟨r, rfl⟩ := ha
  obtain ⟨s, rfl⟩ := hb
  exact ⟨r - s, (EReal.coe_sub r s).symm⟩

theorem isReal_mul {a b : EReal} (ha : IsReal a) (hb : IsReal b) : IsReal (a * b) := by
  obtain ⟨r, rfl⟩ := ha
  obtain ⟨s, rfl⟩ := hb
  exact ⟨r * s, (EReal.coe_mul r s).symm⟩

theorem isReal_max {a b : EReal} (ha : IsReal a) (hb : IsReal b) : IsReal (max a b) := by
  rcases max_choice a b with h | h <;> rw [h] <;> assumption

theorem isReal_sum {ι : Type*} (s : Finset ι) (f : ι → EReal) (hf : ∀ i, IsReal (f i)) :
    IsReal (∑ i ∈ s, f i) := by
  classical
  induction s using Finset.induction_on with
  | empty => simpa using isReal_zero
  | insert a s ha ih =>
    rw [Finset.sum_insert ha]
    exact isReal_add (hf a) ih

theorem isReal_tanh {a : EReal} (ha : IsReal a) : IsReal (Ideal.tanh a) := by
  obtain ⟨r, rfl⟩ := ha
  exact ⟨Real.tanh r, rfl⟩

/-- The logistic function of a real `r` is the real `(1 + e^(-r))⁻¹`. -/
theorem isReal_sig {a : EReal} (ha : IsReal a) : IsReal (sig a) := by
  obtain ⟨r, rfl⟩ := ha
  exact ⟨(1 + Real.exp (-r))⁻¹, Ideal.logistic_coe r⟩

theorem relu_real (e : Fin 1024 → EReal) (he : ∀ k, ∃ r : ℝ, e k = (r : EReal)) :
    ∀ k, ∃ r : ℝ, relu e k = (r : EReal) := fun k =>
  isReal_max (he k) isReal_zero

theorem gi_real (x : Fin 1024 → EReal) (wih : Fin 3072 → Fin 1024 → EReal) (bih : Fin 3072 → EReal)
    (hx : ∀ k, IsReal (x k)) (hwih : ∀ j k, IsReal (wih j k)) (hbih : ∀ j, IsReal (bih j)) :
    ∀ j, IsReal (gi x wih bih j) := fun j =>
  isReal_add (isReal_sum _ _ fun k => isReal_mul (hx k) (hwih j k)) (hbih j)

theorem gh_real (h : Fin 1024 → EReal) (whh : Fin 3072 → Fin 1024 → EReal) (bhh : Fin 3072 → EReal)
    (hh : ∀ k, IsReal (h k)) (hwhh : ∀ j k, IsReal (whh j k)) (hbhh : ∀ j, IsReal (bhh j)) :
    ∀ j, IsReal (gh h whh bhh j) := fun j =>
  isReal_add (isReal_sum _ _ fun k => isReal_mul (hh k) (hwhh j k)) (hbhh j)

section Gru

variable (x h : Fin 1024 → EReal) (wih whh : Fin 3072 → Fin 1024 → EReal) (bih bhh : Fin 3072 → EReal)
  (hx : ∀ k, ∃ r : ℝ, x k = (r : EReal)) (hh : ∀ k, ∃ r : ℝ, h k = (r : EReal))
  (hwih : ∀ j k, ∃ r : ℝ, wih j k = (r : EReal)) (hwhh : ∀ j k, ∃ r : ℝ, whh j k = (r : EReal))
  (hbih : ∀ j, ∃ r : ℝ, bih j = (r : EReal)) (hbhh : ∀ j, ∃ r : ℝ, bhh j = (r : EReal))

include hx hh hwih hwhh hbih hbhh

theorem rgate_real : ∀ k, IsReal (rgate x h wih whh bih bhh k) := fun k =>
  isReal_sig (isReal_add (gi_real x wih bih hx hwih hbih _) (gh_real h whh bhh hh hwhh hbhh _))

theorem zgate_real : ∀ k, IsReal (zgate x h wih whh bih bhh k) := fun k =>
  isReal_sig (isReal_add (gi_real x wih bih hx hwih hbih _) (gh_real h whh bhh hh hwhh hbhh _))

theorem cand_real : ∀ k, IsReal (cand x h wih whh bih bhh k) := fun k =>
  isReal_tanh (isReal_add (gi_real x wih bih hx hwih hbih _)
    (isReal_mul (rgate_real x h wih whh bih bhh hx hh hwih hwhh hbih hbhh k) (gh_real h whh bhh hh hwhh hbhh _)))

theorem hnew_real : ∀ k, ∃ r : ℝ, hnew x h wih whh bih bhh k = (r : EReal) := fun k =>
  isReal_add
    (isReal_mul (isReal_sub isReal_one (zgate_real x h wih whh bih bhh hx hh hwih hwhh hbih hbhh k))
      (cand_real x h wih whh bih bhh hx hh hwih hwhh hbih hbhh k))
    (isReal_mul (zgate_real x h wih whh bih bhh hx hh hwih hwhh hbih hbhh k) (hh k))

end Gru

theorem logit_real (hn : Fin 1024 → EReal) (wout : Fin 50257 → Fin 1024 → EReal) (bout : Fin 50257 → EReal)
    (hhn : ∀ k, ∃ r : ℝ, hn k = (r : EReal)) (hw : ∀ v k, ∃ r : ℝ, wout v k = (r : EReal))
    (hb : ∀ v, ∃ r : ℝ, bout v = (r : EReal)) :
    ∀ v, ∃ r : ℝ, logit hn wout bout v = (r : EReal) := fun v =>
  isReal_add (isReal_sum _ _ fun k => isReal_mul (hhn k) (hw v k)) (hb v)

end Cert.GruSpec

end
-- ==== Proof.LseLaw.lean ====
/-
  The tiled log-softmax equals the one-pass log-softmax when every logit is a real number.

  Write the logits as real numbers L. A lane of a tile holds a logit or -∞; its exponential about a real
  shift c is the real number exp (L u - c), or 0 for a lane past the vocabulary's end. Every tile holds the
  word 2048·t, so its maximum is a real number m; the tile's sum of exponentials about m, times
  exp (m - G), is the tile's sum of exponentials about G. Every word u lies in exactly one tile, at lane
  u mod 2048 of tile u div 2048, so the tiles' sums add up to the sum over the vocabulary, and the largest
  tile maximum is the largest logit G. Both arrangements are then L v - G - log (∑ exp (L u - G)).
-/
import proofs.«402431_j70918499992252_3_alg».proof.Proof.Spec
import Mathlib.Analysis.SpecialFunctions.Log.Basic
import Mathlib.Data.EReal.Operations
import Mathlib.Algebra.BigOperators.Group.Finset.Basic
import Mathlib.Data.Finset.Lattice.Fold

noncomputable section

namespace Cert.GruSpec

open Idealize.ShloMosaic

/-! ## The exponential and the logarithm on real arguments; sums of real numbers -/

theorem exp_coe (r : ℝ) : Ideal.exp (r : EReal) = ((Real.exp r : ℝ) : EReal) := rfl

theorem exp_bot : Ideal.exp ⊥ = 0 := rfl

theorem log_coe_pos {r : ℝ} (h : 0 < r) : Ideal.log (r : EReal) = ((Real.log r : ℝ) : EReal) := by
  show (if r ≤ 0 then (⊥ : EReal) else ((Real.log r : ℝ) : EReal)) = _
  rw [if_neg (not_le.mpr h)]

/-- A finite sum of real numbers, read in the extended reals, is the real sum. -/
theorem coe_sum_real {ι : Type*} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-! ## Words as (tile, lane) pairs -/

/-- The tile and the lane of a word. -/
def tileOf (u : Fin 50257) : Fin 25 × Fin 2048 :=
  (⟨u.val / 2048, by omega⟩, ⟨u.val % 2048, by omega⟩)

theorem tileOf_spec (u : Fin 50257) : 2048 * (tileOf u).1.val + (tileOf u).2.val = u.val := by
  show 2048 * (u.val / 2048) + u.val % 2048 = u.val
  exact Nat.div_add_mod u.val 2048

theorem tileOf_injective : Function.Injective tileOf := by
  intro a b hab
  apply Fin.ext
  rw [← tileOf_spec a, ← tileOf_spec b, hab]

/-- A sum over the tiles' lanes, the lanes past the vocabulary's end counting zero, is the sum over the words. -/
theorem sum_tiles (g : Fin 50257 → ℝ) :
    (∑ t : Fin 25, ∑ j : Fin 2048,
      (if hv : 2048 * t.val + j.val < 50257 then g ⟨2048 * t.val + j.val, hv⟩ else 0)) = ∑ u, g u := by
  rw [← Fintype.sum_prod_type'
    (f := fun (t : Fin 25) (j : Fin 2048) =>
      (if hv : 2048 * t.val + j.val < 50257 then g ⟨2048 * t.val + j.val, hv⟩ else 0))]
  symm
  refine Fintype.sum_of_injective tileOf tileOf_injective g _ ?_ ?_
  · intro p hp
    by_cases hv : 2048 * p.1.val + p.2.val < 50257
    · exfalso
      apply hp
      refine ⟨⟨2048 * p.1.val + p.2.val, hv⟩, ?_⟩
      have h1 : (2048 * p.1.val + p.2.val) / 2048 = p.1.val := by have := p.2.isLt; omega
      have h2 : (2048 * p.1.val + p.2.val) % 2048 = p.2.val := by have := p.2.isLt; omega
      apply Prod.ext
      · exact Fin.ext h1
      · exact Fin.ext h2
    · simp only [dif_neg hv]
  · intro u
    have hs := tileOf_spec u
    have hv : 2048 * (tileOf u).1.val + (tileOf u).2.val < 50257 := by rw [hs]; exact u.isLt
    simp only [dif_pos hv]
    congr 1
    exact Fin.ext hs.symm

/-! ## Lanes about a real shift -/

/-- A lane's exponential about the real shift c: exp (L u - c) for a word u, zero past the vocabulary's end. -/
def laneE (L : Fin 50257 → ℝ) (c : ℝ) (t : Fin 25) (j : Fin 2048) : ℝ :=
  if hv : 2048 * t.val + j.val < 50257 then Real.exp (L ⟨2048 * t.val + j.val, hv⟩ - c) else 0

/-- The lanes' exponentials about G, summed over all tiles, are the words' exponentials about G. -/
theorem sum_laneE (L : Fin 50257 → ℝ) (G : ℝ) :
    (∑ t : Fin 25, ∑ j : Fin 2048, laneE L G t j) = ∑ u, Real.exp (L u - G) :=
  sum_tiles (fun u => Real.exp (L u - G))

section Real

variable (lg : Fin 50257 → EReal) (L : Fin 50257 → ℝ) (hL : ∀ v, lg v = (L v : EReal))

include hL in
theorem exp_lane_sub (c : ℝ) (t : Fin 25) (j : Fin 2048) :
    Ideal.exp (lane lg t j - (c : EReal)) = ((laneE L c t j : ℝ) : EReal) := by
  unfold lane laneE
  by_cases hv : 2048 * t.val + j.val < 50257
  · rw [dif_pos hv, dif_pos hv, hL, ← EReal.coe_sub, exp_coe]
  · rw [dif_neg hv, dif_neg hv, EReal.bot_sub, exp_bot, EReal.coe_zero]

/-- Moving the shift from c to G multiplies a lane's exponential by exp (c - G). -/
theorem laneE_mul (c G : ℝ) (t : Fin 25) (j : Fin 2048) :
    laneE L c t j * Real.exp (c - G) = laneE L G t j := by
  unfold laneE
  by_cases hv : 2048 * t.val + j.val < 50257
  · rw [dif_pos hv, dif_pos hv, ← Real.exp_add]
    congr 1
    ring
  · rw [dif_neg hv, dif_neg hv, zero_mul]

include hL in
/-- A tile's maximum is a real number: the tile holds the word 2048·t, and its maximum is one of its lanes. -/
theorem tmax_real (t : Fin 25) : ∃ m : ℝ, tmax lg t = (m : EReal) := by
  obtain ⟨j, -, hj⟩ := Finset.exists_mem_eq_sup Finset.univ Finset.univ_nonempty (lane lg t)
  have hv0 : 2048 * t.val + (⟨0, by omega⟩ : Fin 2048).val < 50257 := by
    show 2048 * t.val + 0 < 50257
    have := t.isLt
    omega
  have e0 : lane lg t ⟨0, by omega⟩ = (L ⟨_, hv0⟩ : EReal) := by
    unfold lane
    rw [dif_pos hv0, hL]
  have h0 : lane lg t ⟨0, by omega⟩ ≤ Finset.univ.sup (lane lg t) := Finset.le_sup (Finset.mem_univ _)
  by_cases hv : 2048 * t.val + j.val < 50257
  · refine ⟨L ⟨_, hv⟩, ?_⟩
    show Finset.univ.sup (lane lg t) = _
    rw [hj]
    unfold lane
    rw [dif_pos hv, hL]
  · exfalso
    have hb : lane lg t j = ⊥ := by
      unfold lane
      rw [dif_neg hv]
    rw [hj, hb, e0] at h0
    exact EReal.coe_ne_bot _ (le_bot_iff.mp h0)

/-- The largest tile maximum is the largest logit. -/
theorem gmax_eq_sup : gmax lg = Finset.univ.sup lg := by
  unfold gmax
  apply le_antisymm
  · refine Finset.sup_le fun t _ => ?_
    unfold tmax
    refine Finset.sup_le fun j _ => ?_
    unfold lane
    by_cases hv : 2048 * t.val + j.val < 50257
    · rw [dif_pos hv]
      exact Finset.le_sup (Finset.mem_univ _)
    · rw [dif_neg hv]
      exact bot_le
  · refine Finset.sup_le fun u _ => ?_
    have hs := tileOf_spec u
    have hv : 2048 * (tileOf u).1.val + (tileOf u).2.val < 50257 := by
      rw [hs]
      exact u.isLt
    have e : lg u = lane lg (tileOf u).1 (tileOf u).2 := by
      unfold lane
      rw [dif_pos hv]
      congr 1
      exact Fin.ext hs.symm
    rw [e]
    exact le_trans (Finset.le_sup (f := lane lg (tileOf u).1) (Finset.mem_univ _))
      (Finset.le_sup (f := tmax lg) (Finset.mem_univ _))

include hL in
theorem sup_real : ∃ G : ℝ, Finset.univ.sup lg = (G : EReal) := by
  obtain ⟨u, -, hu⟩ := Finset.exists_mem_eq_sup Finset.univ Finset.univ_nonempty lg
  exact ⟨L u, by rw [hu, hL]⟩

include hL in
/-- A tile's sum of exponentials about its maximum, moved to the shift G, is its sum of exponentials about G. -/
theorem tile_term (G : ℝ) (t : Fin 25) :
    texp lg t * Ideal.exp (tmax lg t - (G : EReal)) = ((∑ j : Fin 2048, laneE L G t j : ℝ) : EReal) := by
  obtain ⟨m, hm⟩ := tmax_real lg L hL t
  unfold texp
  rw [hm, Finset.sum_congr rfl (fun j _ => exp_lane_sub lg L hL m t j), coe_sum_real,
    ← EReal.coe_sub, exp_coe, ← EReal.coe_mul, Finset.sum_mul,
    Finset.sum_congr rfl (fun j _ => laneE_mul L m G t j)]

end Real

/-- The tiled log-softmax is the one-pass log-softmax, the logits being real numbers. -/
theorem outTiled_eq_outWhole (lg : Fin 50257 → EReal) (hreal : ∀ v, ∃ r : ℝ, lg v = (r : EReal)) (v : Fin 50257) :
    outTiled lg v = outWhole lg v := by
  choose L hL using hreal
  obtain ⟨G, hG⟩ := sup_real lg L hL
  have hg : gmax lg = (G : EReal) := by rw [gmax_eq_sup, hG]
  have hSpos : 0 < ∑ u, Real.exp (L u - G) :=
    Finset.sum_pos (fun u _ => Real.exp_pos _) Finset.univ_nonempty
  have htile : (∑ t : Fin 25, texp lg t * Ideal.exp (tmax lg t - gmax lg))
      = ((∑ u, Real.exp (L u - G) : ℝ) : EReal) := by
    rw [hg, Finset.sum_congr rfl (fun t _ => tile_term lg L hL G t), coe_sum_real, sum_laneE]
  have hwhole : (∑ u : Fin 50257, Ideal.exp (lg u - Finset.univ.sup lg))
      = ((∑ u, Real.exp (L u - G) : ℝ) : EReal) := by
    rw [hG, Finset.sum_congr rfl (fun u _ =>
      show Ideal.exp (lg u - (G : EReal)) = ((Real.exp (L u - G) : ℝ) : EReal) by
        rw [hL, ← EReal.coe_sub, exp_coe]), coe_sum_real]
  unfold outTiled lseTiled outWhole
  rw [htile, hwhole, hg, hG, log_coe_pos hSpos, hL v, ← EReal.coe_add, ← EReal.coe_sub,
    ← EReal.coe_sub, ← EReal.coe_sub, sub_sub]

end Cert.GruSpec

end
-- ==== Proof.Bridge.lean ====
/-
  With real arguments every logit is a real number, so the log-softmax taken tile by tile is the log-softmax
  taken in one pass: the two arrangements of the first result agree.

  The rectified embedding row is the maximum of a real and zero; the hidden state, the gate weights and biases
  and the output projection are real by hypothesis; the new hidden state and the logits are built from these by
  sums, products, the logistic function and the hyperbolic tangent, under which the reals are closed.
-/
import proofs.«402431_j70918499992252_3_alg».proof.Proof.SpecArgs
import proofs.«402431_j70918499992252_3_alg».proof.Proof.SpecReal
import proofs.«402431_j70918499992252_3_alg».proof.Proof.LseLaw

noncomputable section

namespace Cert.GruSpec

open Idealize.ShloMosaic Idealize.ShloMosaic.ValueIdx

/-- The rectified embedding row is real. -/
theorem Args.x_real (A : Args) (hA : A.Real) : ∀ k, ∃ r : ℝ, A.x k = (r : EReal) :=
  Cert.GruSpec.relu_real _ fun _ => hA.2.1 _

/-- The new hidden state is real. -/
theorem Args.hnew_real (A : Args) (hA : A.Real) : ∀ k, ∃ r : ℝ, A.hnew k = (r : EReal) :=
  Cert.GruSpec.hnew_real A.x A.h A.wihM A.whhM A.bihV A.bhhV (A.x_real hA) (fun _ => hA.1 _)
    (fun _ _ => hA.2.2.1 _) (fun _ _ => hA.2.2.2.1 _) (fun _ => hA.2.2.2.2.1 _) (fun _ => hA.2.2.2.2.2.1 _)

/-- Every logit is real. -/
theorem Args.logit_real (A : Args) (hA : A.Real) : ∀ v, ∃ r : ℝ, A.logit v = (r : EReal) :=
  Cert.GruSpec.logit_real A.hnew A.woutM A.boutV (A.hnew_real hA) (fun _ _ => hA.2.2.2.2.2.2.1 _)
    (fun _ => hA.2.2.2.2.2.2.2 _)

/-- Tile by tile or in one pass, the first result is the same. -/
theorem Args.outT_eq_outW (A : Args) (hA : A.Real) : A.outT = A.outW :=
  funext fun i => outTiled_eq_outWhole A.logit (A.logit_real hA) (i 1)

end Cert.GruSpec

end
-- ==== Proof.lean ====
/-
  One decoder step of a GRU language model — the embedding row of a token, rectified; the reset, update and candidate
  gates; the new hidden state; the logits over 50257 words and their log-softmax — as two kernels (the GRU step, whose
  embedding block is placed by the token clipped to the table; the output projection, tiled over the vocabulary in 25
  tiles of 2048 lanes, each tile giving its slice of the logits, its maximum and its sum of exponentials about that
  maximum, the lanes past the vocabulary's end masked) and a short host combination of the tiles, against the plain
  reference: the same step with the log-softmax in one pass.

  What is proved. The three frames: each program runs to the end, nothing faulting, its nine argument arrays unchanged
  (the kernel programs' from the run of @main over its two kernel regions, at any float instance; the reference's from
  its run). The one ledger entry of the idealization: the mask's fill, a finite stand-in for -∞, is named -∞. And at
  the ideal instance, under the precondition — every float argument a real number, the token non-negative — both
  programs end with the same two results: the new hidden state is computed by the same operations on both sides, read
  index by index; the log-softmax agrees because, every logit being a real number, a lane holding -∞ adds nothing to
  a tile's sum of exponentials, and the tiles' sums about their own maxima recombine about the largest into the one
  sum the reference takes (module LseLaw).
-/
import proofs.«402431_j70918499992252_3_alg».proof.Defs
import proofs.«402431_j70918499992252_3_alg».proof.Proof.Gen.Kernel
import proofs.«402431_j70918499992252_3_alg».proof.Proof.Gen.KernelIdeal
import proofs.«402431_j70918499992252_3_alg».proof.Proof.Gen.ReferenceIdeal
import proofs.«402431_j70918499992252_3_alg».proof.Proof.Gen.Pre_finite_inputs
import proofs.«402431_j70918499992252_3_alg».proof.Proof.BitsFrameRun
import proofs.«402431_j70918499992252_3_alg».proof.Proof.FrameRun
import proofs.«402431_j70918499992252_3_alg».proof.Proof.KValue
import proofs.«402431_j70918499992252_3_alg».proof.Proof.RefRunH
import proofs.«402431_j70918499992252_3_alg».proof.Proof.RefValue
import proofs.«402431_j70918499992252_3_alg».proof.Proof.PreReal
import proofs.«402431_j70918499992252_3_alg».proof.Proof.Bridge
import Idealize.ShloMosaic.Adequacy
import Idealize.ShloMosaic.Init

noncomputable section

namespace Cert.Proof

open Idealize.ShloMosaic Idealize.ShloMosaic.TcCoe Idealize.SL.Sem

/-- The word-level program's frame: the run of @main at the bit-exact instance. -/
theorem frame_k : Cert.frame_Kernel := fun m ρ _ => Cert.Kernel.Hand.frame (F := Bits) m ρ

/-- The idealized program's frame: the same run at the ideal instance. -/
theorem frame_ki : Cert.frame_KernelIdeal := fun m ρ _ => Cert.KernelIdeal.Hand.frame (F := Ideal) m ρ

/-- The reference's frame: its run with the results dropped. -/
theorem frame_ri : Cert.frame_ReferenceIdeal := fun m ρ _ =>
  (θ_run Cert.ReferenceIdeal.defs _ _).mono (fun _ h c => (h c).2.2) (Cert.ReferenceIdeal.RunH.run (F := Ideal) m ρ)

/-- The ledger's one entry: the certificate's table gives the mask fill's name the value -∞. -/
theorem preserves : Cert.preserves_Kernel_KernelIdeal :=
  IdealRules.named_const.statement Cert.KernelIdeal.κ "neg_big" .f32 0xFF333333#32 ⊥ rfl

/-- At the ideal instance, from memories agreeing on the arguments, the kernel program ends with the tile-by-tile
    log-softmax of the logits and the new hidden state, the reference with the one-pass log-softmax and the new
    hidden state, of arguments that are real numbers: one pair of arrays. -/
theorem algebraic : Cert.algebraic_KernelIdeal_ReferenceIdeal := by
  intro m ρ m' ρ' hpre hagree
  have hp := fun c : Dev Cert.KernelIdeal.nD => Cert.PreReal.real_of_pre _ _ _ _ _ _ _ _ _ (hpre c)
  have htok : 0 ≤ (Cert.KernelIdeal.Hand.tok m).toInt := (hp 0).2
  refine ⟨fun c => (Cert.KernelIdeal.Hand.argsOf m c).outT, fun c => (Cert.KernelIdeal.Hand.argsOf m c).hid', ?_, ?_⟩
  · exact (θ_run Cert.KernelIdeal.defs _ _).mono
      (fun r h c => ⟨(Cert.KernelIdeal.Hand.results_of_runPost m htok r h c).1,
        (Cert.KernelIdeal.Hand.results_of_runPost m htok r h c).2,
        Cert.KernelIdeal.Hand.args_of_runPost m _ (Cert.KernelIdeal.Hand.rd1I_ok m) r h c⟩)
      (Cert.KernelIdeal.Hand.run_ideal m ρ)
  · refine (θ_run Cert.ReferenceIdeal.defs _ _).mono (fun r h c => ⟨?_, ?_, (h c).2.2⟩)
      (Cert.ReferenceIdeal.RunH.run (F := Ideal) m' ρ')
    · rw [(h c).1, (hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2,
        Cert.ReferenceIdeal.RefValue.ref_out _ _ _ _ _ _ _ _ _ (hp c).2]
      exact (Cert.GruSpec.Args.outT_eq_outW _ (hp c).1).symm
    · rw [(h c).2.1, (hagree c).1, (hagree c).2.1, (hagree c).2.2.1, (hagree c).2.2.2.1, (hagree c).2.2.2.2.1,
        (hagree c).2.2.2.2.2.1, (hagree c).2.2.2.2.2.2.1,
        Cert.ReferenceIdeal.RefValue.ref_hid _ _ _ _ _ _ _ _ _ (hp c).2]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
